-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2 : Shape := ⟨3, ![16, 1024, 2]⟩
abbrev S_ : Shape := ⟨0, ![]⟩

class Facts : Prop where
  bcast_S_S16x1024x2 : S_.BroadcastsInDim S16x1024x2 (![] : Fin 0 → Fin S16x1024x2.rank)
  reducesTo_S16x1024x2_S_d0_1_2 : S16x1024x2.ReducesTo [0, 1, 2] S_
  h_S_ : 0 < S_.numel

variable [Facts]

def fn {F : FTy → Type} [FloatOps F] (main_arg0 : FVec F S16x1024x2 .f32) (main_arg1 : FVec F S16x1024x2 .f32) : IVec S_ 1 :=
  let main_v0 : FVec F S16x1024x2 .f32 := Host.absf main_arg0
  let main_cst : FVec F S_ .f32 := constant S_ .f32 0x7F800000#32
  let main_v1 : FVec F S16x1024x2 .f32 := broadcastInDim S16x1024x2 ![] bcast_S_S16x1024x2 main_cst
  let main_v2 : IVec S16x1024x2 1 := cmpf .olt main_v0 main_v1
  let main_c : IVec S_ 1 := constantI S_ 1 1#1
  let main_v3 : IVec S_ 1 := (fun x v => Host.reduce IntOp.andi x v reducesTo_S16x1024x2_S_d0_1_2 h_S_) main_v2 main_c
  let main_v4 : FVec F S16x1024x2 .f32 := Host.absf main_arg1
  let main_cst_0 : FVec F S_ .f32 := constant S_ .f32 0x7F800000#32
  let main_v5 : FVec F S16x1024x2 .f32 := broadcastInDim S16x1024x2 ![] bcast_S_S16x1024x2 main_cst_0
  let main_v6 : IVec S16x1024x2 1 := cmpf .olt main_v4 main_v5
  let main_c_1 : IVec S_ 1 := constantI S_ 1 1#1
  let main_v7 : IVec S_ 1 := (fun x v => Host.reduce IntOp.andi x v reducesTo_S16x1024x2_S_d0_1_2 h_S_) main_v6 main_c_1
  let main_v8 : IVec S_ 1 := andi main_v3 main_v7
  main_v8
-- ==== Kernel.lean ====
abbrev S16x1024x2 : Shape := ⟨3, ![16, 1024, 2]⟩
abbrev S16x2x1024 : Shape := ⟨3, ![16, 2, 1024]⟩
abbrev S1x1x1 : Shape := ⟨3, ![1, 1, 1]⟩
abbrev S_ : Shape := ⟨0, ![]⟩
abbrev S1x2x1024 : Shape := ⟨3, ![1, 2, 1024]⟩
abbrev S1024x1024 : Shape := ⟨2, ![1024, 1024]⟩
abbrev S1x1x1024 : Shape := ⟨3, ![1, 1, 1024]⟩
abbrev S1x1024 : Shape := ⟨2, ![1, 1024]⟩
abbrev S1x1023 : Shape := ⟨2, ![1, 1023]⟩
abbrev S1x1 : Shape := ⟨2, ![1, 1]⟩
abbrev S1x1022 : Shape := ⟨2, ![1, 1022]⟩
abbrev S1x2 : Shape := ⟨2, ![1, 2]⟩
abbrev S1x1021 : Shape := ⟨2, ![1, 1021]⟩
abbrev S1x3 : Shape := ⟨2, ![1, 3]⟩
abbrev S1x1020 : Shape := ⟨2, ![1, 1020]⟩
abbrev S1x4 : Shape := ⟨2, ![1, 4]⟩
abbrev S1x1019 : Shape := ⟨2, ![1, 1019]⟩
abbrev S1x5 : Shape := ⟨2, ![1, 5]⟩
abbrev S1x1018 : Shape := ⟨2, ![1, 1018]⟩
abbrev S1x6 : Shape := ⟨2, ![1, 6]⟩
abbrev S1x1017 : Shape := ⟨2, ![1, 1017]⟩
abbrev S1x7 : Shape := ⟨2, ![1, 7]⟩
abbrev S8x1024 : Shape := ⟨2, ![8, 1024]⟩
abbrev S8x128 : Shape := ⟨2, ![8, 128]⟩
abbrev S8x896 : Shape := ⟨2, ![8, 896]⟩
abbrev S8x256 : Shape := ⟨2, ![8, 256]⟩
abbrev S8x768 : Shape := ⟨2, ![8, 768]⟩
abbrev S8x384 : Shape := ⟨2, ![8, 384]⟩
abbrev S8x640 : Shape := ⟨2, ![8, 640]⟩
abbrev S8x512 : Shape := ⟨2, ![8, 512]⟩
abbrev S8x1016 : Shape := ⟨2, ![8, 1016]⟩
abbrev S8x8 : Shape := ⟨2, ![8, 8]⟩
abbrev S1024x8 : Shape := ⟨2, ![1024, 8]⟩
abbrev S1x1024x8 : Shape := ⟨3, ![1, 1024, 8]⟩
abbrev S1 : Shape := ⟨1, ![1]⟩

abbrev nBuf : Space → Nat
  | .hbm => 6
  | .vmem => 6
  | .smem => 0
  | _ => 0

abbrev bufTy : (tb : Table) → Fin (tcTables nBuf tb) → BufTy
  | .hbm, ⟨0, _⟩ => ⟨S16x1024x2, .f32⟩
  | .hbm, ⟨1, _⟩ => ⟨S16x1024x2, .f32⟩
  | .hbm, ⟨2, _⟩ => ⟨S16x2x1024, .f32⟩
  | .hbm, ⟨3, _⟩ => ⟨S16x2x1024, .f32⟩
  | .hbm, ⟨4, _⟩ => ⟨S1x1x1, .f32⟩
  | .hbm, ⟨5, _⟩ => ⟨S_, .f32⟩
  | .local _ .vmem, ⟨0, _⟩ => ⟨S1x2x1024, .f32⟩
  | .local _ .vmem, ⟨1, _⟩ => ⟨S1x2x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1x1, .f32⟩
  | .local _ .vmem, ⟨5, _⟩ => ⟨S1024x1024, .f32⟩
  | _, _ => ⟨S16x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v2500 : BitVec 1 := Scalar.cmpi .eq arg0 c0_i32
  let v2501 : BitVec 32 := Scalar.extui v2500
  let c0_i32_399 : BitVec 32 := 0#32
  let v2502 : BitVec 1 := Scalar.cmpi .ne v2501 c0_i32_399
  v2502

def k0_cond2 (i : grid0.Coords) : BitVec 1 :=
  let arg0 : BitVec 32 := BitVec.ofNat 32 (i 0).val
  let c0_i32_400 : BitVec 32 := 0#32
  let v2503 : BitVec 1 := Scalar.cmpi .sgt arg0 c0_i32_400
  let v2504 : BitVec 32 := Scalar.extui v2503
  let c0_i32_401 : BitVec 32 := 0#32
  let v2505 : BitVec 1 := Scalar.cmpi .ne v2504 c0_i32_401
  v2505

def k0_cond3 (i : grid0.Coords) : BitVec 1 :=
  let arg0 : BitVec 32 := BitVec.ofNat 32 (i 0).val
  let c15_i32 : BitVec 32 := 15#32
  let v2506 : BitVec 1 := Scalar.cmpi .eq arg0 c15_i32
  let v2507 : BitVec 32 := Scalar.extui v2506
  let c0_i32_402 : BitVec 32 := 0#32
  let v2508 : BitVec 1 := Scalar.cmpi .ne v2507 c0_i32_402
  v2508

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S16x1024x2_S16x2x1024_0_2_1 : S16x1024x2.Transposes [0, 2, 1] S16x2x1024
  shapeCasts_S1x1x1_S_ : S1x1x1.ShapeCasts S_
  inb_S1x2x1024_S1x1x1024_0_0_0 : ∀ a, (![0, 0, 0] : Fin 3 → Nat) a + S1x1x1024.size a ≤ S1x2x1024.size a
  h_S1x1x1024 : 0 < S1x1x1024.numel
  shapeCasts_S1x1x1024_S1x1024 : S1x1x1024.ShapeCasts S1x1024
  inb_S1x2x1024_S1x1x1024_0_1_0 : ∀ a, (![0, 1, 0] : Fin 3 → Nat) a + S1x1x1024.size a ≤ S1x2x1024.size a
  slices_S1x1024_o0_1_S1x1023 : S1x1024.Slices ![0, 1] S1x1023
  slices_S1x1024_o0_0_S1x1 : S1x1024.Slices ![0, 0] S1x1
  concatenates_S1x1023_S1x1_S1x1024_d1 : Shape.Concatenates [S1x1023, S1x1] S1x1024 1
  slices_S1x1024_o0_2_S1x1022 : S1x1024.Slices ![0, 2] S1x1022
  slices_S1x1024_o0_0_S1x2 : S1x1024.Slices ![0, 0] S1x2
  concatenates_S1x1022_S1x2_S1x1024_d1 : Shape.Concatenates [S1x1022, S1x2] S1x1024 1
  slices_S1x1024_o0_3_S1x1021 : S1x1024.Slices ![0, 3] S1x1021
  slices_S1x1024_o0_0_S1x3 : S1x1024.Slices ![0, 0] S1x3
  concatenates_S1x1021_S1x3_S1x1024_d1 : Shape.Concatenates [S1x1021, S1x3] S1x1024 1
  slices_S1x1024_o0_4_S1x1020 : S1x1024.Slices ![0, 4] S1x1020
  slices_S1x1024_o0_0_S1x4 : S1x1024.Slices ![0, 0] S1x4
  concatenates_S1x1020_S1x4_S1x1024_d1 : Shape.Concatenates [S1x1020, S1x4] S1x1024 1
  slices_S1x1024_o0_5_S1x1019 : S1x1024.Slices ![0, 5] S1x1019
  slices_S1x1024_o0_0_S1x5 : S1x1024.Slices ![0, 0] S1x5
  concatenates_S1x1019_S1x5_S1x1024_d1 : Shape.Concatenates [S1x1019, S1x5] S1x1024 1
  slices_S1x1024_o0_6_S1x1018 : S1x1024.Slices ![0, 6] S1x1018
  slices_S1x1024_o0_0_S1x6 : S1x1024.Slices ![0, 0] S1x6
  concatenates_S1x1018_S1x6_S1x1024_d1 : Shape.Concatenates [S1x1018, S1x6] S1x1024 1
  slices_S1x1024_o0_7_S1x1017 : S1x1024.Slices ![0, 7] S1x1017
  slices_S1x1024_o0_0_S1x7 : S1x1024.Slices ![0, 0] S1x7
  concatenates_S1x1017_S1x7_S1x1024_d1 : Shape.Concatenates [S1x1017, S1x7] S1x1024 1
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  shapeCasts_S1x1024_S1x1024 : S1x1024.ShapeCasts S1x1024
  broadcasts_S1x1024_S8x1024 : S1x1024.Broadcasts S8x1024
  slices_S8x1024_o0_896_S8x128 : S8x1024.Slices ![0, 896] S8x128
  slices_S8x1024_o0_0_S8x896 : S8x1024.Slices ![0, 0] S8x896
  concatenates_S8x128_S8x896_S8x1024_d1 : Shape.Concatenates [S8x128, S8x896] S8x1024 1
  slices_S8x1024_o0_768_S8x256 : S8x1024.Slices ![0, 768] S8x256
  slices_S8x1024_o0_0_S8x768 : S8x1024.Slices ![0, 0] S8x768
  concatenates_S8x256_S8x768_S8x1024_d1 : Shape.Concatenates [S8x256, S8x768] S8x1024 1
  slices_S8x1024_o0_640_S8x384 : S8x1024.Slices ![0, 640] S8x384
  slices_S8x1024_o0_0_S8x640 : S8x1024.Slices ![0, 0] S8x640
  concatenates_S8x384_S8x640_S8x1024_d1 : Shape.Concatenates [S8x384, S8x640] S8x1024 1
  slices_S8x1024_o0_512_S8x512 : S8x1024.Slices ![0, 512] S8x512
  slices_S8x1024_o0_0_S8x512 : S8x1024.Slices ![0, 0] S8x512
  concatenates_S8x512_S8x512_S8x1024_d1 : Shape.Concatenates [S8x512, S8x512] S8x1024 1
  slices_S8x1024_o0_384_S8x640 : S8x1024.Slices ![0, 384] S8x640
  slices_S8x1024_o0_0_S8x384 : S8x1024.Slices ![0, 0] S8x384
  concatenates_S8x640_S8x384_S8x1024_d1 : Shape.Concatenates [S8x640, S8x384] S8x1024 1
  slices_S8x1024_o0_256_S8x768 : S8x1024.Slices ![0, 256] S8x768
  slices_S8x1024_o0_0_S8x256 : S8x1024.Slices ![0, 0] S8x256
  concatenates_S8x768_S8x256_S8x1024_d1 : Shape.Concatenates [S8x768, S8x256] S8x1024 1
  slices_S8x1024_o0_128_S8x896 : S8x1024.Slices ![0, 128] S8x896
  slices_S8x1024_o0_0_S8x128 : S8x1024.Slices ![0, 0] S8x128
  concatenates_S8x896_S8x128_S8x1024_d1 : Shape.Concatenates [S8x896, S8x128] S8x1024 1
  inb_S1024x1024_S8x1024_0_0 : ∀ a, (![0, 0] : Fin 2 → Nat) a + S8x1024.size a ≤ S1024x1024.size a
  h_S8x1024 : 0 < S8x1024.numel
  shapeCasts_S8x1024_S8x1024 : S8x1024.ShapeCasts S8x1024
  inb_S1024x1024_S8x1024_8_0 : ∀ a, (![8, 0] : Fin 2 → Nat) a + S8x1024.size a ≤ S1024x1024.size a
  inb_S1024x1024_S8x1024_16_0 : ∀ a, (![16, 0] : Fin 2 → Nat) a + S8x1024.size a ≤ S1024x1024.size a
  inb_S1024x1024_S8x1024_24_0 : ∀ a, (![24, 0] : Fin 2 → Nat) a + S8x1024.size a ≤ S1024x1024.size a
  inb_S1024x1024_S8x1024_32_0 : ∀ a, (![32, 0] : Fin 2 → Nat) a + S8x1024.size a ≤ S1024x1024.size a
  inb_S1024x1024_S8x1024_40_0 : ∀ a, (![40, 0] : Fin 2 → Nat) a + S8x1024.size a ≤ S1024x1024.size a
  inb_S1024x1024_S8x1024_48_0 : ∀ a, (![48, 0] : Fin 2 → Nat) a + S8x1024.size a ≤ S1024x1024.size a
  inb_S1024x1024_S8x1024_56_0 : ∀ a, (![56, 0] : Fin 2 → Nat) a + S8x1024.size a ≤ S1024x1024.size a
  slices_S8x1024_o0_8_S8x1016 : S8x1024.Slices ![0, 8] S8x1016
  slices_S8x1024_o0_0_S8x8 : S8x1024.Slices ![0, 0] S8x8
  concatenates_S8x1016_S8x8_S8x1024_d1 : Shape.Concatenates [S8x1016, S8x8] S8x1024 1
  inb_S1024x1024_S8x1024_64_0 : ∀ a, (![64, 0] : Fin 2 → Nat) a + S8x1024.size a ≤ S1024x1024.size a
  inb_S1024x1024_S8x1024_72_0 : ∀ a, (![72, 0] : Fin 2 → Nat) a + S8x1024.size a ≤ S1024x1024.size a
  inb_S1024x1024_S8x1024_80_0 : ∀ a, (![80, 0] : Fin 2 → Nat) a + S8x1024.size a ≤ S1024x1024.size a
  inb_S1024x1024_S8x1024_88_0 : ∀ a, (![88, 0] : Fin 2 → Nat) a + S8x1024.size a ≤ S1024x1024.size a
  inb_S1024x1024_S8x1024_96_0 : ∀ a, (![96, 0] : Fin 2 → Nat) a + S8x1024.size a ≤ S1024x1024.size a
  inb_S1024x1024_S8x1024_104_0 : ∀ a, (![104, 0] : Fin 2 → Nat) a + S8x1024.size a ≤ S1024x1024.size a
  inb_S1024x1024_S8x1024_112_0 : ∀ a, (![112, 0] : Fin 2 → Nat) a + S8x1024.size a ≤ S1024x1024.size a
  inb_S1024x1024_S8x1024_120_0 : ∀ a, (![120, 0] : Fin 2 → Nat) a + S8x1024.size a ≤ S1024x1024.size a
  inb_S1024x1024_S8x1024_128_0 : ∀ a, (![128, 0] : Fin 2 → Nat) a + S8x1024.size a ≤ S1024x1024.size a
  inb_S1024x1024_S8x1024_136_0 : ∀ a, (![136, 0] : Fin 2 → Nat) a + S8x1024.size a ≤ S1024x1024.size a
  inb_S1024x1024_S8x1024_144_0 : ∀ a, (![144, 0] : Fin 2 → Nat) a + S8x1024.size a ≤ S1024x1024.size a
  inb_S1024x1024_S8x1024_152_0 : ∀ a, (![152, 0] : Fin 2 → Nat) a + S8x1024.size a ≤ S1024x1024.size a
  inb_S1024x1024_S8x1024_160_0 : ∀ a, (![160, 0] : Fin 2 → Nat) a + S8x1024.size a ≤ S1024x1024.size a
  inb_S1024x1024_S8x1024_168_0 : ∀ a, (![168, 0] : Fin 2 → Nat) a + S8x1024.size a ≤ S1024x1024.size a
  inb_S1024x1024_S8x1024_176_0 : ∀ a, (![176, 0] : Fin 2 → Nat) a + S8x1024.size a ≤ S1024x1024.size a
  inb_S1024x1024_S8x1024_184_0 : ∀ a, (![184, 0] : Fin 2 → Nat) a + S8x1024.size a ≤ S1024x1024.size a
  inb_S1024x1024_S8x1024_192_0 : ∀ a, (![192, 0] : Fin 2 → Nat) a + S8x1024.size a ≤ S1024x1024.size a
  inb_S1024x1024_S8x1024_200_0 : ∀ a, (![200, 0] : Fin 2 → Nat) a + S8x1024.size a ≤ S1024x1024.size a
  inb_S1024x1024_S8x1024_208_0 : ∀ a, (![208, 0] : Fin 2 → Nat) a + S8x1024.size a ≤ S1024x1024.size a
  inb_S1024x1024_S8x1024_216_0 : ∀ a, (![216, 0] : Fin 2 → Nat) a + S8x1024.size a ≤ S1024x1024.size a
  inb_S1024x1024_S8x1024_224_0 : ∀ a, (![224, 0] : Fin 2 → Nat) a + S8x1024.size a ≤ S1024x1024.size a
  inb_S1024x1024_S8x1024_232_0 : ∀ a, (![232, 0] : Fin 2 → Nat) a + S8x1024.size a ≤ S1024x1024.size a
  inb_S1024x1024_S8x1024_240_0 : ∀ a, (![240, 0] : Fin 2 → Nat) a + S8x1024.size a ≤ S1024x1024.size a
  inb_S1024x1024_S8x1024_248_0 : ∀ a, (![248, 0] : Fin 2 → Nat) a + S8x1024.size a ≤ S1024x1024.size a
  inb_S1024x1024_S8x1024_256_0 : ∀ a, (![256, 0] : Fin 2 → Nat) a + S8x1024.size a ≤ S1024x1024.size a
  inb_S1024x1024_S8x1024_264_0 : ∀ a, (![264, 0] : Fin 2 → Nat) a + S8x1024.size a ≤ S1024x1024.size a
  inb_S1024x1024_S8x1024_272_0 : ∀ a, (![272, 0] : Fin 2 → Nat) a + S8x1024.size a ≤ S1024x1024.size a
  inb_S1024x1024_S8x1024_280_0 : ∀ a, (![280, 0] : Fin 2 → Nat) a + S8x1024.size a ≤ S1024x1024.size a
  inb_S1024x1024_S8x1024_288_0 : ∀ a, (![288, 0] : Fin 2 → Nat) a + S8x1024.size a ≤ S1024x1024.size a
  inb_S1024x1024_S8x1024_296_0 : ∀ a, (![296, 0] : Fin 2 → Nat) a + S8x1024.size a ≤ S1024x1024.size a
  inb_S1024x1024_S8x1024_304_0 : ∀ a, (![304, 0] : Fin 2 → Nat) a + S8x1024.size a ≤ S1024x1024.size a
  inb_S1024x1024_S8x1024_312_0 : ∀ a, (![312, 0] : Fin 2 → Nat) a + S8x1024.size a ≤ S1024x1024.size a
  inb_S1024x1024_S8x1024_320_0 : ∀ a, (![320, 0] : Fin 2 → Nat) a + S8x1024.size a ≤ S1024x1024.size a
  inb_S1024x1024_S8x1024_328_0 : ∀ a, (![328, 0] : Fin 2 → Nat) a + S8x1024.size a ≤ S1024x1024.size a
  inb_S1024x1024_S8x1024_336_0 : ∀ a, (![336, 0] : Fin 2 → Nat) a + S8x1024.size a ≤ S1024x1024.size a
  inb_S1024x1024_S8x1024_344_0 : ∀ a, (![344, 0] : Fin 2 → Nat) a + S8x1024.size a ≤ S1024x1024.size a
  inb_S1024x1024_S8x1024_352_0 : ∀ a, (![352, 0] : Fin 2 → Nat) a + S8x1024.size a ≤ S1024x1024.size a
  inb_S1024x1024_S8x1024_360_0 : ∀ a, (![360, 0] : Fin 2 → Nat) a + S8x1024.size a ≤ S1024x1024.size a
  inb_S1024x1024_S8x1024_368_0 : ∀ a, (![368, 0] : Fin 2 → Nat) a + S8x1024.size a ≤ S1024x1024.size a
  inb_S1024x1024_S8x1024_376_0 : ∀ a, (![376, 0] : Fin 2 → Nat) a + S8x1024.size a ≤ S1024x1024.size a
  inb_S1024x1024_S8x1024_384_0 : ∀ a, (![384, 0] : Fin 2 → Nat) a + S8x1024.size a ≤ S1024x1024.size a
  inb_S1024x1024_S8x1024_392_0 : ∀ a, (![392, 0] : Fin 2 → Nat) a + S8x1024.size a ≤ S1024x1024.size a
  inb_S1024x1024_S8x1024_400_0 : ∀ a, (![400, 0] : Fin 2 → Nat) a + S8x1024.size a ≤ S1024x1024.size a
  inb_S1024x1024_S8x1024_408_0 : ∀ a, (![408, 0] : Fin 2 → Nat) a + S8x1024.size a ≤ S1024x1024.size a
  inb_S1024x1024_S8x1024_416_0 : ∀ a, (![416, 0] : Fin 2 → Nat) a + S8x1024.size a ≤ S1024x1024.size a
  inb_S1024x1024_S8x1024_424_0 : ∀ a, (![424, 0] : Fin 2 → Nat) a + S8x1024.size a ≤ S1024x1024.size a
  inb_S1024x1024_S8x1024_432_0 : ∀ a, (![432, 0] : Fin 2 → Nat) a + S8x1024.size a ≤ S1024x1024.size a
  inb_S1024x1024_S8x1024_440_0 : ∀ a, (![440, 0] : Fin 2 → Nat) a + S8x1024.size a ≤ S1024x1024.size a
  inb_S1024x1024_S8x1024_448_0 : ∀ a, (![448, 0] : Fin 2 → Nat) a + S8x1024.size a ≤ S1024x1024.size a
  inb_S1024x1024_S8x1024_456_0 : ∀ a, (![456, 0] : Fin 2 → Nat) a + S8x1024.size a ≤ S1024x1024.size a
  inb_S1024x1024_S8x1024_464_0 : ∀ a, (![464, 0] : Fin 2 → Nat) a + S8x1024.size a ≤ S1024x1024.size a
  inb_S1024x1024_S8x1024_472_0 : ∀ a, (![472, 0] : Fin 2 → Nat) a + S8x1024.size a ≤ S1024x1024.size a
  inb_S1024x1024_S8x1024_480_0 : ∀ a, (![480, 0] : Fin 2 → Nat) a + S8x1024.size a ≤ S1024x1024.size a
  inb_S1024x1024_S8x1024_488_0 : ∀ a, (![488, 0] : Fin 2 → Nat) a + S8x1024.size a ≤ S1024x1024.size a
  inb_S1024x1024_S8x1024_496_0 : ∀ a, (![496, 0] : Fin 2 → Nat) a + S8x1024.size a ≤ S1024x1024.size a
  inb_S1024x1024_S8x1024_504_0 : ∀ a, (![504, 0] : Fin 2 → Nat) a + S8x1024.size a ≤ S1024x1024.size a
  inb_S1024x1024_S8x1024_512_0 : ∀ a, (![512, 0] : Fin 2 → Nat) a + S8x1024.size a ≤ S1024x1024.size a
  inb_S1024x1024_S8x1024_520_0 : ∀ a, (![520, 0] : Fin 2 → Nat) a + S8x1024.size a ≤ S1024x1024.size a
  inb_S1024x1024_S8x1024_528_0 : ∀ a, (![528, 0] : Fin 2 → Nat) a + S8x1024.size a ≤ S1024x1024.size a
  inb_S1024x1024_S8x1024_536_0 : ∀ a, (![536, 0] : Fin 2 → Nat) a + S8x1024.size a ≤ S1024x1024.size a
  inb_S1024x1024_S8x1024_544_0 : ∀ a, (![544, 0] : Fin 2 → Nat) a + S8x1024.size a ≤ S1024x1024.size a
  inb_S1024x1024_S8x1024_552_0 : ∀ a, (![552, 0] : Fin 2 → Nat) a + S8x1024.size a ≤ S1024x1024.size a
  inb_S1024x1024_S8x1024_560_0 : ∀ a, (![560, 0] : Fin 2 → Nat) a + S8x1024.size a ≤ S1024x1024.size a
  inb_S1024x1024_S8x1024_568_0 : ∀ a, (![568, 0] : Fin 2 → Nat) a + S8x1024.size a ≤ S1024x1024.size a
  inb_S1024x1024_S8x1024_576_0 : ∀ a, (![576, 0] : Fin 2 → Nat) a + S8x1024.size a ≤ S1024x1024.size a
  inb_S1024x1024_S8x1024_584_0 : ∀ a, (![584, 0] : Fin 2 → Nat) a + S8x1024.size a ≤ S1024x1024.size a
  inb_S1024x1024_S8x1024_592_0 : ∀ a, (![592, 0] : Fin 2 → Nat) a + S8x1024.size a ≤ S1024x1024.size a
  inb_S1024x1024_S8x1024_600_0 : ∀ a, (![600, 0] : Fin 2 → Nat) a + S8x1024.size a ≤ S1024x1024.size a
  inb_S1024x1024_S8x1024_608_0 : ∀ a, (![608, 0] : Fin 2 → Nat) a + S8x1024.size a ≤ S1024x1024.size a
  inb_S1024x1024_S8x1024_616_0 : ∀ a, (![616, 0] : Fin 2 → Nat) a + S8x1024.size a ≤ S1024x1024.size a
  inb_S1024x1024_S8x1024_624_0 : ∀ a, (![624, 0] : Fin 2 → Nat) a + S8x1024.size a ≤ S1024x1024.size a
  inb_S1024x1024_S8x1024_632_0 : ∀ a, (![632, 0] : Fin 2 → Nat) a + S8x1024.size a ≤ S1024x1024.size a
  inb_S1024x1024_S8x1024_640_0 : ∀ a, (![640, 0] : Fin 2 → Nat) a + S8x1024.size a ≤ S1024x1024.size a
  inb_S1024x1024_S8x1024_648_0 : ∀ a, (![648, 0] : Fin 2 → Nat) a + S8x1024.size a ≤ S1024x1024.size a
  inb_S1024x1024_S8x1024_656_0 : ∀ a, (![656, 0] : Fin 2 → Nat) a + S8x1024.size a ≤ S1024x1024.size a
  inb_S1024x1024_S8x1024_664_0 : ∀ a, (![664, 0] : Fin 2 → Nat) a + S8x1024.size a ≤ S1024x1024.size a
  inb_S1024x1024_S8x1024_672_0 : ∀ a, (![672, 0] : Fin 2 → Nat) a + S8x1024.size a ≤ S1024x1024.size a
  inb_S1024x1024_S8x1024_680_0 : ∀ a, (![680, 0] : Fin 2 → Nat) a + S8x1024.size a ≤ S1024x1024.size a
  inb_S1024x1024_S8x1024_688_0 : ∀ a, (![688, 0] : Fin 2 → Nat) a + S8x1024.size a ≤ S1024x1024.size a
  inb_S1024x1024_S8x1024_696_0 : ∀ a, (![696, 0] : Fin 2 → Nat) a + S8x1024.size a ≤ S1024x1024.size a
  inb_S1024x1024_S8x1024_704_0 : ∀ a, (![704, 0] : Fin 2 → Nat) a + S8x1024.size a ≤ S1024x1024.size a
  inb_S1024x1024_S8x1024_712_0 : ∀ a, (![712, 0] : Fin 2 → Nat) a + S8x1024.size a ≤ S1024x1024.size a
  inb_S1024x1024_S8x1024_720_0 : ∀ a, (![720, 0] : Fin 2 → Nat) a + S8x1024.size a ≤ S1024x1024.size a
  inb_S1024x1024_S8x1024_728_0 : ∀ a, (![728, 0] : Fin 2 → Nat) a + S8x1024.size a ≤ S1024x1024.size a
  inb_S1024x1024_S8x1024_736_0 : ∀ a, (![736, 0] : Fin 2 → Nat) a + S8x1024.size a ≤ S1024x1024.size a
  inb_S1024x1024_S8x1024_744_0 : ∀ a, (![744, 0] : Fin 2 → Nat) a + S8x1024.size a ≤ S1024x1024.size a
  inb_S1024x1024_S8x1024_752_0 : ∀ a, (![752, 0] : Fin 2 → Nat) a + S8x1024.size a ≤ S1024x1024.size a
  inb_S1024x1024_S8x1024_760_0 : ∀ a, (![760, 0] : Fin 2 → Nat) a + S8x1024.size a ≤ S1024x1024.size a
  inb_S1024x1024_S8x1024_768_0 : ∀ a, (![768, 0] : Fin 2 → Nat) a + S8x1024.size a ≤ S1024x1024.size a
  inb_S1024x1024_S8x1024_776_0 : ∀ a, (![776, 0] : Fin 2 → Nat) a + S8x1024.size a ≤ S1024x1024.size a
  inb_S1024x1024_S8x1024_784_0 : ∀ a, (![784, 0] : Fin 2 → Nat) a + S8x1024.size a ≤ S1024x1024.size a
  inb_S1024x1024_S8x1024_792_0 : ∀ a, (![792, 0] : Fin 2 → Nat) a + S8x1024.size a ≤ S1024x1024.size a
  inb_S1024x1024_S8x1024_800_0 : ∀ a, (![800, 0] : Fin 2 → Nat) a + S8x1024.size a ≤ S1024x1024.size a
  inb_S1024x1024_S8x1024_808_0 : ∀ a, (![808, 0] : Fin 2 → Nat) a + S8x1024.size a ≤ S1024x1024.size a
  inb_S1024x1024_S8x1024_816_0 : ∀ a, (![816, 0] : Fin 2 → Nat) a + S8x1024.size a ≤ S1024x1024.size a
  inb_S1024x1024_S8x1024_824_0 : ∀ a, (![824, 0] : Fin 2 → Nat) a + S8x1024.size a ≤ S1024x1024.size a
  inb_S1024x1024_S8x1024_832_0 : ∀ a, (![832, 0] : Fin 2 → Nat) a + S8x1024.size a ≤ S1024x1024.size a
  inb_S1024x1024_S8x1024_840_0 : ∀ a, (![840, 0] : Fin 2 → Nat) a + S8x1024.size a ≤ S1024x1024.size a
  inb_S1024x1024_S8x1024_848_0 : ∀ a, (![848, 0] : Fin 2 → Nat) a + S8x1024.size a ≤ S1024x1024.size a
  inb_S1024x1024_S8x1024_856_0 : ∀ a, (![856, 0] : Fin 2 → Nat) a + S8x1024.size a ≤ S1024x1024.size a
  inb_S1024x1024_S8x1024_864_0 : ∀ a, (![864, 0] : Fin 2 → Nat) a + S8x1024.size a ≤ S1024x1024.size a
  inb_S1024x1024_S8x1024_872_0 : ∀ a, (![872, 0] : Fin 2 → Nat) a + S8x1024.size a ≤ S1024x1024.size a
  inb_S1024x1024_S8x1024_880_0 : ∀ a, (![880, 0] : Fin 2 → Nat) a + S8x1024.size a ≤ S1024x1024.size a
  inb_S1024x1024_S8x1024_888_0 : ∀ a, (![888, 0] : Fin 2 → Nat) a + S8x1024.size a ≤ S1024x1024.size a
  inb_S1024x1024_S8x1024_896_0 : ∀ a, (![896, 0] : Fin 2 → Nat) a + S8x1024.size a ≤ S1024x1024.size a
  inb_S1024x1024_S8x1024_904_0 : ∀ a, (![904, 0] : Fin 2 → Nat) a + S8x1024.size a ≤ S1024x1024.size a
  inb_S1024x1024_S8x1024_912_0 : ∀ a, (![912, 0] : Fin 2 → Nat) a + S8x1024.size a ≤ S1024x1024.size a
  inb_S1024x1024_S8x1024_920_0 : ∀ a, (![920, 0] : Fin 2 → Nat) a + S8x1024.size a ≤ S1024x1024.size a
  inb_S1024x1024_S8x1024_928_0 : ∀ a, (![928, 0] : Fin 2 → Nat) a + S8x1024.size a ≤ S1024x1024.size a
  inb_S1024x1024_S8x1024_936_0 : ∀ a, (![936, 0] : Fin 2 → Nat) a + S8x1024.size a ≤ S1024x1024.size a
  inb_S1024x1024_S8x1024_944_0 : ∀ a, (![944, 0] : Fin 2 → Nat) a + S8x1024.size a ≤ S1024x1024.size a
  inb_S1024x1024_S8x1024_952_0 : ∀ a, (![952, 0] : Fin 2 → Nat) a + S8x1024.size a ≤ S1024x1024.size a
  inb_S1024x1024_S8x1024_960_0 : ∀ a, (![960, 0] : Fin 2 → Nat) a + S8x1024.size a ≤ S1024x1024.size a
  inb_S1024x1024_S8x1024_968_0 : ∀ a, (![968, 0] : Fin 2 → Nat) a + S8x1024.size a ≤ S1024x1024.size a
  inb_S1024x1024_S8x1024_976_0 : ∀ a, (![976, 0] : Fin 2 → Nat) a + S8x1024.size a ≤ S1024x1024.size a
  inb_S1024x1024_S8x1024_984_0 : ∀ a, (![984, 0] : Fin 2 → Nat) a + S8x1024.size a ≤ S1024x1024.size a
  inb_S1024x1024_S8x1024_992_0 : ∀ a, (![992, 0] : Fin 2 → Nat) a + S8x1024.size a ≤ S1024x1024.size a
  inb_S1024x1024_S8x1024_1000_0 : ∀ a, (![1000, 0] : Fin 2 → Nat) a + S8x1024.size a ≤ S1024x1024.size a
  inb_S1024x1024_S8x1024_1008_0 : ∀ a, (![1008, 0] : Fin 2 → Nat) a + S8x1024.size a ≤ S1024x1024.size a
  inb_S1024x1024_S8x1024_1016_0 : ∀ a, (![1016, 0] : Fin 2 → Nat) a + S8x1024.size a ≤ S1024x1024.size a
  inb_S1024x1024_S1024x1024_0_0 : ∀ a, (![0, 0] : Fin 2 → Nat) a + S1024x1024.size a ≤ S1024x1024.size a
  h_S1024x1024 : 0 < S1024x1024.numel
  shapeCasts_S1024x8_S1x1024x8 : S1024x8.ShapeCasts S1x1024x8
  reduces_S1x1024x8_S1 : S1x1024x8.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  dot_S1024x1024_S1024x8_S1024x8_1_0_0_1_n_n_wf : DotDims.WF S1024x1024 S1024x8 S1024x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024.size a ≤ S16x2x1024.size a
  hwx0_0 : ∀ i : grid0.Coords, EltTy.bits .f32 = 32 ∨ (Rect.block (s := S16x2x1024) S1x2x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S16x2x1024.size a
  hwx0_1 : ∀ i : grid0.Coords, EltTy.bits .f32 = 32 ∨ (Rect.block (s := S16x2x1024) S1x2x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S1x1x1.size a
  hwx0_2 : ∀ i : grid0.Coords, EltTy.bits .f32 = 32 ∨ (Rect.block (s := S1x1x1) S1x1x1.size (cc0_transform_2 i) (hinb0_2 i)).WholeWords (EltTy.packing .f32)

variable [Facts₀]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf

abbrev win0_0 : Pipeline.Window sig grid0 :=
  Pipeline.Window.ofSpec (Memref.whole main_call0_v0) S1x2x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S16x1024x2 : Shape := ⟨3, ![16, 1024, 2]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S1048576 : Shape := ⟨1, ![1048576]⟩
abbrev S1048576x1 : Shape := ⟨2, ![1048576, 1]⟩
abbrev S1 : Shape := ⟨1, ![1]⟩
abbrev S1x1 : Shape := ⟨2, ![1, 1]⟩
abbrev S16x1048576x2 : Shape := ⟨3, ![16, 1048576, 2]⟩
abbrev S16x1024x1024x2 : Shape := ⟨4, ![16, 1024, 1024, 2]⟩
abbrev S16x1x1024x2 : Shape := ⟨4, ![16, 1, 1024, 2]⟩
abbrev S16x1024x1024 : Shape := ⟨3, ![16, 1024, 1024]⟩
abbrev S16x1024 : Shape := ⟨2, ![16, 1024]⟩
abbrev S16 : Shape := ⟨1, ![16]⟩

abbrev nBuf : Space → Nat
  | .hbm => 83
  | .vmem => 0
  | .smem => 0
  | _ => 0

abbrev bufTy : (tb : Table) → Fin (tcTables nBuf tb) → BufTy
  | .hbm, ⟨0, _⟩ => ⟨S16x1024x2, .f32⟩
  | .hbm, ⟨1, _⟩ => ⟨S16x1024x2, .f32⟩
  | .hbm, ⟨2, _⟩ => ⟨S1024, .i32⟩
  | .hbm, ⟨3, _⟩ => ⟨S1x1024, .i32⟩
  | .hbm, ⟨4, _⟩ => ⟨S1024x1, .i32⟩
  | .hbm, ⟨5, _⟩ => ⟨S1024x1024, .i32⟩
  | .hbm, ⟨6, _⟩ => ⟨S1024x1024, .i32⟩
  | .hbm, ⟨7, _⟩ => ⟨S1024x1024, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S1024x1024, .i32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i1⟩
  | .hbm, ⟨19, _⟩ => ⟨S_, .i32⟩
  | .hbm, ⟨20, _⟩ => ⟨S1024x1024, .i32⟩
  | .hbm, ⟨21, _⟩ => ⟨S1024x1024, .i1⟩
  | .hbm, ⟨22, _⟩ => ⟨S_, .i32⟩
  | .hbm, ⟨23, _⟩ => ⟨S_, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i32⟩
  | .hbm, ⟨28, _⟩ => ⟨S1024x1024, .i32⟩
  | .hbm, ⟨29, _⟩ => ⟨S1024x1024, .i32⟩
  | .hbm, ⟨30, _⟩ => ⟨S1048576, .i32⟩
  | .hbm, ⟨31, _⟩ => ⟨S_, .i32⟩
  | .hbm, ⟨32, _⟩ => ⟨S1048576, .i32⟩
  | .hbm, ⟨33, _⟩ => ⟨S1048576, .i1⟩
  | .hbm, ⟨34, _⟩ => ⟨S_, .i32⟩
  | .hbm, ⟨35, _⟩ => ⟨S1048576, .i32⟩
  | .hbm, ⟨36, _⟩ => ⟨S1048576, .i32⟩
  | .hbm, ⟨37, _⟩ => ⟨S1048576, .i32⟩
  | .hbm, ⟨38, _⟩ => ⟨S1048576x1, .i32⟩
  | .hbm, ⟨39, _⟩ => ⟨S1, .i32⟩
  | .hbm, ⟨40, _⟩ => ⟨S_, .i32⟩
  | .hbm, ⟨41, _⟩ => ⟨S1048576x1, .i32⟩
  | .hbm, ⟨42, _⟩ => ⟨S1048576x1, .i1⟩
  | .hbm, ⟨43, _⟩ => ⟨S1x1, .i32⟩
  | .hbm, ⟨44, _⟩ => ⟨S1048576x1, .i32⟩
  | .hbm, ⟨45, _⟩ => ⟨S1048576x1, .i1⟩
  | .hbm, ⟨46, _⟩ => ⟨S1048576x1, .i1⟩
  | .hbm, ⟨47, _⟩ => ⟨S_, .i1⟩
  | .hbm, ⟨48, _⟩ => ⟨S1048576, .i1⟩
  | .hbm, ⟨49, _⟩ => ⟨S16x1048576x2, .f32⟩
  | .hbm, ⟨50, _⟩ => ⟨S16x1048576x2, .i1⟩
  | .hbm, ⟨51, _⟩ => ⟨S_, .f32⟩
  | .hbm, ⟨52, _⟩ => ⟨S16x1048576x2, .f32⟩
  | .hbm, ⟨53, _⟩ => ⟨S16x1048576x2, .f32⟩
  | .hbm, ⟨54, _⟩ => ⟨S16x1024x1024x2, .f32⟩
  | .hbm, ⟨55, _⟩ => ⟨S16x1x1024x2, .f32⟩
  | .hbm, ⟨56, _⟩ => ⟨S16x1024x1024x2, .f32⟩
  | .hbm, ⟨57, _⟩ => ⟨S16x1024x1024x2, .f32⟩
  | .hbm, ⟨58, _⟩ => ⟨S16x1024x1024x2, .f32⟩
  | .hbm, ⟨59, _⟩ => ⟨S_, .f32⟩
  | .hbm, ⟨60, _⟩ => ⟨S16x1024x1024x2, .f32⟩
  | .hbm, ⟨61, _⟩ => ⟨S16x1024x1024x2, .i1⟩
  | .hbm, ⟨62, _⟩ => ⟨S_, .f32⟩
  | .hbm, ⟨63, _⟩ => ⟨S16x1024x1024x2, .f32⟩
  | .hbm, ⟨64, _⟩ => ⟨S16x1024x1024x2, .f32⟩
  | .hbm, ⟨65, _⟩ => ⟨S16x1024x1024x2, .f32⟩
  | .hbm, ⟨66, _⟩ => ⟨S_, .f32⟩
  | .hbm, ⟨67, _⟩ => ⟨S16x1024x1024x2, .f32⟩
  | .hbm, ⟨68, _⟩ => ⟨S16x1024x1024x2, .f32⟩
  | .hbm, ⟨69, _⟩ => ⟨S16x1024x1024x2, .f32⟩
  | .hbm, ⟨70, _⟩ => ⟨S_, .f32⟩
  | .hbm, ⟨71, _⟩ => ⟨S16x1024x1024, .f32⟩
  | .hbm, ⟨72, _⟩ => ⟨S_, .f32⟩
  | .hbm, ⟨73, _⟩ => ⟨S16x1024, .f32⟩
  | .hbm, ⟨74, _⟩ => ⟨S_, .f32⟩
  | .hbm, ⟨75, _⟩ => ⟨S16x1024, .f32⟩
  | .hbm, ⟨76, _⟩ => ⟨S16x1024, .f32⟩
  | .hbm, ⟨77, _⟩ => ⟨S_, .f32⟩
  | .hbm, ⟨78, _⟩ => ⟨S16, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S16x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v8 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_cst : Ref sig .tc := ⟨.hbm, 59, rfl⟩
abbrev main_v14 : Ref sig .tc := ⟨.hbm, 60, rfl⟩
abbrev main_v15 : Ref sig .tc := ⟨.hbm, 61, rfl⟩
abbrev main_cst_0 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_1 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_2 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_cst_5 : Ref sig .tc := ⟨.hbm, 77, rfl⟩
abbrev main_v26 : Ref sig .tc := ⟨.hbm, 78, rfl⟩
abbrev main_cst_6 : Ref sig .tc := ⟨.hbm, 79, rfl⟩
abbrev main_v27 : Ref sig .tc := ⟨.hbm, 80, rfl⟩
abbrev main_cst_7 : Ref sig .tc := ⟨.hbm, 81, rfl⟩
abbrev main_v28 : Ref sig .tc := ⟨.hbm, 82, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1024_S1024x1_0 : S1024.BroadcastsInDim S1024x1 (![0] : Fin 1 → Fin S1024x1.rank)
  bcast_S1x1024_S1024x1024_0_1 : S1x1024.BroadcastsInDim S1024x1024 (![0, 1] : Fin 2 → Fin S1024x1024.rank)
  bcast_S1024x1_S1024x1024_0_1 : S1024x1.BroadcastsInDim S1024x1024 (![0, 1] : Fin 2 → Fin S1024x1024.rank)
  bcast_S_S1024x1024 : S_.BroadcastsInDim S1024x1024 (![] : Fin 0 → Fin S1024x1024.rank)
  shapeCasts_S1024x1024_S1048576 : S1024x1024.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S1048576x1_S1048576_d1 : S1048576x1.ReducesTo [1] S1048576
  h_S_ : 0 < S_.numel
  bcast_S1048576_S16x1048576x2_1 : S1048576.BroadcastsInDim S16x1048576x2 (![1] : Fin 1 → Fin S16x1048576x2.rank)
  bcast_S_S16x1048576x2 : S_.BroadcastsInDim S16x1048576x2 (![] : Fin 0 → Fin S16x1048576x2.rank)
  shapeCasts_S16x1048576x2_S16x1024x1024x2 : S16x1048576x2.ShapeCasts S16x1024x1024x2
  bcast_S16x1024x2_S16x1x1024x2_0_2_3 : S16x1024x2.BroadcastsInDim S16x1x1024x2 (![0, 2, 3] : Fin 3 → Fin S16x1x1024x2.rank)
  bcast_S16x1x1024x2_S16x1024x1024x2_0_1_2_3 : S16x1x1024x2.BroadcastsInDim S16x1024x1024x2 (![0, 1, 2, 3] : Fin 4 → Fin S16x1024x1024x2.rank)
  bcast_S_S16x1024x1024x2 : S_.BroadcastsInDim S16x1024x1024x2 (![] : Fin 0 → Fin S16x1024x1024x2.rank)
  reducesTo_S16x1024x1024x2_S16x1024x1024_d3 : S16x1024x1024x2.ReducesTo [3] S16x1024x1024
  reducesTo_S16x1024x1024_S16x1024_d2 : S16x1024x1024.ReducesTo [2] S16x1024
  bcast_S_S16x1024 : S_.BroadcastsInDim S16x1024 (![] : Fin 0 → Fin S16x1024.rank)
  reducesTo_S16x1024_S16_d1 : S16x1024.ReducesTo [1] S16
  reducesTo_S16_S_d0 : S16.ReducesTo [0] S_
  gather_S16x1024x2_S1048576x1_S16x1048576x2_02_1_n_n_1_1_1612_wf : GatherDims.WF S16x1024x2 S1048576x1 S16x1048576x2 [0, 2] [1] [] [1] [] 1 ![16, 1, 2]

variable [Facts₀]

def gather_S16x1024x2_S1048576x1_S16x1048576x2_02_1_n_n_1_1_1612 : GatherDims S16x1024x2 S1048576x1 S16x1048576x2 where
  offsetDims := [0, 2]
  collapsedSliceDims := [1]
  operandBatchingDims := []
  startIndicesBatchingDims := []
  startIndexMap := [1]
  indexVectorDim := 1
  sliceSizes := ![16, 1, 2]
  wf := gather_S16x1024x2_S1048576x1_S16x1048576x2_02_1_n_n_1_1_1612_wf

class Facts : Prop extends Facts₀ where

variable [Facts]
-- ==== Proof.KI.Shared.lean ====
/-
  What the three runs of the kernel body share. The grid has 16 points, one per sample. The body's three
  conditionals test the step: "first" (step = 0: the output block is set to the sample's minimum), "later"
  (step > 0: the minimum is added to the block) and "last" (step = 15: the block is scaled by 1 / 32768).
  So a point is in exactly one of three cases: first only; later only; later and last. The output window is
  therefore live at every point, and it is written back after the last point only.
-/
import proofs.«165500_g13554916786703_cont_week2b_739_34_alg».proof.Proof.Gen.KernelIdeal.Frame
import proofs.«165500_g13554916786703_cont_week2b_739_34_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The conditions, decided over the grid -/

/-- "First": the step is 0. -/
abbrev condFirst (i : grid0.Coords) : Prop := k0_cond1 i = 1#1
theorem condFirst_iff : ∀ t : Fin cfg0.N, condFirst (grid0.coords t) ↔ t.val = 0 :=
  (by decide +kernel : ∀ t : Fin grid0.N, condFirst (grid0.coords t) ↔ t.val = 0)

/-- "Later": the step is positive. -/
abbrev condLater (i : grid0.Coords) : Prop := k0_cond2 i = 1#1
theorem condLater_iff : ∀ t : Fin cfg0.N, condLater (grid0.coords t) ↔ 1 ≤ t.val :=
  (by decide +kernel : ∀ t : Fin grid0.N, condLater (grid0.coords t) ↔ 1 ≤ t.val)

/-- "Last": the step is 15. -/
abbrev condLast (i : grid0.Coords) : Prop := k0_cond3 i = 1#1
theorem condLast_iff : ∀ t : Fin cfg0.N, condLast (grid0.coords t) ↔ t.val = 15 :=
  (by decide +kernel : ∀ t : Fin grid0.N, condLast (grid0.coords t) ↔ t.val = 15)

/-! ## Where the windows are live -/

theorem live_p : ∀ t : Fin cfg0.N, cfg0.idle 0 (grid0.coords t) = false := by decide +kernel
theorem live_g : ∀ t : Fin cfg0.N, cfg0.idle 1 (grid0.coords t) = false := by decide +kernel
/-- The output window is live at every point: each step is the first or a later one. -/
theorem live_out : ∀ t : Fin cfg0.N, cfg0.idle 2 (grid0.coords t) = false := by decide +kernel

/-! ## The memrefs the body is called with -/

/-- One staging buffer of the output window, through which its contents are stated. -/
abbrev outView : View sig .tc .vmem S1x1x1 .f32 := (Memref.whole cc0_stg2_0 : Memref sig .tc .vmem S1x1x1 .f32).view

abbrev mP (t : Fin cfg0.N) : Memref sig .tc .vmem S1x2x1024 .f32 := win0_0.stage (cfg0.slots t 0)
abbrev hP (t : Fin cfg0.N) : (mP t).IsWhole := hstage0_0 ((cfg0.slots t 0).cast nbuf0_0)
abbrev mG (t : Fin cfg0.N) : Memref sig .tc .vmem S1x2x1024 .f32 := win0_1.stage (cfg0.slots t 1)
abbrev hG (t : Fin cfg0.N) : (mG t).IsWhole := hstage0_1 ((cfg0.slots t 1).cast nbuf0_1)
abbrev mO (t : Fin cfg0.N) : Memref sig .tc .vmem S1x1x1 .f32 := win0_2.stage (cfg0.slots t 2)
abbrev hO (t : Fin cfg0.N) : (mO t).IsWhole := hstage0_2 ((cfg0.slots t 2).cast nbuf0_2)
/-- The 1024 × 1024 table: a scoped buffer of the kernel's own. -/
abbrev mTable : Memref sig .tc .vmem S1024x1024 .f32 := Memref.whole cc0_scratch0

/-- The pipeline's invariant is the table owned at some contents, and the generator register. -/
theorem inv_eq (c : Dev nD) :
    (Pipeline.ΦA spec0 c : sProp 𝕄)
      = iprop(iprop((∃ d, owns (c : Thread nD τ) mTable fullShare d)) ∗ (∃ r, prngReg c r)) := by
  unfold Pipeline.ΦA; rw [scopedRest0_eq]; simp only [mTable, owns_whole]; try rfl

end Cert.KernelIdeal.Body

end
-- ==== Proof.KI.RunFirst.lean ====
/-
  The kernel body at the first step. On whole staging memrefs — the two inputs' at their blocks `x0`, `x1`, the
  output's and the table's at anything — the body runs to the end with the inputs as they were, the output
  block holding the pieces its stores left (the witness `L`), the table at some contents.
-/
import proofs.«165500_g13554916786703_cont_week2b_739_34_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : condFirst i) (hc1 : ¬condLater i) (hc2 : ¬condLast i)
    (x0 : Vec F S1x2x1024 .f32) (x1 : Vec F S1x2x1024 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.KernelIdeal.Body

end
-- ==== Proof.KI.RunLater.lean ====
/-
  The kernel body at a step after the first and before the last: as at the first step, but the output block enters
  at the running sum `xo` the point before left, which the body reads before it stores.
-/
import proofs.«165500_g13554916786703_cont_week2b_739_34_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLater (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : ¬condLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.KernelIdeal.Body

end
-- ==== Proof.KI.RunLast.lean ====
/-
  The kernel body at the last step: the output block enters at the running sum `xo`, the body adds the sample's
  minimum and stores, then reads the block back, scales it and stores again.
-/
import proofs.«165500_g13554916786703_cont_week2b_739_34_alg».proof.Proof.KI.Shared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : condLast i)
    (x0 : Vec F S1x2x1024 .f32) (x1 : Vec F S1x2x1024 .f32) (xo : Vec F S1x1x1 .f32) :
    { L : List (View.Piece (Elt F) S1x1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare xo ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L) ∗ (∃ d, owns (c : Thread nD τ) arg4 fullShare d)) -∗ K ⟨⟩))
          ⊢ wp frame (wpE (defs₀ (F := F)) Variants.none c none) E (cc0__poly_loss_kernel i arg1 harg1 arg2 harg2 arg3 harg3 arg4 harg4) K } := by
  refine ⟨?_, fun E K => ?run⟩
  case run =>
    simp only [cc0__poly_loss_kernel_eq_skeleton]; unfold cc0__poly_loss_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _, _; isplitr; swap; · iexact HS0
    ipureintro; rfl

end Cert.KernelIdeal.Body

end
-- ==== Proof.KI.Frame.lean ====
/-
  The pipeline of the kernel, point by point. The output block is one number. After the first point it holds that
  sample's least row sum; after each later point, the block of the point before plus the new sample's least row sum;
  after the last point, that sum scaled. `outsAt` is this recursion, stated through what each case's stores leave in
  the block. With it as the proof data the library's launch theorem runs the whole program: the two transposes, the
  sixteen points, the final reshape.
-/
import proofs.«165500_g13554916786703_cont_week2b_739_34_alg».proof.Proof.KI.RunFirst
import proofs.«165500_g13554916786703_cont_week2b_739_34_alg».proof.Proof.KI.RunLater
import proofs.«165500_g13554916786703_cont_week2b_739_34_alg».proof.Proof.KI.RunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

theorem coverFirst (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : condFirst i) (hc1 : ¬condLater i) (hc2 : ¬condLast i)
    (x0 x1 : Vec F S1x2x1024 .f32) (y : S1x1x1.Idx) :
    ∃ pc ∈ (runFirst c i arg1 harg1 arg2 harg2 arg3 harg3 arg4 harg4 hc0 hc1 hc2 x0 x1).1, y ∈ pc.1.set :=
  View.cover_of_tiledL (runFirst c i arg1 harg1 arg2 harg2 arg3 harg3 arg4 harg4 hc0 hc1 hc2 x0 x1).1 S1x1x1.size (by sl_kernel_rfl) y

/-- The block after the first point: its pieces read back. -/
def outFirst (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : condFirst i) (hc1 : ¬condLater i) (hc2 : ¬condLast i)
    (x0 x1 : Vec F S1x2x1024 .f32) : Vec F S1x1x1 .f32 :=
  outView.read (Elt F) (outView.writes (Elt F) outView.junk (runFirst c i arg1 harg1 arg2 harg2 arg3 harg3 arg4 harg4 hc0 hc1 hc2 x0 x1).1)

theorem coverLater (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : ¬condLast i)
    (x0 x1 : Vec F S1x2x1024 .f32) (xo : Vec F S1x1x1 .f32) (y : S1x1x1.Idx) :
    ∃ pc ∈ (runLater c i arg1 harg1 arg2 harg2 arg3 harg3 arg4 harg4 hc0 hc1 hc2 x0 x1 xo).1, y ∈ pc.1.set :=
  View.cover_of_tiledL (runLater c i arg1 harg1 arg2 harg2 arg3 harg3 arg4 harg4 hc0 hc1 hc2 x0 x1 xo).1 S1x1x1.size (by sl_kernel_rfl) y

/-- The block after a middle point, over what the point before left. -/
def outLater (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : ¬condLast i)
    (x0 x1 : Vec F S1x2x1024 .f32) (xo : Vec F S1x1x1 .f32) : Vec F S1x1x1 .f32 :=
  outView.read (Elt F) (outView.writes (Elt F) outView.junk (runLater c i arg1 harg1 arg2 harg2 arg3 harg3 arg4 harg4 hc0 hc1 hc2 x0 x1 xo).1)

theorem coverLast (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : condLast i)
    (x0 x1 : Vec F S1x2x1024 .f32) (xo : Vec F S1x1x1 .f32) (y : S1x1x1.Idx) :
    ∃ pc ∈ (runLast c i arg1 harg1 arg2 harg2 arg3 harg3 arg4 harg4 hc0 hc1 hc2 x0 x1 xo).1, y ∈ pc.1.set :=
  View.cover_of_tiledL (runLast c i arg1 harg1 arg2 harg2 arg3 harg3 arg4 harg4 hc0 hc1 hc2 x0 x1 xo).1 S1x1x1.size (by sl_kernel_rfl) y

/-- The block after the last point, over what the point before left. -/
def outLast (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : condLast i)
    (x0 x1 : Vec F S1x2x1024 .f32) (xo : Vec F S1x1x1 .f32) : Vec F S1x1x1 .f32 :=
  outView.read (Elt F) (outView.writes (Elt F) outView.junk (runLast c i arg1 harg1 arg2 harg2 arg3 harg3 arg4 harg4 hc0 hc1 hc2 x0 x1 xo).1)

/-! ## The block after each point -/

/-- The running contents of the output block: the case of point `n`, on the point's memrefs and input blocks, over what
    point `n - 1` left. -/
def outsAt (c : Dev nD) : (n : ℕ) → n < cfg0.N → Vec F S1x1x1 .f32
  | 0, hn => outFirst c (grid0.coords ⟨0, hn⟩) (mP ⟨0, hn⟩) (hP ⟨0, hn⟩) (mG ⟨0, hn⟩) (hG ⟨0, hn⟩) (mO ⟨0, hn⟩) (hO ⟨0, hn⟩) mTable (Memref.isWhole_whole _) ((condFirst_iff ⟨0, hn⟩).mpr rfl)
      (fun h => absurd ((condLater_iff ⟨0, hn⟩).mp h) (Nat.not_succ_le_zero 0)) (fun h => absurd ((condLast_iff ⟨0, hn⟩).mp h) (show ¬(0 : ℕ) = 15 by decide))
      (iblk m c 0 ⟨0, hn⟩) (iblk m c 1 ⟨0, hn⟩)
  | n + 1, hn =>
    if h2 : n + 1 = 15 then
      outLast c (grid0.coords ⟨n + 1, hn⟩) (mP ⟨n + 1, hn⟩) (hP ⟨n + 1, hn⟩) (mG ⟨n + 1, hn⟩) (hG ⟨n + 1, hn⟩) (mO ⟨n + 1, hn⟩) (hO ⟨n + 1, hn⟩) mTable (Memref.isWhole_whole _) (fun h => Nat.succ_ne_zero n ((condFirst_iff ⟨n + 1, hn⟩).mp h))
        ((condLater_iff ⟨n + 1, hn⟩).mpr (Nat.succ_le_succ (Nat.zero_le n))) ((condLast_iff ⟨n + 1, hn⟩).mpr h2)
        (iblk m c 0 ⟨n + 1, hn⟩) (iblk m c 1 ⟨n + 1, hn⟩) (outsAt c n (Nat.lt_of_succ_lt hn))
    else
      outLater c (grid0.coords ⟨n + 1, hn⟩) (mP ⟨n + 1, hn⟩) (hP ⟨n + 1, hn⟩) (mG ⟨n + 1, hn⟩) (hG ⟨n + 1, hn⟩) (mO ⟨n + 1, hn⟩) (hO ⟨n + 1, hn⟩) mTable (Memref.isWhole_whole _) (fun h => Nat.succ_ne_zero n ((condFirst_iff ⟨n + 1, hn⟩).mp h))
        ((condLater_iff ⟨n + 1, hn⟩).mpr (Nat.succ_le_succ (Nat.zero_le n))) (fun h => h2 ((condLast_iff ⟨n + 1, hn⟩).mp h))
        (iblk m c 0 ⟨n + 1, hn⟩) (iblk m c 1 ⟨n + 1, hn⟩) (outsAt c n (Nat.lt_of_succ_lt hn))

theorem outsAt_first (c : Dev nD) (t : Fin cfg0.N) (h0 : t.val = 0) :
    outsAt m c t.val t.isLt = outFirst c (grid0.coords t) (mP t) (hP t) (mG t) (hG t) (mO t) (hO t) mTable (Memref.isWhole_whole _) ((condFirst_iff t).mpr h0)
      (fun h => by have := (condLater_iff t).mp h; omega) (fun h => by have := (condLast_iff t).mp h; omega)
      (iblk m c 0 t) (iblk m c 1 t) := by
  obtain ⟨n, hn⟩ := t
  cases n with
  | zero => exact rfl
  | succ n => exact absurd h0 (Nat.succ_ne_zero n)

theorem outsAt_later (c : Dev nD) (t : Fin cfg0.N) (h1 : 1 ≤ t.val) (h2 : ¬t.val = 15) :
    outsAt m c t.val t.isLt = outLater c (grid0.coords t) (mP t) (hP t) (mG t) (hG t) (mO t) (hO t) mTable (Memref.isWhole_whole _) (fun h => by have := (condFirst_iff t).mp h; omega)
      ((condLater_iff t).mpr h1) (fun h => h2 ((condLast_iff t).mp h))
      (iblk m c 0 t) (iblk m c 1 t) (outsAt m c (t.val - 1) (Nat.lt_of_le_of_lt (Nat.sub_le _ _) t.isLt)) := by
  obtain ⟨n, hn⟩ := t
  cases n with
  | zero => exact absurd h1 (Nat.not_succ_le_zero 0)
  | succ n => exact (dif_neg h2).trans rfl

theorem outsAt_last (c : Dev nD) (t : Fin cfg0.N) (h2 : t.val = 15) :
    outsAt m c t.val t.isLt = outLast c (grid0.coords t) (mP t) (hP t) (mG t) (hG t) (mO t) (hO t) mTable (Memref.isWhole_whole _) (fun h => by have := (condFirst_iff t).mp h; omega)
      ((condLater_iff t).mpr (by omega)) ((condLast_iff t).mpr h2)
      (iblk m c 0 t) (iblk m c 1 t) (outsAt m c (t.val - 1) (Nat.lt_of_le_of_lt (Nat.sub_le _ _) t.isLt)) := by
  obtain ⟨n, hn⟩ := t
  cases n with
  | zero => exact absurd h2 (show ¬(0 : ℕ) = 15 by decide)
  | succ n => exact (dif_pos h2).trans rfl

/-! ## The proof data -/

/-- The arrays as the region finds them; after the body at point `t` each input's buffer at its block and the output's at
    `outsAt`; the invariant the table and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_p (c : Dev nD) (t : Fin cfg0.N) : (dats m 0 c).after 0 t = iblk m c 0 t := by dsimp only [dats]
theorem after_g (c : Dev nD) (t : Fin cfg0.N) : (dats m 0 c).after 1 t = iblk m c 1 t := by dsimp only [dats]
theorem after_out (c : Dev nD) (t : Fin cfg0.N) : (dats m 0 c).after 2 t = outsAt m c t.val t.isLt := by dsimp only [dats]

theorem before_p (c : Dev nD) (t : Fin cfg0.N) (d) : (dats m 0 c).before 0 t d = iblk m c 0 t :=
  before0_0_of m (dats m 0 c) (A_eq m c 0) (after_p m c) t d
theorem before_g (c : Dev nD) (t : Fin cfg0.N) (d) : (dats m 0 c).before 1 t d = iblk m c 1 t :=
  before0_1_of m (dats m 0 c) (A_eq m c 1) (after_g m c) t d

/-- The output window is live at every coordinate of the grid. -/
theorem live_out_all : ∀ i : grid0.Coords, cfg0.idle 2 i = false := by
  intro i
  have hi : (i 0).val < 16 := (i 0).isLt
  have hlt : (i 0).val < cfg0.N := lt_of_lt_of_eq hi N_0.symm
  have h := live_out ⟨(i 0).val, hlt⟩
  have e : grid0.coords ⟨(i 0).val, hlt⟩ = i := by
    funext a; fin_cases a; apply Fin.ext; simp [Pipeline.Grid.coords, Pipeline.Grid.stride, Pipeline.Grid.bound]; exact hi
  rwa [e] at h

/-- At a point after the first the output's buffer holds what the body left at the point before: it is not written
    back in between, and the window is live and uncut. -/
theorem before_out (c : Dev nD) (t : Fin cfg0.N) (h1 : 1 ≤ t.val) (d) :
    (dats m 0 c).before 2 t d = outsAt m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    live_out_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (mP t) fullShare ((dats m 0 c).before 0 t d))
    ∗ (∃ d, owns (c : Thread nD τ) (mG t) fullShare ((dats m 0 c).before 1 t d))
    ∗ (∃ d, owns (c : Thread nD τ) (mO t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_p (c : Dev nD) (t : Fin cfg0.N) :
    (dats m 0 c).leavesExact 0 t = owns (c : Thread nD τ) (mP t) fullShare (iblk m c 0 t) := by
  rw [show (dats m 0 c).leavesExact 0 t = owns (c : Thread nD τ) (mP t) fullShare ((dats m 0 c).after 0 t) from by
    unfold Dat.leavesExact; rw [live_p t], after_p]
theorem leaves_g (c : Dev nD) (t : Fin cfg0.N) :
    (dats m 0 c).leavesExact 1 t = owns (c : Thread nD τ) (mG t) fullShare (iblk m c 1 t) := by
  rw [show (dats m 0 c).leavesExact 1 t = owns (c : Thread nD τ) (mG t) fullShare ((dats m 0 c).after 1 t) from by
    unfold Dat.leavesExact; rw [live_g t], after_g]
theorem leaves_out (c : Dev nD) (t : Fin cfg0.N) :
    (dats m 0 c).leavesExact 2 t = owns (c : Thread nD τ) (mO t) fullShare (outsAt m c t.val t.isLt) := by
  rw [show (dats m 0 c).leavesExact 2 t = owns (c : Thread nD τ) (mO t) fullShare ((dats m 0 c).after 2 t) from by
    unfold Dat.leavesExact; rw [live_out t], after_out]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_p, before_g]
  rw [show (dats m 0 c).Φ t.succ = (dats m 0 c).Φ t.castSucc from rfl,
    show (dats m 0 c).owesAt () t.succ = (dats m 0 c).owesAt () t.castSucc from rfl,
    leaves_p, leaves_g, leaves_out]
  rw [show (dats m 0 c).Φ t.castSucc = Pipeline.ΦA spec0 c from rfl, inv_eq]
  have hN : t.val < 16 := lt_of_lt_of_eq t.isLt (show cfg0.N = 16 from N_0)
  by_cases h0 : t.val = 0
  · rw [outsAt_first m c t h0]
    unfold outFirst
    iintro ⟨⟨HS0, Hg⟩, Ho, ⟨%d0, H0⟩, ⟨%d1, H1⟩, ⟨%d2, H2⟩⟩
    iapply ((runFirst c (grid0.coords t) (mP t) (hP t) (mG t) (hG t) (mO t) (hO t) mTable (Memref.isWhole_whole _) ((condFirst_iff t).mpr h0) (fun h => by have := (condLater_iff t).mp h; omega) (fun h => by have := (condLast_iff t).mp h; omega) (iblk m c 0 t) (iblk m c 1 t)).2 Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hg]
    · isplitl [HS0]
      · iexact HS0
      iexact Hg
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _ _ _ _ _)
  · by_cases h2 : t.val = 15
    · rw [outsAt_last m c t h2]
      simp only [before_out m c t (by omega)]
      unfold outLast
      iintro ⟨⟨HS0, Hg⟩, Ho, ⟨%d0, H0⟩, ⟨%d1, H1⟩, ⟨%d2, H2⟩⟩
      iapply ((runLast c (grid0.coords t) (mP t) (hP t) (mG t) (hG t) (mO t) (hO t) mTable (Memref.isWhole_whole _) (fun h => by have := (condFirst_iff t).mp h; omega) ((condLater_iff t).mpr (by omega)) ((condLast_iff t).mpr h2) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (coverLast c _ _ _ _ _ _ _ _ _ _ _ _ _ _ _)
    · rw [outsAt_later m c t (by omega) h2]
      simp only [before_out m c t (by omega)]
      unfold outLater
      iintro ⟨⟨HS0, Hg⟩, Ho, ⟨%d0, H0⟩, ⟨%d1, H1⟩, ⟨%d2, H2⟩⟩
      iapply ((runLater c (grid0.coords t) (mP t) (hP t) (mG t) (hG t) (mO t) (hO t) mTable (Memref.isWhole_whole _) (fun h => by have := (condFirst_iff t).mp h; omega) ((condLater_iff t).mpr (by omega)) (fun h => h2 ((condLast_iff t).mp h)) (iblk m c 0 t) (iblk m c 1 t) _).2 Set.univ _)
      isplitl [H0]; · iexact H0
      isplitl [H1]; · iexact H1
      isplitl [H2]; · iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_of_cover _ _ _ _ _ (coverLater c _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes from
    the proof data, every other unscoped buffer at what the host lines after the region leave. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KI.TableDef.lean ====
/-
  The kernel's 1024 × 1024 table, entry by entry, in the kernel's own float operations (at any float instance).
  From a sample's two coordinate-major blocks `x0` (the prediction, [1, 2, 1024]) and `x1` (the ground truth), row
  `64 u + 8 o + r` holds at column `j` the sum over the two coordinates `k` of
  `t (x0 (0, k, j - 128 o) - x1 (0, k, j + r + 8 u))`, columns modulo 1024, where
  `t d = min |d| 1 * (|d| + |d| - min |d| 1)` is twice the smooth-L1 distance.
-/
import proofs.«165500_g13554916786703_cont_week2b_739_34_alg».proof.KernelIdeal
import Idealize.ShloMosaic.Lib.ValueIdx

noncomputable section

namespace Cert.KernelIdeal.Body

open Idealize.ShloMosaic Idealize.ShloMosaic.ValueIdx Cert.KernelIdeal

variable {F : FTy → Type} [FloatOps F]

/-- `min |d| 1 * (|d| + |d| - min |d| 1)`. -/
def twiceSmoothF (d : F .f32) : F .f32 :=
  FloatOps.mulf (FloatOps.minimumf (FloatOps.absf d) (FloatOps.ofBits .f32 0x3F800000#32))
    (FloatOps.subf (FloatOps.addf (FloatOps.absf d) (FloatOps.absf d))
      (FloatOps.minimumf (FloatOps.absf d) (FloatOps.ofBits .f32 0x3F800000#32)))

/-- The column of the prediction that row `row` reads at column `j`: `j - 128 o`, `o = (row / 8) % 8`. -/
def pColN (row j : ℕ) : Fin 1024 := ⟨(j + 1024 - 128 * ((row / 8) % 8)) % 1024, Nat.mod_lt _ (by decide)⟩

/-- The column of the ground truth it reads: `j + r + 8 u`, `r = row % 8`, `u = row / 64`. -/
def gColN (row j : ℕ) : Fin 1024 := ⟨(j + row % 8 + 8 * (row / 64)) % 1024, Nat.mod_lt _ (by decide)⟩

/-- Entry `y = (row, j)` of the table. -/
def tableOf (x0 x1 : Vec F S1x2x1024 .f32) : Vec F S1024x1024 .f32 := fun y =>
  FloatOps.addf
    (twiceSmoothF (FloatOps.subf (x0 (ix3 (0 : Fin 1) (0 : Fin 2) (pColN (y 0).val (y 1).val))) (x1 (ix3 (0 : Fin 1) (0 : Fin 2) (gColN (y 0).val (y 1).val)))))
    (twiceSmoothF (FloatOps.subf (x0 (ix3 (0 : Fin 1) (1 : Fin 2) (pColN (y 0).val (y 1).val))) (x1 (ix3 (0 : Fin 1) (1 : Fin 2) (gColN (y 0).val (y 1).val)))))

end Cert.KernelIdeal.Body

end
-- ==== Proof.KI.TableLemmas.lean ====
/-
  What the table's stores hold, operation by operation, at any float instance and (the layout part) at any element type.
  • A lane roll, printed as two column slices laid end to end: `[V[:, b:], V[:, :b]]` reads, at `(r, j)`,
    `V (r, (j + b) % 1024)` (`roll_apply`).
  • The kernel's tiles as functions of the index: `rollRow v k` (a row rolled left by `k`), `gTile v s` (eight copies of a
    row on the rows, copy `r` rolled left by `r + s`: the ground-truth tile after `s / 8` steps) and `pTile v b` (a row
    over eight rows, rolled left by `b`: a prediction tile). The roll of a `gTile` / `pTile` by `b` is the tile at `s + b`;
    the stack of a row and its seven rolls is `gTile v 0`; the broadcast of a row is `pTile v 0`.
  • `cat2` / `cat8`: the two- and eight-operand concatenations with their evidence stated over the shapes alone, so
    that an operand can be rewritten.
  • `rowOf x k`: row `k` of a coordinate-major block; the load of that row from a whole block held at `x` is it.
  • `piece_eq`: the tile stored at row offset `off`, the pointwise combination of two prediction and two ground-truth
    tiles, is the table's rows `off … off + 7` (`tableOf`, TableDef.lean): modular arithmetic on the column index.
-/
import proofs.«165500_g13554916786703_cont_week2b_739_34_alg».proof.Proof.KI.TableDef
import Idealize.ShloMosaic.Lib.ValueLayout
import Idealize.ShloMosaic.Lib.WholeRead

set_option maxRecDepth 16384

noncomputable section

namespace Cert.KernelIdeal.Body.Table

open Idealize.ShloMosaic Idealize.ShloMosaic.ValueIdx
open Cert.KernelIdeal Cert.KernelIdeal.Body

/-! ## Generic: a lane roll read at an index -/

section Generic
variable {α : Type}

/-- Two column indices with the same value give the same rank-2 index. -/
theorem ix2_col_congr {n m : ℕ} (r : Fin n) {a b : Fin m} (h : a.val = b.val) : ix2 r a = ix2 r b :=
  congrArg (ix2 r) (Fin.ext h)

/-- `[V[:, b:], V[:, :b]]` laid end to end along the columns of an `n × 1024` array reads, at `(r, j)`,
    `V (r, (j + b) % 1024)`: the array rolled left by `b` columns. -/
theorem roll_apply {n a b : ℕ} (V : (⟨2, ![n, 1024]⟩ : Shape).Idx → α)
    (h1 : (⟨2, ![n, 1024]⟩ : Shape).Slices ![0, b] ⟨2, ![n, a]⟩)
    (h2 : (⟨2, ![n, 1024]⟩ : Shape).Slices ![0, 0] ⟨2, ![n, b]⟩)
    (h3 : Shape.Concatenates [⟨2, ![n, a]⟩, ⟨2, ![n, b]⟩] ⟨2, ![n, 1024]⟩ 1)
    (r : Fin n) (j : Fin 1024) :
    concatenate ⟨2, ![n, 1024]⟩ 1
        [⟨⟨2, ![n, a]⟩, extractStridedSlice ⟨2, ![n, a]⟩ ![0, b] V h1⟩,
         ⟨⟨2, ![n, b]⟩, extractStridedSlice ⟨2, ![n, b]⟩ ![0, 0] V h2⟩] h3 (ix2 r j)
      = V (ix2 r ⟨(j.val + b) % 1024, Nat.mod_lt _ (by decide)⟩) := by
  have hab : a + (b + 0) = 1024 := h3.2.2
  have hjlt := j.isLt
  by_cases hj : j.val < a
  · have hk : (j.val + b) % 1024 = b + j.val := by rw [Nat.mod_eq_of_lt (by omega)]; omega
    refine (concatenate_pair_apply_left 1 _ _ h3 (ix2 r j) rfl (ix2 r (⟨j.val, hj⟩ : Fin a)) (fun c => ?_)).trans ?_
    · match c with
      | ⟨0, _⟩ => rfl
      | ⟨1, _⟩ => rfl
    · exact slice2_axis1_apply b V h1 r ⟨j.val, hj⟩ _ hk
  · have hj' : j.val - a < b := by omega
    have hk : (j.val + b) % 1024 = 0 + (j.val - a) := by
      have e : j.val + b = 1024 + (j.val - a) := by omega
      rw [e, Nat.add_mod_left, Nat.mod_eq_of_lt (by omega)]; omega
    refine (concatenate_pair_apply_right 1 _ _ h3 (ix2 r j) rfl rfl (ix2 r (⟨j.val - a, hj'⟩ : Fin b)) (fun c hc => ?_) ?_).trans ?_
    · match c with
      | ⟨0, _⟩ => rfl
      | ⟨1, _⟩ => exact absurd rfl hc
    · show (j.val - a) + a = j.val
      omega
    · exact slice2_axis1_apply 0 V h2 r ⟨j.val - a, hj'⟩ _ hk

end Generic

/-! ## The kernel's tiles as functions of the index -/

section Tiles
variable {α : Type}

/-- A `[1, 1024]` row rolled left by `k` columns. -/
def rollRow (v : (⟨2, ![1, 1024]⟩ : Shape).Idx → α) (k : ℕ) : (⟨2, ![1, 1024]⟩ : Shape).Idx → α :=
  fun y => v (ix2 (0 : Fin 1) ⟨((y 1).val + k) % 1024, Nat.mod_lt _ (by decide)⟩)

/-- Eight copies of a row stacked on the rows, copy `r` rolled left by `r + s`: at `(r, j)` the row's column
    `(j + r + s) % 1024`. -/
def gTile (v : (⟨2, ![1, 1024]⟩ : Shape).Idx → α) (s : ℕ) : (⟨2, ![8, 1024]⟩ : Shape).Idx → α :=
  fun y => v (ix2 (0 : Fin 1) ⟨((y 1).val + (y 0).val + s) % 1024, Nat.mod_lt _ (by decide)⟩)

/-- A row over eight rows, rolled left by `b` columns: at `(r, j)` the row's column `(j + b) % 1024`. -/
def pTile (v : (⟨2, ![1, 1024]⟩ : Shape).Idx → α) (b : ℕ) : (⟨2, ![8, 1024]⟩ : Shape).Idx → α :=
  fun y => v (ix2 (0 : Fin 1) ⟨((y 1).val + b) % 1024, Nat.mod_lt _ (by decide)⟩)

/-- A rolled row, as the two slices laid end to end. -/
theorem rollRow_eq {a b : ℕ} (v : (⟨2, ![1, 1024]⟩ : Shape).Idx → α)
    (h1 : (⟨2, ![1, 1024]⟩ : Shape).Slices ![0, b] ⟨2, ![1, a]⟩)
    (h2 : (⟨2, ![1, 1024]⟩ : Shape).Slices ![0, 0] ⟨2, ![1, b]⟩)
    (h3 : Shape.Concatenates [⟨2, ![1, a]⟩, ⟨2, ![1, b]⟩] ⟨2, ![1, 1024]⟩ 1) :
    concatenate ⟨2, ![1, 1024]⟩ 1
        [⟨⟨2, ![1, a]⟩, extractStridedSlice ⟨2, ![1, a]⟩ ![0, b] v h1⟩,
         ⟨⟨2, ![1, b]⟩, extractStridedSlice ⟨2, ![1, b]⟩ ![0, 0] v h2⟩] h3 = rollRow v b := by
  funext y
  obtain ⟨r, j, rfl⟩ : ∃ (r : Fin 1) (j : Fin 1024), y = ix2 r j := ⟨y 0, y 1, eq_ix2 y⟩
  refine (roll_apply v h1 h2 h3 r j).trans ?_
  obtain rfl : r = 0 := Subsingleton.elim _ _
  rfl

/-- The roll of a `gTile` by `b` columns is the `gTile` at `s + b`. -/
theorem gTile_roll {a b : ℕ} (v : (⟨2, ![1, 1024]⟩ : Shape).Idx → α) (s : ℕ)
    (h1 : (⟨2, ![8, 1024]⟩ : Shape).Slices ![0, b] ⟨2, ![8, a]⟩)
    (h2 : (⟨2, ![8, 1024]⟩ : Shape).Slices ![0, 0] ⟨2, ![8, b]⟩)
    (h3 : Shape.Concatenates [⟨2, ![8, a]⟩, ⟨2, ![8, b]⟩] ⟨2, ![8, 1024]⟩ 1) :
    concatenate ⟨2, ![8, 1024]⟩ 1
        [⟨⟨2, ![8, a]⟩, extractStridedSlice ⟨2, ![8, a]⟩ ![0, b] (gTile v s) h1⟩,
         ⟨⟨2, ![8, b]⟩, extractStridedSlice ⟨2, ![8, b]⟩ ![0, 0] (gTile v s) h2⟩] h3 = gTile v (s + b) := by
  funext y
  obtain ⟨r, j, rfl⟩ : ∃ (r : Fin 8) (j : Fin 1024), y = ix2 r j := ⟨y 0, y 1, eq_ix2 y⟩
  refine (roll_apply (gTile v s) h1 h2 h3 r j).trans ?_
  refine congrArg v (ix2_col_congr _ ?_)
  show ((j.val + b) % 1024 + r.val + s) % 1024 = (j.val + r.val + (s + b)) % 1024
  omega

/-- The roll of a `pTile` by `b` columns is the `pTile` at `s + b`. -/
theorem pTile_roll {a b : ℕ} (v : (⟨2, ![1, 1024]⟩ : Shape).Idx → α) (s : ℕ)
    (h1 : (⟨2, ![8, 1024]⟩ : Shape).Slices ![0, b] ⟨2, ![8, a]⟩)
    (h2 : (⟨2, ![8, 1024]⟩ : Shape).Slices ![0, 0] ⟨2, ![8, b]⟩)
    (h3 : Shape.Concatenates [⟨2, ![8, a]⟩, ⟨2, ![8, b]⟩] ⟨2, ![8, 1024]⟩ 1) :
    concatenate ⟨2, ![8, 1024]⟩ 1
        [⟨⟨2, ![8, a]⟩, extractStridedSlice ⟨2, ![8, a]⟩ ![0, b] (pTile v s) h1⟩,
         ⟨⟨2, ![8, b]⟩, extractStridedSlice ⟨2, ![8, b]⟩ ![0, 0] (pTile v s) h2⟩] h3 = pTile v (s + b) := by
  funext y
  obtain ⟨r, j, rfl⟩ : ∃ (r : Fin 8) (j : Fin 1024), y = ix2 r j := ⟨y 0, y 1, eq_ix2 y⟩
  refine (roll_apply (pTile v s) h1 h2 h3 r j).trans ?_
  refine congrArg v (ix2_col_congr _ ?_)
  show ((j.val + b) % 1024 + s) % 1024 = (j.val + (s + b)) % 1024
  omega

/-- A row broadcast over eight rows is the `pTile` at 0. -/
theorem pTile_broadcast (v : (⟨2, ![1, 1024]⟩ : Shape).Idx → α)
    (h : (⟨2, ![1, 1024]⟩ : Shape).Broadcasts ⟨2, ![8, 1024]⟩) :
    broadcastTo ⟨2, ![8, 1024]⟩ v h = pTile v 0 := by
  funext y
  obtain ⟨r, j, rfl⟩ : ∃ (r : Fin 8) (j : Fin 1024), y = ix2 r j := ⟨y 0, y 1, eq_ix2 y⟩
  refine (broadcastTo_1b_ab_apply v h r j).trans ?_
  refine congrArg v (ix2_col_congr _ ?_)
  show j.val = (j.val + 0) % 1024
  have := j.isLt
  omega

/-- The list a stack of a row and its seven rolls is the concatenation of. -/
abbrev stackList (v : (⟨2, ![1, 1024]⟩ : Shape).Idx → α) : List ((s : Shape) × (s.Idx → α)) :=
  [⟨⟨2, ![1, 1024]⟩, v⟩, ⟨⟨2, ![1, 1024]⟩, rollRow v 1⟩, ⟨⟨2, ![1, 1024]⟩, rollRow v 2⟩,
   ⟨⟨2, ![1, 1024]⟩, rollRow v 3⟩, ⟨⟨2, ![1, 1024]⟩, rollRow v 4⟩, ⟨⟨2, ![1, 1024]⟩, rollRow v 5⟩,
   ⟨⟨2, ![1, 1024]⟩, rollRow v 6⟩, ⟨⟨2, ![1, 1024]⟩, rollRow v 7⟩]

/-- The row and its seven rolls by 1 … 7, stacked on the rows, are the `gTile` at 0. -/
theorem gTile_stack (v : (⟨2, ![1, 1024]⟩ : Shape).Idx → α)
    (h : Shape.Concatenates [⟨2, ![1, 1024]⟩, ⟨2, ![1, 1024]⟩, ⟨2, ![1, 1024]⟩, ⟨2, ![1, 1024]⟩, ⟨2, ![1, 1024]⟩,
      ⟨2, ![1, 1024]⟩, ⟨2, ![1, 1024]⟩, ⟨2, ![1, 1024]⟩] ⟨2, ![8, 1024]⟩ 0) :
    concatenate ⟨2, ![8, 1024]⟩ 0
        [⟨⟨2, ![1, 1024]⟩, v⟩, ⟨⟨2, ![1, 1024]⟩, rollRow v 1⟩, ⟨⟨2, ![1, 1024]⟩, rollRow v 2⟩,
         ⟨⟨2, ![1, 1024]⟩, rollRow v 3⟩, ⟨⟨2, ![1, 1024]⟩, rollRow v 4⟩, ⟨⟨2, ![1, 1024]⟩, rollRow v 5⟩,
         ⟨⟨2, ![1, 1024]⟩, rollRow v 6⟩, ⟨⟨2, ![1, 1024]⟩, rollRow v 7⟩] h = gTile v 0 := by
  funext y
  obtain ⟨r, j, rfl⟩ : ∃ (r : Fin 8) (j : Fin 1024), y = ix2 r j := ⟨y 0, y 1, eq_ix2 y⟩
  have hj := j.isLt
  have side : ∀ (b : Fin (⟨2, ![1, 1024]⟩ : Shape).rank) (q : Fin 8), b.cast rfl ≠ (0 : Fin (⟨2, ![8, 1024]⟩ : Shape).rank) →
      ((ix2 (0 : Fin 1) j) b).val = ((ix2 q j) (b.cast rfl)).val := fun b q hb => by
    match b with
    | ⟨0, _⟩ => exact absurd rfl hb
    | ⟨1, _⟩ => rfl
  -- piece `k` of the stack, read at row `k`
  have piece : ∀ (k : ℕ) (hk : k < 8) (hk' : k < (stackList v).length) (w : (⟨2, ![1, 1024]⟩ : Shape).Idx → α),
      (stackList v)[k]'hk' = ⟨⟨2, ![1, 1024]⟩, w⟩ →
      List.sum ((((stackList v).take k).map (·.1)).map (fun s : Shape => if h : s.rank = (⟨2, ![8, 1024]⟩ : Shape).rank then s.size ((0 : Fin (⟨2, ![8, 1024]⟩ : Shape).rank).cast h.symm) else 0)) = k →
      concatenate ⟨2, ![8, 1024]⟩ 0 (stackList v) h (ix2 (⟨k, hk⟩ : Fin 8) j) = w (ix2 (0 : Fin 1) j) := by
    intro k hk hk' w hw hpre
    exact concatenate_apply_piece 0 (stackList v) h (ix2 (⟨k, hk⟩ : Fin 8) j) k hk' _ w hw rfl k hpre
      (ix2 (0 : Fin 1) j) (fun b hb => side b _ hb) rfl
  match r with
  | ⟨0, _⟩ =>
    refine (piece 0 (by decide) (by show (0 : ℕ) < 8; decide) _ rfl rfl).trans ?_
    refine congrArg v (ix2_col_congr _ ?_)
    show j.val = (j.val + 0 + 0) % 1024
    omega
  | ⟨1, _⟩ => exact piece 1 (by decide) (by show (1 : ℕ) < 8; decide) _ rfl rfl
  | ⟨2, _⟩ => exact piece 2 (by decide) (by show (2 : ℕ) < 8; decide) _ rfl rfl
  | ⟨3, _⟩ => exact piece 3 (by decide) (by show (3 : ℕ) < 8; decide) _ rfl rfl
  | ⟨4, _⟩ => exact piece 4 (by decide) (by show (4 : ℕ) < 8; decide) _ rfl rfl
  | ⟨5, _⟩ => exact piece 5 (by decide) (by show (5 : ℕ) < 8; decide) _ rfl rfl
  | ⟨6, _⟩ => exact piece 6 (by decide) (by show (6 : ℕ) < 8; decide) _ rfl rfl
  | ⟨7, _⟩ => exact piece 7 (by decide) (by show (7 : ℕ) < 8; decide) _ rfl rfl

end Tiles

/-! ## Concatenations with the operands as arguments

A concatenation's evidence is stated over its operand list, so a rewrite inside the list has to carry the evidence
along. `cat2` and `cat8` are the two- and eight-operand concatenations with the evidence stated over the SHAPES only:
their operands rewrite freely. -/

section Cat
variable {α : Type}

/-- A two-operand concatenation. -/
def cat2 (t : Shape) (a : Fin t.rank) (s1 s2 : Shape) (h : Shape.Concatenates [s1, s2] t a)
    (x1 : s1.Idx → α) (x2 : s2.Idx → α) : t.Idx → α :=
  concatenate t a [⟨s1, x1⟩, ⟨s2, x2⟩] h

theorem cat2_def (t : Shape) (a : Fin t.rank) (s1 s2 : Shape) (x1 : s1.Idx → α) (x2 : s2.Idx → α)
    (h : Shape.Concatenates [s1, s2] t a) :
    concatenate t a [⟨s1, x1⟩, ⟨s2, x2⟩] h = cat2 t a s1 s2 h x1 x2 := rfl

/-- An eight-operand concatenation. -/
def cat8 (t : Shape) (a : Fin t.rank) (s1 s2 s3 s4 s5 s6 s7 s8 : Shape)
    (h : Shape.Concatenates [s1, s2, s3, s4, s5, s6, s7, s8] t a)
    (x1 : s1.Idx → α) (x2 : s2.Idx → α) (x3 : s3.Idx → α) (x4 : s4.Idx → α) (x5 : s5.Idx → α) (x6 : s6.Idx → α)
    (x7 : s7.Idx → α) (x8 : s8.Idx → α) : t.Idx → α :=
  concatenate t a [⟨s1, x1⟩, ⟨s2, x2⟩, ⟨s3, x3⟩, ⟨s4, x4⟩, ⟨s5, x5⟩, ⟨s6, x6⟩, ⟨s7, x7⟩, ⟨s8, x8⟩] h

theorem cat8_def (t : Shape) (a : Fin t.rank) (s1 s2 s3 s4 s5 s6 s7 s8 : Shape)
    (x1 : s1.Idx → α) (x2 : s2.Idx → α) (x3 : s3.Idx → α) (x4 : s4.Idx → α) (x5 : s5.Idx → α) (x6 : s6.Idx → α)
    (x7 : s7.Idx → α) (x8 : s8.Idx → α) (h : Shape.Concatenates [s1, s2, s3, s4, s5, s6, s7, s8] t a) :
    concatenate t a [⟨s1, x1⟩, ⟨s2, x2⟩, ⟨s3, x3⟩, ⟨s4, x4⟩, ⟨s5, x5⟩, ⟨s6, x6⟩, ⟨s7, x7⟩, ⟨s8, x8⟩] h
      = cat8 t a s1 s2 s3 s4 s5 s6 s7 s8 h x1 x2 x3 x4 x5 x6 x7 x8 := rfl

theorem rollRow_cat {a b : ℕ} (v : (⟨2, ![1, 1024]⟩ : Shape).Idx → α)
    (h1 : (⟨2, ![1, 1024]⟩ : Shape).Slices ![0, b] ⟨2, ![1, a]⟩)
    (h2 : (⟨2, ![1, 1024]⟩ : Shape).Slices ![0, 0] ⟨2, ![1, b]⟩)
    (h3 : Shape.Concatenates [⟨2, ![1, a]⟩, ⟨2, ![1, b]⟩] ⟨2, ![1, 1024]⟩ 1) :
    cat2 ⟨2, ![1, 1024]⟩ 1 ⟨2, ![1, a]⟩ ⟨2, ![1, b]⟩ h3
        (extractStridedSlice ⟨2, ![1, a]⟩ ![0, b] v h1) (extractStridedSlice ⟨2, ![1, b]⟩ ![0, 0] v h2)
      = rollRow v b := rollRow_eq v h1 h2 h3

theorem gTile_roll_cat {a b : ℕ} (v : (⟨2, ![1, 1024]⟩ : Shape).Idx → α) (s : ℕ)
    (h1 : (⟨2, ![8, 1024]⟩ : Shape).Slices ![0, b] ⟨2, ![8, a]⟩)
    (h2 : (⟨2, ![8, 1024]⟩ : Shape).Slices ![0, 0] ⟨2, ![8, b]⟩)
    (h3 : Shape.Concatenates [⟨2, ![8, a]⟩, ⟨2, ![8, b]⟩] ⟨2, ![8, 1024]⟩ 1) :
    cat2 ⟨2, ![8, 1024]⟩ 1 ⟨2, ![8, a]⟩ ⟨2, ![8, b]⟩ h3
        (extractStridedSlice ⟨2, ![8, a]⟩ ![0, b] (gTile v s) h1) (extractStridedSlice ⟨2, ![8, b]⟩ ![0, 0] (gTile v s) h2)
      = gTile v (s + b) := gTile_roll v s h1 h2 h3

theorem pTile_roll_cat {a b : ℕ} (v : (⟨2, ![1, 1024]⟩ : Shape).Idx → α) (s : ℕ)
    (h1 : (⟨2, ![8, 1024]⟩ : Shape).Slices ![0, b] ⟨2, ![8, a]⟩)
    (h2 : (⟨2, ![8, 1024]⟩ : Shape).Slices ![0, 0] ⟨2, ![8, b]⟩)
    (h3 : Shape.Concatenates [⟨2, ![8, a]⟩, ⟨2, ![8, b]⟩] ⟨2, ![8, 1024]⟩ 1) :
    cat2 ⟨2, ![8, 1024]⟩ 1 ⟨2, ![8, a]⟩ ⟨2, ![8, b]⟩ h3
        (extractStridedSlice ⟨2, ![8, a]⟩ ![0, b] (pTile v s) h1) (extractStridedSlice ⟨2, ![8, b]⟩ ![0, 0] (pTile v s) h2)
      = pTile v (s + b) := pTile_roll v s h1 h2 h3

theorem gTile_stack_cat (v : (⟨2, ![1, 1024]⟩ : Shape).Idx → α)
    (h : Shape.Concatenates [⟨2, ![1, 1024]⟩, ⟨2, ![1, 1024]⟩, ⟨2, ![1, 1024]⟩, ⟨2, ![1, 1024]⟩, ⟨2, ![1, 1024]⟩,
      ⟨2, ![1, 1024]⟩, ⟨2, ![1, 1024]⟩, ⟨2, ![1, 1024]⟩] ⟨2, ![8, 1024]⟩ 0) :
    cat8 ⟨2, ![8, 1024]⟩ 0 ⟨2, ![1, 1024]⟩ ⟨2, ![1, 1024]⟩ ⟨2, ![1, 1024]⟩ ⟨2, ![1, 1024]⟩ ⟨2, ![1, 1024]⟩
        ⟨2, ![1, 1024]⟩ ⟨2, ![1, 1024]⟩ ⟨2, ![1, 1024]⟩ h
        v (rollRow v 1) (rollRow v 2) (rollRow v 3) (rollRow v 4) (rollRow v 5) (rollRow v 6) (rollRow v 7)
      = gTile v 0 := gTile_stack v h

end Cat

/-! ## The loaded rows, and one piece of the table -/

section Rows
variable {α : Type}

/-- Row `k` of a coordinate-major block, as a `[1, 1024]` vector. -/
def rowOf (x : (⟨3, ![1, 2, 1024]⟩ : Shape).Idx → α) (k : Fin 2) : (⟨2, ![1, 1024]⟩ : Shape).Idx → α :=
  fun y => x (ix3 (0 : Fin 1) k (y 1))

/-- The load of row `k` of a whole block held at `x`, cast to `[1, 1024]`, is `rowOf x k`. -/
theorem rowOf_load {sig : RefSig} {Val : EltTy → Type} {κ : Kind} {e : EltTy} (m : Memref sig κ .vmem S1x2x1024 e) (hm : m.IsWhole)
    (x : S1x2x1024.Idx → Val e)
    (k : ℕ) (hk : k < 2) (inb : ∀ a, ![0, k, 0] a + ![1, 1, 1024] a ≤ S1x2x1024.size a)
    (hc : (Rect.unit (s := S1x2x1024) ![0, k, 0] ![1, 1, 1024] inb).toLoadRect.shape.ShapeCasts S1x1024) :
    shapeCast S1x1024 (View.readAt Val m.view (Rect.unit (s := S1x2x1024) ![0, k, 0] ![1, 1, 1024] inb).toLoadRect (hm.unread x)) hc
      = rowOf x ⟨k, hk⟩ := by
  funext y
  obtain ⟨r, j, rfl⟩ : ∃ (r : Fin 1) (j : Fin 1024), y = ix2 r j := ⟨y 0, y 1, eq_ix2 y⟩
  obtain rfl : r = 0 := Subsingleton.elim _ _
  refine (shapeCast_1ab_ab_apply (a := 1) (b := 1024) _ hc (0 : Fin 1) j).trans ?_
  refine (hm.readAt_unread x _ _).trans ?_
  refine congrArg x (funext fun a => Fin.ext ?_)
  match a with
  | ⟨0, _⟩ => rfl
  | ⟨1, _⟩ => show k + 1 * 0 = k; omega
  | ⟨2, _⟩ => show 0 + 1 * j.val = j.val; omega

theorem rowOf_load0 {sig : RefSig} {Val : EltTy → Type} {κ : Kind} {e : EltTy} (m : Memref sig κ .vmem S1x2x1024 e) (hm : m.IsWhole)
    (x : S1x2x1024.Idx → Val e)
    (inb : ∀ a, ![0, 0, 0] a + ![1, 1, 1024] a ≤ S1x2x1024.size a)
    (hc : (Rect.unit (s := S1x2x1024) ![0, 0, 0] ![1, 1, 1024] inb).toLoadRect.shape.ShapeCasts S1x1024) :
    shapeCast S1x1024 (View.readAt Val m.view (Rect.unit (s := S1x2x1024) ![0, 0, 0] ![1, 1, 1024] inb).toLoadRect (hm.unread x)) hc
      = rowOf x 0 := rowOf_load m hm x 0 (by decide) inb hc

theorem rowOf_load1 {sig : RefSig} {Val : EltTy → Type} {κ : Kind} {e : EltTy} (m : Memref sig κ .vmem S1x2x1024 e) (hm : m.IsWhole)
    (x : S1x2x1024.Idx → Val e)
    (inb : ∀ a, ![0, 1, 0] a + ![1, 1, 1024] a ≤ S1x2x1024.size a)
    (hc : (Rect.unit (s := S1x2x1024) ![0, 1, 0] ![1, 1, 1024] inb).toLoadRect.shape.ShapeCasts S1x1024) :
    shapeCast S1x1024 (View.readAt Val m.view (Rect.unit (s := S1x2x1024) ![0, 1, 0] ![1, 1, 1024] inb).toLoadRect (hm.unread x)) hc
      = rowOf x 1 := rowOf_load m hm x 1 (by decide) inb hc

end Rows

section Kernel
variable {F : FTy → Type} [FloatOps F]

/-- Twice the smooth-L1 distance of a tile of differences, as the kernel computes it. -/
def smoothTile (D : FVec F S8x1024 .f32) : FVec F S8x1024 .f32 :=
  mulf (minimumf (absf D) (broadcast S8x1024 (Scalar.ofBits .f32 0x3F800000#32)))
    (subf (addf (absf D) (absf D)) (minimumf (absf D) (broadcast S8x1024 (Scalar.ofBits .f32 0x3F800000#32))))

theorem smoothTile_apply (D : FVec F S8x1024 .f32) (y : S8x1024.Idx) : smoothTile D y = twiceSmoothF (D y) := rfl

/-- An entry of the table from the two columns it reads. -/
theorem tableOf_apply (x0 x1 : Vec F S1x2x1024 .f32) (y : S1024x1024.Idx) (p g : Fin 1024)
    (hp : p = pColN (y 0).val (y 1).val) (hg : g = gColN (y 0).val (y 1).val) :
    tableOf x0 x1 y = FloatOps.addf
      (twiceSmoothF (FloatOps.subf (x0 (ix3 (0 : Fin 1) (0 : Fin 2) p)) (x1 (ix3 (0 : Fin 1) (0 : Fin 2) g))))
      (twiceSmoothF (FloatOps.subf (x0 (ix3 (0 : Fin 1) (1 : Fin 2) p)) (x1 (ix3 (0 : Fin 1) (1 : Fin 2) g)))) := by
  subst hp hg; rfl

/-- The stored tile at row offset `off` (a multiple of 8) is the table's rows `off … off + 7`: the prediction rows rolled left
    by `b`, with `b = 1024 - 128 o` modulo 1024, the ground-truth tiles at `s = 8 u`, where `o = off / 8 % 8` and `u = off / 64`. -/
theorem piece_eq (x0 x1 : Vec F S1x2x1024 .f32) (off b s : ℕ)
    (inb : ∀ a, ![off, 0] a + ![8, 1024] a ≤ S1024x1024.size a)
    (hoff : off % 8 = 0) (hb : b % 1024 = (1024 - 128 * (off / 8 % 8)) % 1024) (hs : s = 8 * (off / 64))
    (x : (Rect.unit (s := S1024x1024) ![off, 0] ![8, 1024] inb).shape.Idx) :
    addf (smoothTile (subf (pTile (rowOf x0 0) b) (gTile (rowOf x1 0) s)))
         (smoothTile (subf (pTile (rowOf x0 1) b) (gTile (rowOf x1 1) s))) x
      = tableOf x0 x1 ((Rect.unit (s := S1024x1024) ![off, 0] ![8, 1024] inb).emb x) := by
  obtain ⟨r, j, rfl⟩ : ∃ (r : Fin 8) (j : Fin 1024), x = ix2 r j := ⟨x 0, x 1, eq_ix2 (n0 := 8) (n1 := 1024) x⟩
  have hr := r.isLt
  have hj := j.isLt
  refine Eq.trans ?_ (tableOf_apply x0 x1 _ ⟨(j.val + b) % 1024, Nat.mod_lt _ (by decide)⟩
    ⟨(j.val + r.val + s) % 1024, Nat.mod_lt _ (by decide)⟩ (Fin.ext ?_) (Fin.ext ?_)).symm
  · rfl
  · show (j.val + b) % 1024 = (0 + 1 * j.val + 1024 - 128 * ((off + 1 * r.val) / 8 % 8)) % 1024
    omega
  · show (j.val + r.val + s) % 1024 = (0 + 1 * j.val + (off + 1 * r.val) % 8 + 8 * ((off + 1 * r.val) / 64)) % 1024
    omega

end Kernel

end Cert.KernelIdeal.Body.Table

end
-- ==== Proof.KI.TableFirst.lean ====
/-
  The table the kernel body's run loads back is `tableOf x0 x1` (TableDef.lean). The load of the whole table after the 128
  tile stores reads one function of the index (the canon of the stored pieces, which tile the table in blocks of
  8 × 1024); each stored tile, opened down to the two loaded blocks, is a pointwise combination of lane rolls of their
  rows, and the rolls collapse to the tiles `pTile` / `gTile` of TableLemmas.lean: the prediction rows rolled by a multiple
  of 128, the stacked ground-truth rows rolled by 8 after each group of eight stores. `piece_eq` there identifies each
  stored tile with the table's eight rows under it.
-/
import proofs.«165500_g13554916786703_cont_week2b_739_34_alg».proof.Proof.KI.RunFirst
import proofs.«165500_g13554916786703_cont_week2b_739_34_alg».proof.Proof.KI.TableDef
import proofs.«165500_g13554916786703_cont_week2b_739_34_alg».proof.Proof.KI.TableLemmas

set_option maxRecDepth 16384

noncomputable section

namespace Cert.KernelIdeal.Body

open Idealize.ShloMosaic Idealize.ShloMosaic.ValueIdx Idealize.ShloMosaic.Tactic
open Cert.KernelIdeal Cert.KernelIdeal.Gen Cert.KernelIdeal.Body.Table

variable {F : FTy → Type} [FloatOps F]

set_option maxHeartbeats 4000000 in
/-- The whole-table load of the run reads `tableOf x0 x1`. -/
theorem table_first (c : Dev nD) (arg1 : Memref sig .tc .vmem S1x2x1024 .f32) (harg1 : arg1.IsWhole) (arg2 : Memref sig .tc .vmem S1x2x1024 .f32) (harg2 : arg2.IsWhole) (arg4 : Memref sig .tc .vmem S1024x1024 .f32) (x0 x1 : Vec F S1x2x1024 .f32) :
    runFirst.sl.v2493 c arg1 harg1 arg2 harg2 arg4 x0 x1 = tableOf x0 x1 := by
  -- the load, over the literal list of the 128 stored pieces, every payload opened down to the two blocks
  sl_unfold_run_names
  delta
    k0_pay1 k0_pay6 k0_pay7 k0_pay8 k0_pay9 k0_pay10 k0_pay11 k0_pay12 k0_pay13 k0_pay14 k0_pay15 k0_pay16
    k0_pay17 k0_pay18 k0_pay19 k0_pay20 k0_pay21 k0_pay22 k0_pay23 k0_pay24 k0_pay25 k0_pay26 k0_pay27 k0_pay28
    k0_pay29 k0_pay30 k0_pay31 k0_pay32 k0_pay33 k0_pay34 k0_pay35 k0_pay36 k0_pay37 k0_pay38 k0_pay39 k0_pay40
    k0_pay41 k0_pay42 k0_pay43 k0_pay44 k0_pay45 k0_pay46 k0_pay47 k0_pay48 k0_pay49 k0_pay50 k0_pay51 k0_pay52
    k0_pay53 k0_pay54 k0_pay55 k0_pay56 k0_pay57 k0_pay58 k0_pay59 k0_pay60 k0_pay61 k0_pay62 k0_pay63 k0_pay64
    k0_pay65 k0_pay66 k0_pay67 k0_pay68 k0_pay69 k0_pay70 k0_pay71 k0_pay72 k0_pay73 k0_pay74 k0_pay75 k0_pay76
    k0_pay77 k0_pay78 k0_pay79 k0_pay80 k0_pay81 k0_pay82 k0_pay83 k0_pay84 k0_pay85 k0_pay86 k0_pay87 k0_pay88
    k0_pay89 k0_pay90 k0_pay91 k0_pay92 k0_pay93 k0_pay94 k0_pay95 k0_pay96 k0_pay97 k0_pay98 k0_pay99 k0_pay100
    k0_pay101 k0_pay102 k0_pay103 k0_pay104 k0_pay105 k0_pay106 k0_pay107 k0_pay108 k0_pay109 k0_pay110 k0_pay111 k0_pay112
    k0_pay113 k0_pay114 k0_pay115 k0_pay116 k0_pay117 k0_pay118 k0_pay119 k0_pay120 k0_pay121 k0_pay122 k0_pay123 k0_pay124
    k0_pay125 k0_pay126 k0_pay127 k0_pay128 k0_pay129 k0_pay130 k0_pay131 k0_pay132 k0_pay133 k0_pay134 k0_pay135 k0_pay136
    k0_pay137 k0_pay138 k0_pay139 k0_pay140 k0_pay141 k0_pay142 k0_pay143 k0_pay144 k0_pay145 k0_pay146 k0_pay147 k0_pay148
    k0_pay149 k0_pay150 k0_pay151 k0_pay152 k0_pay153 k0_pay154 k0_pay155 k0_pay156 k0_pay157 k0_pay158 k0_pay159 k0_pay160
    k0_pay161 k0_pay162 k0_pay163 k0_pay164 k0_pay165 k0_pay166 k0_pay167 k0_pay168 k0_pay169 k0_pay170 k0_pay171 k0_pay172
    k0_pay173 k0_pay174 k0_pay175 k0_pay176 k0_pay177 k0_pay178 k0_pay179 k0_pay180 k0_pay181 k0_pay182 k0_pay183 k0_pay184
    k0_pay185 k0_pay186 k0_pay187 k0_pay188 k0_pay189 k0_pay190 k0_pay191 k0_pay192 k0_pay193 k0_pay194 k0_pay195 k0_pay196
    k0_pay197 k0_pay198 k0_pay199 k0_pay200 k0_pay201 k0_pay202 k0_pay203 k0_pay204 k0_pay205 k0_pay206 k0_pay207 k0_pay208
    k0_pay209 k0_pay210 k0_pay211 k0_pay212 k0_pay213 k0_pay214 k0_pay215 k0_pay216 k0_pay217 k0_pay218 k0_pay219 k0_pay220
    k0_pay221 k0_pay222 k0_pay223 k0_pay224 k0_pay225 k0_pay226 k0_pay227 k0_pay228 k0_pay229 k0_pay230 k0_pay231 k0_pay232
    k0_pay233 k0_pay234 k0_pay235 k0_pay236 k0_pay237 k0_pay238 k0_pay239 k0_pay240 k0_pay241 k0_pay242 k0_pay243 k0_pay244
    k0_pay245 k0_pay246 k0_pay247 k0_pay248 k0_pay249 k0_pay250 k0_pay251 k0_pay252 k0_pay253 k0_pay254 k0_pay255 k0_pay256
    k0_pay257 k0_pay258 k0_pay259 k0_pay260 k0_pay261 k0_pay262 k0_pay263 k0_pay264 k0_pay265 k0_pay266 k0_pay267 k0_pay268
    k0_pay269 k0_pay270 k0_pay271 k0_pay272 k0_pay273 k0_pay274 k0_pay275 k0_pay276 k0_pay277 k0_pay278 k0_pay279 k0_pay280
    k0_pay281 k0_pay282
  -- every roll chain collapses: the loaded rows, the stacked and rolled ground-truth tiles, the rolled prediction tiles
  simp only [cat2_def, cat8_def, shapeCast_self, rowOf_load0, rowOf_load1, rollRow_cat, gTile_stack_cat, gTile_roll_cat,
    pTile_broadcast, pTile_roll_cat]
  -- the load reads the canon of the pieces, and the canon of pieces that are blocks of one function is that function
  refine (View.readCov_eq_canon' _ _ _).trans ?_
  funext j
  refine (View.canon_apply_of_pieces (tableOf x0 x1) _ ?hp _ ?hc).trans ?_
  case hc => exact View.cover_of_tiledL (s := S1024x1024) _ ![8, 1024] (by sl_kernel_rfl) _
  case hp =>
    iterate 128 (refine List.forall_mem_cons.2 ⟨by intro x; apply piece_eq <;> decide, ?_⟩)
    exact fun _ h => nomatch h
  -- the whole-table rectangle places an index at itself
  refine congrArg (tableOf x0 x1) (funext fun a => Fin.ext ?_)
  match a with
  | ⟨0, _⟩ => show 0 + 1 * (j 0).val = (j 0).val; omega
  | ⟨1, _⟩ => show 0 + 1 * (j 1).val = (j 1).val; omega

end Cert.KernelIdeal.Body

end
-- ==== Proof.KI.Outs.lean ====
/-
  What each case leaves in the one-element output block, in terms of the table: at the first point the least row sum
  of the table; at a middle point the block's previous contents plus that; at the last point that sum times 1 / 32768.
  The table the body loads is `tableOf` of the point's two input blocks in all three cases.
-/
import proofs.«165500_g13554916786703_cont_week2b_739_34_alg».proof.Proof.KI.Frame
import proofs.«165500_g13554916786703_cont_week2b_739_34_alg».proof.Proof.KI.TableFirst
import proofs.«165500_g13554916786703_cont_week2b_739_34_alg».proof.Proof.KI.TableLater
import proofs.«165500_g13554916786703_cont_week2b_739_34_alg».proof.Proof.KI.TableLast
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The offsets of the one-element block's only rectangle are zero. -/
theorem off_zero : (![0, 0, 0] : Fin S1x1x1.rank → ℕ) = fun _ => 0 := by
  funext a; fin_cases a <;> rfl

/-- After the first point the block holds the least row sum of the table. -/
theorem outFirst_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : condFirst i) (hc1 : ¬condLater i) (hc2 : ¬condLast i)
    (x0 x1 : Vec F S1x2x1024 .f32) :
    outFirst c i arg1 harg1 arg2 harg2 arg3 harg3 arg4 harg4 hc0 hc1 hc2 x0 x1 = k0_pay3 (tableOf x0 x1) := by
  unfold outFirst
  rw [View.read_writes_eq_canon _ _ _ (coverFirst c i arg1 harg1 arg2 harg2 arg3 harg3 arg4 harg4 hc0 hc1 hc2 x0 x1)]
  unfold runFirst
  dsimp only
  rw [View.canon_unit_zero off_zero, table_first]

/-- After a middle point: what the point before left, plus the least row sum. -/
theorem outLater_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : ¬condLast i)
    (x0 x1 : Vec F S1x2x1024 .f32) (xo : Vec F S1x1x1 .f32) :
    outLater c i arg1 harg1 arg2 harg2 arg3 harg3 arg4 harg4 hc0 hc1 hc2 x0 x1 xo = k0_pay4 (tableOf x0 x1) xo := by
  unfold outLater
  rw [View.read_writes_eq_canon _ _ _ (coverLater c i arg1 harg1 arg2 harg2 arg3 harg3 arg4 harg4 hc0 hc1 hc2 x0 x1 xo)]
  unfold runLater
  dsimp only
  rw [View.canon_unit_zero off_zero, table_later]
  simp only [View.readAt_eq_ld, harg3.read_unread, View.ld_unit_zero (S := S1x1x1) off_zero]

/-- After the last point: that sum, scaled. -/
theorem outLast_eq (c : Dev nD) (i : grid0.Coords) (arg1 : Memref sig .tc .vmem S1x2x1024 .f32) (harg1 : arg1.IsWhole) (arg2 : Memref sig .tc .vmem S1x2x1024 .f32) (harg2 : arg2.IsWhole) (arg3 : Memref sig .tc .vmem S1x1x1 .f32) (harg3 : arg3.IsWhole) (arg4 : Memref sig .tc .vmem S1024x1024 .f32) (harg4 : arg4.IsWhole) (hc0 : ¬condFirst i) (hc1 : condLater i) (hc2 : condLast i)
    (x0 x1 : Vec F S1x2x1024 .f32) (xo : Vec F S1x1x1 .f32) :
    outLast c i arg1 harg1 arg2 harg2 arg3 harg3 arg4 harg4 hc0 hc1 hc2 x0 x1 xo = k0_pay5 (k0_pay4 (tableOf x0 x1) xo) := by
  unfold outLast
  rw [View.read_writes_eq_canon _ _ _ (coverLast c i arg1 harg1 arg2 harg2 arg3 harg3 arg4 harg4 hc0 hc1 hc2 x0 x1 xo)]
  unfold runLast
  dsimp only
  rw [View.canon_cons_unit_zero (S := S1x1x1) off_zero]
  unfold runLast.sl.v2509 runLast.sl.H2_1
  rw [View.readCov_unit_zero (S := S1x1x1) _ off_zero, table_last]
  simp only [View.readAt_eq_ld, harg3.read_unread, View.ld_unit_zero (S := S1x1x1) off_zero]

end Cert.KernelIdeal.Body

end
-- ==== Proof.KI.Inputs.lean ====
/-
  The two input blocks of a grid point. The host transposes each argument [16, 1024, 2] to coordinate-major
  [16, 2, 1024] before the region; point t stages sample t of each, a [1, 2, 1024] block. So the prediction's block at
  point t reads, at (0, k, j), the argument at (t, j, k); likewise the ground truth's.
-/
import proofs.«165500_g13554916786703_cont_week2b_739_34_alg».proof.Proof.KI.Shared
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The array window 0 stages is the transposed prediction. -/
theorem V_p (c : Dev nD) : (V m c main_call0_v0 : S16x2x1024.Idx → Elt F .f32)
    = transpose S16x2x1024 [0, 2, 1] (m ((c : Thread nD τ).loc main_arg0)) transposes_S16x1024x2_S16x2x1024_0_2_1 := by
  show StableHlo.after hostOps0 (fun b => m (c, b)) (Proc.devRef .tc main_call0_v0) = _
  after_results
  rfl

/-- The array window 1 stages is the transposed ground truth. -/
theorem V_g (c : Dev nD) : (V m c main_call0_v1 : S16x2x1024.Idx → Elt F .f32)
    = transpose S16x2x1024 [0, 2, 1] (m ((c : Thread nD τ).loc main_arg1)) transposes_S16x1024x2_S16x2x1024_0_2_1 := by
  show StableHlo.after hostOps0 (fun b => m (c, b)) (Proc.devRef .tc main_call0_v1) = _
  after_results
  rfl

/-- Both input windows step along the batch axis only. -/
theorem index_p : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem index_g : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)

theorem lt16 (t : Fin cfg0.N) : t.val < 16 := lt_of_lt_of_eq t.isLt (show cfg0.N = 16 from N_0)

/-- The prediction's block at point `t`, element by element. -/
theorem iblk_p_apply (c : Dev nD) (t : Fin cfg0.N) (k : Fin 2) (j : Fin 1024) :
    (iblk m c 0 t : S1x2x1024.Idx → Elt F .f32) (ix3 (0 : Fin 1) k j)
      = m ((c : Thread nD τ).loc main_arg0) (ix3 (⟨t.val, lt16 t⟩ : Fin 16) j k) := by
  unfold iblk
  show V m c main_call0_v0 (((cfg0.win 0).blk t).view.emb (ix3 (0 : Fin 1) k j)) = _
  have e : ((cfg0.win 0).blk t).view.emb (ix3 (0 : Fin 1) k j) = (ix3 (⟨t.val, lt16 t⟩ : Fin 16) k j : S16x2x1024.Idx) := by
    funext a
    apply Fin.ext
    have h := (cfg0.win 0).rect_emb_val t (ix3 (0 : Fin 1) k j) a
    obtain ⟨h0, h1, h2⟩ := index_p t
    match a with
    | ⟨0, _⟩ => exact h.trans (by show win0_0.index t 0 * 1 + 0 = t.val; omega)
    | ⟨1, _⟩ => exact h.trans (by show win0_0.index t 1 * 2 + k.val = k.val; omega)
    | ⟨2, _⟩ => exact h.trans (by show win0_0.index t 2 * 1024 + j.val = j.val; omega)
  rw [e, V_p, transpose_ix3_021_apply]

/-- The ground truth's block at point `t`, element by element. -/
theorem iblk_g_apply (c : Dev nD) (t : Fin cfg0.N) (k : Fin 2) (j : Fin 1024) :
    (iblk m c 1 t : S1x2x1024.Idx → Elt F .f32) (ix3 (0 : Fin 1) k j)
      = m ((c : Thread nD τ).loc main_arg1) (ix3 (⟨t.val, lt16 t⟩ : Fin 16) j k) := by
  unfold iblk
  show V m c main_call0_v1 (((cfg0.win 1).blk t).view.emb (ix3 (0 : Fin 1) k j)) = _
  have e : ((cfg0.win 1).blk t).view.emb (ix3 (0 : Fin 1) k j) = (ix3 (⟨t.val, lt16 t⟩ : Fin 16) k j : S16x2x1024.Idx) := by
    funext a
    apply Fin.ext
    have h := (cfg0.win 1).rect_emb_val t (ix3 (0 : Fin 1) k j) a
    obtain ⟨h0, h1, h2⟩ := index_g t
    match a with
    | ⟨0, _⟩ => exact h.trans (by show win0_1.index t 0 * 1 + 0 = t.val; omega)
    | ⟨1, _⟩ => exact h.trans (by show win0_1.index t 1 * 2 + k.val = k.val; omega)
    | ⟨2, _⟩ => exact h.trans (by show win0_1.index t 2 * 1024 + j.val = j.val; omega)
  rw [e, V_g, transpose_ix3_021_apply]

end Cert.KernelIdeal.Body

end
-- ==== Proof.Spec.lean ====
/-
  The polygon matching loss, over the reals.

  For a batch of 16 polygons of 1024 points in the plane, a prediction `p` and a ground truth `g`, the
  loss of sample `b` at rotation `i` is the smooth-L1 distance between `p b` and `g b` rotated by `i`,
  summed over both coordinates and all points; the sample's loss is the least such distance over the
  1024 rotations, and the result is the mean over the batch of (that minimum divided by the number of
  points).

  Two arrangements of that number are stated here and proved equal:
  * `refLoss`: rotation by rotation, `(Σ_j Σ_c smoothL1 (p b j c - g b (i + j) c)) / 1024`, the minimum over
    `i`, the batch sum divided by 16;
  * `kerLoss`: a 1024 × 1024 table whose row `64 u + 8 o + r` holds, at column `j`,
    `twiceSmooth (p b (j - 128 o) 0 - g b (j + r + 8 u) 0) + twiceSmooth (p b (j - 128 o) 1 - g b (j + r + 8 u) 1)`
    (indices modulo 1024), where `twiceSmooth d = min |d| 1 * (|d| + |d| - min |d| 1) = 2 * smoothL1 d`; the
    row sums, their minimum, the batch sum, times `1 / 32768`.
  Row `64 u + 8 o + r` is rotation `r + 8 u + 128 o` after the change of summation index `j ↦ j - 128 o`,
  and `(u, o, r) ↦ r + 8 u + 128 o` is a bijection of `{0, …, 1023}`.
-/
import Mathlib.Algebra.BigOperators.Fin
import Mathlib.Algebra.Order.BigOperators.Group.Finset
import Mathlib.Data.Real.Basic
import Mathlib.Data.Fintype.BigOperators
import Mathlib.Order.Lattice
import Mathlib.Tactic.Ring
import Mathlib.Tactic.Linarith
import Mathlib.Tactic.NormNum

noncomputable section

namespace PolyMatch

open Finset

/-- The smooth-L1 distance with threshold 1, as the reference spells it. -/
def smoothL1 (d : ℝ) : ℝ := if |d| < 1 then 0.5 * |d| * |d| else |d| - 0.5

/-- The kernel's branch-free form of twice that distance. -/
def twiceSmooth (d : ℝ) : ℝ := min |d| 1 * (|d| + |d| - min |d| 1)

/-- Point `i + j` of a 1024-gon, cyclically. -/
def rot (i j : Fin 1024) : Fin 1024 := ⟨(i.val + j.val) % 1024, Nat.mod_lt _ (by norm_num)⟩

/-- The distance of sample `b` at rotation `i`: over the points, over the two coordinates. -/
def refDist (p g : Fin 16 → Fin 1024 → Fin 2 → ℝ) (b : Fin 16) (i : Fin 1024) : ℝ :=
  ∑ j : Fin 1024, ∑ c : Fin 2, smoothL1 (p b j c - g b (rot i j) c)

/-- The reference's arrangement of the loss. -/
def refLoss (p g : Fin 16 → Fin 1024 → Fin 2 → ℝ) : ℝ :=
  (∑ b : Fin 16, univ.inf' ⟨0, mem_univ _⟩ (fun i : Fin 1024 => refDist p g b i / 1024)) / 16

/-- The column of `p` that row `row` of the kernel's table reads at column `j`: `j - 128 o`, `o = (row / 8) % 8`. -/
def pCol (row j : Fin 1024) : Fin 1024 :=
  ⟨(j.val + 1024 - 128 * ((row.val / 8) % 8)) % 1024, Nat.mod_lt _ (by norm_num)⟩

/-- The column of `g` it reads: `j + r + 8 u`, `r = row % 8`, `u = row / 64`. -/
def gCol (row j : Fin 1024) : Fin 1024 :=
  ⟨(j.val + row.val % 8 + 8 * (row.val / 64)) % 1024, Nat.mod_lt _ (by norm_num)⟩

/-- Entry `(row, j)` of the kernel's table for sample `b`. -/
def tableEntry (p g : Fin 16 → Fin 1024 → Fin 2 → ℝ) (b : Fin 16) (row j : Fin 1024) : ℝ :=
  twiceSmooth (p b (pCol row j) 0 - g b (gCol row j) 0) + twiceSmooth (p b (pCol row j) 1 - g b (gCol row j) 1)

/-- Its row sum. -/
def rowSum (p g : Fin 16 → Fin 1024 → Fin 2 → ℝ) (b : Fin 16) (row : Fin 1024) : ℝ :=
  ∑ j : Fin 1024, tableEntry p g b row j

/-- The least row sum of sample `b`. -/
def part (p g : Fin 16 → Fin 1024 → Fin 2 → ℝ) (b : Fin 16) : ℝ :=
  univ.inf' ⟨0, mem_univ _⟩ (fun row : Fin 1024 => rowSum p g b row)

/-- The kernel's arrangement of the loss. -/
def kerLoss (p g : Fin 16 → Fin 1024 → Fin 2 → ℝ) : ℝ :=
  (∑ b : Fin 16, part p g b) * (1 / 32768)

end PolyMatch

end
-- ==== Proof.KI.StepValues.lean ====
/-
  The values of the kernel's last steps, in the extended reals. For the two coordinate-major blocks of sample `b` (the
  prediction `x0`, the ground truth `x1`, whose entries are the coerced reals `p b j k` and `g b j k`):
  * every entry of the kernel's 1024 × 1024 table is the coerced real entry `PolyMatch.tableEntry p g b r c`: the absolute
    value is `max d (-d)`, and minima, maxima, sums, differences and products of coerced reals are coerced;
  * the product of the table with the 1024 × 8 matrix of ones, into the zero accumulator, holds at `(r, c)` the sum of
    row `r`, the coerced `PolyMatch.rowSum p g b r`, whatever the column `c`;
  * the minimum, from `+∞`, over that 1 × 1024 × 8 array is the coerced least row sum `PolyMatch.part p g b`: it lies
    below `⊤` and below every entry, and some entry attains it;
  * so the first step stores `part`, a later step the block's element plus `part`, and the last step the block's
    element times `2⁻¹⁵ = 1 / 32768`.
-/
import proofs.«165500_g13554916786703_cont_week2b_739_34_alg».proof.Proof.Gen.KernelIdeal.Skeleton
import proofs.«165500_g13554916786703_cont_week2b_739_34_alg».proof.Proof.KI.TableDef
import proofs.«165500_g13554916786703_cont_week2b_739_34_alg».proof.Proof.Spec
import Idealize.ShloMosaic.PureOps.Ideal.Laws
import Idealize.ShloMosaic.Lib.ValueIdx
import Idealize.ShloMosaic.Lib.ValueLayout
import Mathlib.Data.EReal.Basic
import Mathlib.Data.EReal.Operations
import Mathlib.Data.Finset.Filter
import Mathlib.Data.Finset.Fold
import Mathlib.Data.Finset.Lattice.Fold
import Mathlib.Order.MinMax
import Mathlib.Algebra.Order.Group.Unbundled.Abs
import Mathlib.Algebra.BigOperators.Group.Finset.Defs
import Mathlib.Algebra.BigOperators.Group.Finset.Basic

noncomputable section

namespace Cert.KernelIdeal.Body

open Idealize.ShloMosaic Idealize.ShloMosaic.ValueIdx Cert.KernelIdeal Cert.KernelIdeal.Gen

/-! ## The float literals -/

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `+inf` denotes `⊤`. -/
theorem ofBits_inf : Ideal.ofBits .f32 0x7F800000#32 = (⊤ : EReal) := by
  simp [Ideal.ofBits, Ideal.ieee]

/-- The pattern `0x38000000` denotes `2 ^ (-15) = 1 / 32768`. -/
theorem ofBits_scale : Ideal.ofBits .f32 0x38000000#32 = ((1 / 32768 : ℝ) : EReal) := by
  simp [Ideal.ofBits, Ideal.ieee, -EReal.coe_mul]; norm_num

/-! ## One table entry -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- Twice the smooth distance of a real, computed in the extended reals, is the real one. -/
theorem twiceSmoothF_coe (r : ℝ) :
    twiceSmoothF (F := Ideal) ((r : ℝ) : EReal) = ((PolyMatch.twiceSmooth r : ℝ) : EReal) := by
  unfold twiceSmoothF PolyMatch.twiceSmooth
  rw [Ideal.absf_def, Ideal.minimumf_def, Ideal.mulf_def, Ideal.subf_def, Ideal.addf_def, Ideal.ofBits_def, ofBits_one]
  rw [abs_eq_max_neg, EReal.coe_mul, EReal.coe_sub, EReal.coe_add, coe_min, coe_max, EReal.coe_neg]

/-- Entry `(r, c)` of the table, for blocks that hold sample `b`'s coordinates, is the real table's entry. -/
theorem table_value (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal))
    (r c : Fin 1024) :
    tableOf (F := Ideal) x0 x1 (ix2 r c) = ((PolyMatch.tableEntry p g b r c : ℝ) : EReal) := by
  unfold tableOf PolyMatch.tableEntry
  rw [h0, h0, h1, h1, Ideal.subf_def, Ideal.subf_def, ← EReal.coe_sub, ← EReal.coe_sub, twiceSmoothF_coe,
    twiceSmoothF_coe, Ideal.addf_def, ← EReal.coe_add]
  rfl

/-- The same at any index of the table, the row and the column its two coordinates. -/
theorem table_value_idx (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal))
    (y : S1024x1024.Idx) :
    tableOf (F := Ideal) x0 x1 y
      = ((PolyMatch.tableEntry p g b ⟨(y 0).val, idx2_lt0 y⟩ ⟨(y 1).val, idx2_lt1 y⟩ : ℝ) : EReal) := by
  have hy : y = ix2 (⟨(y 0).val, idx2_lt0 y⟩ : Fin 1024) (⟨(y 1).val, idx2_lt1 y⟩ : Fin 1024) := by
    funext a; match a with | ⟨0, _⟩ => rfl | ⟨1, _⟩ => rfl
  exact (congrArg (tableOf (F := Ideal) x0 x1) hy).trans (table_value p g b x0 x1 h0 h1 _ _)

/-! ## The row sums: the product with the matrix of ones -/

/-- A finite sum of reals, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem lhs_dot_0 (i : S1024x8.Idx) (q : dot_S1024x1024_S1024x8_S1024x8_1_0_0_1_n_n.contr.Idx) :
    (dot_S1024x1024_S1024x8_S1024x8_1_0_0_1_n_n.lhsIdx i q 0).val = (i 0).val := by
  unfold DotDims.lhsIdx
  rw [dif_neg (show ¬(0 : Fin S1024x1024.rank) ∈ dot_S1024x1024_S1024x8_S1024x8_1_0_0_1_n_n.lhsBatch by decide), dif_pos (show (0 : Fin S1024x1024.rank) ∈ dot_S1024x1024_S1024x8_S1024x8_1_0_0_1_n_n.lhsNonContracting by decide)]
  rfl
theorem lhs_dot_1 (i : S1024x8.Idx) (q : dot_S1024x1024_S1024x8_S1024x8_1_0_0_1_n_n.contr.Idx) :
    (dot_S1024x1024_S1024x8_S1024x8_1_0_0_1_n_n.lhsIdx i q 1).val = (q ⟨0, by decide⟩).val :=
  dot_S1024x1024_S1024x8_S1024x8_1_0_0_1_n_n.lhsIdx_val_of_single rfl i q
theorem rhs_dot_0 (i : S1024x8.Idx) (q : dot_S1024x1024_S1024x8_S1024x8_1_0_0_1_n_n.contr.Idx) :
    (dot_S1024x1024_S1024x8_S1024x8_1_0_0_1_n_n.rhsIdx i q 0).val = (q ⟨0, by decide⟩).val :=
  dot_S1024x1024_S1024x8_S1024x8_1_0_0_1_n_n.rhsIdx_val_of_single rfl i q
theorem rhs_dot_1 (i : S1024x8.Idx) (q : dot_S1024x1024_S1024x8_S1024x8_1_0_0_1_n_n.contr.Idx) :
    (dot_S1024x1024_S1024x8_S1024x8_1_0_0_1_n_n.rhsIdx i q 1).val = (i 1).val := by
  unfold DotDims.rhsIdx
  rw [dif_neg (show ¬(1 : Fin S1024x8.rank) ∈ dot_S1024x1024_S1024x8_S1024x8_1_0_0_1_n_n.rhsBatch by decide), dif_pos (show (1 : Fin S1024x8.rank) ∈ dot_S1024x1024_S1024x8_S1024x8_1_0_0_1_n_n.rhsNonContracting by decide)]
  rfl

/-- The product of a 1024 × 1024 matrix with the 1024 × 8 matrix of ones, into the zero accumulator: entry `(r, c)`
    is the sum of row `r`. -/
theorem matmul_ones_apply (v : FVec Ideal S1024x1024 .f32) (r : Fin 1024) (c : Fin 8) :
    matmul dot_S1024x1024_S1024x8_S1024x8_1_0_0_1_n_n none v
        (broadcast S1024x8 (Scalar.ofBits (F := Ideal) .f32 0x3F800000#32))
        (constant (F := Ideal) S1024x8 .f32 0x00000000#32) (ix2 r c)
      = ∑ k : Fin 1024, v (ix2 r k) := by
  simp only [matmul]
  rw [Ideal.matmul_constant_zero_apply,
    ← Equiv.sum_comp (contrEquiv1 dot_S1024x1024_S1024x8_S1024x8_1_0_0_1_n_n 1024 rfl rfl).symm]
  refine Finset.sum_congr rfl fun k _ => ?_
  have hk := contrEquiv1_symm_val dot_S1024x1024_S1024x8_S1024x8_1_0_0_1_n_n 1024 rfl rfl k
  have el : dot_S1024x1024_S1024x8_S1024x8_1_0_0_1_n_n.lhsIdx (ix2 r c)
      ((contrEquiv1 dot_S1024x1024_S1024x8_S1024x8_1_0_0_1_n_n 1024 rfl rfl).symm k) = ix2 r k :=
    funext fun a => Fin.ext (by
      match a with
      | ⟨0, _⟩ => exact lhs_dot_0 _ _
      | ⟨1, _⟩ => exact (lhs_dot_1 _ _).trans hk)
  rw [el, broadcast_apply]
  show v (ix2 r k) * Ideal.ofBits .f32 0x3F800000#32 = _
  rw [ofBits_one, EReal.coe_one, mul_one]

/-- The matrix product the kernel takes of its table, at `(r, c)`: the real row sum, whatever the column. -/
theorem matmul_table_apply (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal))
    (r : Fin 1024) (c : Fin 8) :
    matmul (φ₁ := .f32) dot_S1024x1024_S1024x8_S1024x8_1_0_0_1_n_n none (tableOf (F := Ideal) x0 x1)
        (broadcast S1024x8 (Scalar.ofBits (F := Ideal) .f32 0x3F800000#32))
        (constant (F := Ideal) S1024x8 .f32 0x00000000#32) (ix2 r c)
      = ((PolyMatch.rowSum p g b r : ℝ) : EReal) := by
  rw [matmul_ones_apply]
  unfold PolyMatch.rowSum
  rw [coe_sum]
  exact Finset.sum_congr rfl fun k _ => table_value p g b x0 x1 h0 h1 r k

/-! ## The minimum over the rows -/

/-- In a shape whose every axis has extent one, any two indices are equal. -/
theorem idx_eq_of_size_one {s : Shape} (hs : ∀ a, s.size a = 1) (i j : s.Idx) : i = j :=
  funext fun a => Fin.ext (by have := (i a).isLt; have := (j a).isLt; have := hs a; omega)

/-- A shape cast out of such a shape reads the operand's one element. -/
theorem shapeCast_one_apply {s t : Shape} {α : Type} (hs : ∀ a, s.size a = 1) (x : s.Idx → α) (h : s.ShapeCasts t)
    (j : t.Idx) (k : s.Idx) : shapeCast t x h j = x k := by
  unfold shapeCast
  exact congrArg x (idx_eq_of_size_one hs _ _)

theorem size_S1 : ∀ a, S1.size a = 1 := fun a => by match a with | ⟨0, _⟩ => rfl
theorem size_S1x1 : ∀ a, S1x1.size a = 1 := fun a => by match a with | ⟨0, _⟩ => rfl | ⟨1, _⟩ => rfl
theorem size_S1x1x1 : ∀ a, S1x1x1.size a = 1 := fun a => by match a with | ⟨0, _⟩ => rfl | ⟨1, _⟩ => rfl | ⟨2, _⟩ => rfl

/-- A minimum reduction into a shape whose every axis has extent one is the minimum, from the accumulator's value,
    over every source index. -/
theorem multiReduction_minimumf_total {s t : Shape} {axes : List (Fin s.rank)} {φ : FTy} (src : FVec Ideal s φ)
    (acc : BitVec φ.bits) (h : s.Reduces axes t) (ht : ∀ b, t.size b = 1) (hφ : FKind.Formats φ)
    (hacc : acc = FKind.minimumf.neutral φ hφ) (j : t.Idx) :
    multiReduction .minimumf axes t src acc h hφ hacc j = Finset.univ.fold min (Ideal.ofBits φ acc) src := by
  rw [multiReduction_minimumf_eq_fold]
  rw [Finset.filter_true_of_mem fun i _ => funext fun b => Fin.ext (by
    have := (h.drop i b).isLt; have := (j b).isLt; have := ht b; omega)]
  rfl

/-- The minimum from `⊤` over a `1 × 1024 × 8` array whose entry `(u, r, c)` is the real `f r`: the least `f r`. -/
theorem fold_min_rows (w : S1x1024x8.Idx → EReal) (f : Fin 1024 → ℝ)
    (hw : ∀ (u : Fin 1) (r : Fin 1024) (c : Fin 8), w (ix3 u r c) = ((f r : ℝ) : EReal)) :
    Finset.univ.fold min (⊤ : EReal) w = ((Finset.univ.inf' ⟨0, Finset.mem_univ _⟩ f : ℝ) : EReal) := by
  apply le_antisymm
  · obtain ⟨r, _, hr⟩ := Finset.exists_mem_eq_inf' (⟨0, Finset.mem_univ _⟩ : (Finset.univ : Finset (Fin 1024)).Nonempty) f
    rw [Finset.fold_min_le]
    exact Or.inr ⟨ix3 (0 : Fin 1) r (0 : Fin 8), Finset.mem_univ _, by rw [hw, hr]⟩
  · rw [Finset.le_fold_min]
    refine ⟨le_top, fun x _ => ?_⟩
    obtain ⟨u, r, c, rfl⟩ : ∃ (u : Fin 1) (r : Fin 1024) (c : Fin 8), x = ix3 u r c := ⟨x 0, x 1, x 2, eq_ix3 x⟩
    rw [hw, EReal.coe_le_coe_iff]
    exact Finset.inf'_le _ (Finset.mem_univ _)

/-! ## The payloads -/

/-- The sample's minimum, as the kernel computes it from its table: the real one, at the block's one element. -/
theorem pay2_value (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal)) :
    k0_pay2 (F := Ideal) (tableOf x0 x1) = fun _ => ((PolyMatch.part p g b : ℝ) : EReal) := by
  funext i
  unfold k0_pay2
  rw [broadcast_apply]
  unfold extractAt
  refine (shapeCast_one_apply size_S1 _ _ _ (ix1 (0 : Fin 1))).trans ?_
  refine (multiReduction_minimumf_total _ _ _ size_S1 _ _ _).trans ?_
  rw [ofBits_inf]
  unfold PolyMatch.part
  refine fold_min_rows _ _ fun u r c => ?_
  rw [shapeCast_ab_1ab_apply]
  exact matmul_table_apply p g b x0 x1 h0 h1 r c

/-- The value the first step stores: the sample's minimum. -/
theorem first_value (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal)) :
    k0_pay3 (F := Ideal) (tableOf x0 x1) = fun _ => ((PolyMatch.part p g b : ℝ) : EReal) := by
  unfold k0_pay3
  rw [pay2_value p g b x0 x1 h0 h1]
  rfl

/-- The value a later step stores: the block's element plus the sample's minimum. -/
theorem later_value (p g : Fin 16 → Fin 1024 → Fin 2 → ℝ) (b : Fin 16) (x0 x1 : Vec Ideal S1x2x1024 .f32)
    (h0 : ∀ (k : Fin 2) (j : Fin 1024), x0 (ix3 (0 : Fin 1) k j) = ((p b j k : ℝ) : EReal))
    (h1 : ∀ (k : Fin 2) (j : Fin 1024), x1 (ix3 (0 : Fin 1) k j) = ((g b j k : ℝ) : EReal))
    (xo : Vec Ideal S1x1x1 .f32) :
    k0_pay4 (F := Ideal) (tableOf x0 x1) xo
      = fun _ => xo (ix3 (0 : Fin 1) (0 : Fin 1) (0 : Fin 1)) + ((PolyMatch.part p g b : ℝ) : EReal) := by
  funext j
  unfold k0_pay4
  rw [pay2_value p g b x0 x1 h0 h1]
  refine (shapeCast_one_apply size_S1x1 _ _ j (ix2 (0 : Fin 1) (0 : Fin 1))).trans ?_
  rw [addf_apply, shapeCast_one_apply size_S1x1x1 xo _ _ (ix3 (0 : Fin 1) (0 : Fin 1) (0 : Fin 1))]

/-- The value the last step stores: the block's element times `1 / 32768`. -/
theorem scale_value (xo : Vec Ideal S1x1x1 .f32) :
    k0_pay5 (F := Ideal) xo
      = fun _ => xo (ix3 (0 : Fin 1) (0 : Fin 1) (0 : Fin 1)) * (((1 / 32768 : ℝ)) : EReal) := by
  funext j
  unfold k0_pay5
  refine (shapeCast_one_apply size_S1x1 _ _ j (ix2 (0 : Fin 1) (0 : Fin 1))).trans ?_
  rw [mulf_apply, shapeCast_one_apply size_S1x1x1 xo _ _ (ix3 (0 : Fin 1) (0 : Fin 1) (0 : Fin 1)), broadcast_apply]
  show _ * Ideal.ofBits .f32 0x38000000#32 = _
  rw [ofBits_scale]

end Cert.KernelIdeal.Body

end
-- ==== Proof.KI.Value.lean ====
/-
  The idealized kernel's value. Under finite inputs p and g (real arrays), point t's two input blocks are sample t of p
  and g, coordinate-major; the block after point n holds the sum of the least row sums of samples 0 … n, and after the
  last point that sum times 1 / 32768: the loss in the kernel's arrangement. The output array is written back once, after
  the last point, and the host reshapes it to the scalar result.
-/
import proofs.«165500_g13554916786703_cont_week2b_739_34_alg».proof.Proof.KI.Outs
import proofs.«165500_g13554916786703_cont_week2b_739_34_alg».proof.Proof.KI.Inputs
import proofs.«165500_g13554916786703_cont_week2b_739_34_alg».proof.Proof.KI.StepValues
import proofs.«165500_g13554916786703_cont_week2b_739_34_alg».proof.Proof.Spec
import Idealize.ShloMosaic.Lib.Pipeline.Value
import Mathlib.Algebra.BigOperators.Fin

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

section Value

variable (m : (ℓ : Loc nD τ sig) → Buf (Elt Ideal) ℓ) (ρ : Dev nD → PrngReg)
variable (p g : Fin 16 → Fin 1024 → Fin 2 → ℝ)

/-- The least row sum of sample `n` (zero past the batch). -/
def partN (n : ℕ) : ℝ := if h : n < 16 then PolyMatch.part p g ⟨n, h⟩ else 0

/-- The sum of the least row sums of samples `0 … n`. -/
def accum (n : ℕ) : ℝ := ∑ k ∈ Finset.range (n + 1), partN p g k

theorem accum_zero : accum p g 0 = PolyMatch.part p g 0 := by
  simp [accum, partN]

theorem accum_succ (n : ℕ) (h : n + 1 < 16) : accum p g (n + 1) = accum p g n + PolyMatch.part p g ⟨n + 1, h⟩ := by
  unfold accum
  rw [Finset.sum_range_succ _ (n + 1)]
  simp [partN, h]

theorem accum_last : accum p g 15 * (1 / 32768) = PolyMatch.kerLoss p g := by
  have h : (∑ b : Fin 16, PolyMatch.part p g b) = accum p g 15 := by
    unfold accum
    rw [← Fin.sum_univ_eq_sum_range (fun k => partN p g k) (15 + 1)]
    exact Finset.sum_congr rfl fun b _ => by simp [partN, b.isLt]
  unfold PolyMatch.kerLoss
  rw [h]

variable {m p g}

/-- The block after point `n`: the running sum, and after the last point the loss. -/
theorem outsAt_value (c : Dev nD)
    (hp : ∀ (b : Fin 16) (j : Fin 1024) (k : Fin 2), m ((c : Thread nD τ).loc main_arg0) (ix3 b j k) = ((p b j k : ℝ) : EReal))
    (hg : ∀ (b : Fin 16) (j : Fin 1024) (k : Fin 2), m ((c : Thread nD τ).loc main_arg1) (ix3 b j k) = ((g b j k : ℝ) : EReal)) :
    ∀ (n : ℕ) (hn : n < cfg0.N), outsAt m c n hn
      = fun _ => if n = 15 then ((PolyMatch.kerLoss p g : ℝ) : EReal) else ((accum p g n : ℝ) : EReal) := by
  intro n
  induction n with
  | zero =>
    intro hn
    have hx0 : ∀ (k : Fin 2) (j : Fin 1024), (iblk m c 0 ⟨0, hn⟩ : S1x2x1024.Idx → EReal) (ix3 (0 : Fin 1) k j) = ((p 0 j k : ℝ) : EReal) :=
      fun k j => (iblk_p_apply m c ⟨0, hn⟩ k j).trans (hp _ j k)
    have hx1 : ∀ (k : Fin 2) (j : Fin 1024), (iblk m c 1 ⟨0, hn⟩ : S1x2x1024.Idx → EReal) (ix3 (0 : Fin 1) k j) = ((g 0 j k : ℝ) : EReal) :=
      fun k j => (iblk_g_apply m c ⟨0, hn⟩ k j).trans (hg _ j k)
    rw [outsAt_first m c ⟨0, hn⟩ rfl, outFirst_eq, first_value p g 0 _ _ hx0 hx1]
    funext _
    rw [if_neg (by decide), accum_zero]
  | succ n ih =>
    intro hn
    have hN : n + 1 < 16 := lt_of_lt_of_eq hn (show cfg0.N = 16 from N_0)
    have hx0 : ∀ (k : Fin 2) (j : Fin 1024), (iblk m c 0 ⟨n + 1, hn⟩ : S1x2x1024.Idx → EReal) (ix3 (0 : Fin 1) k j) = ((p ⟨n + 1, hN⟩ j k : ℝ) : EReal) :=
      fun k j => (iblk_p_apply m c ⟨n + 1, hn⟩ k j).trans (hp _ j k)
    have hx1 : ∀ (k : Fin 2) (j : Fin 1024), (iblk m c 1 ⟨n + 1, hn⟩ : S1x2x1024.Idx → EReal) (ix3 (0 : Fin 1) k j) = ((g ⟨n + 1, hN⟩ j k : ℝ) : EReal) :=
      fun k j => (iblk_g_apply m c ⟨n + 1, hn⟩ k j).trans (hg _ j k)
    have hprev := ih (Nat.lt_of_succ_lt hn)
    have hn15 : ¬n = 15 := by omega
    by_cases h2 : n + 1 = 15
    · rw [outsAt_last m c ⟨n + 1, hn⟩ h2, outLast_eq]
      show k0_pay5 (k0_pay4 (tableOf _ _) (outsAt m c n (Nat.lt_of_succ_lt hn))) = _
      rw [hprev, scale_value, later_value p g ⟨n + 1, hN⟩ _ _ hx0 hx1]
      funext _
      rw [if_pos h2, if_neg hn15]
      rw [← EReal.coe_add, ← EReal.coe_mul, ← accum_succ p g n hN]
      have e : n = 14 := by omega
      subst e
      exact congrArg _ (accum_last p g)
    · rw [outsAt_later m c ⟨n + 1, hn⟩ (Nat.succ_le_succ (Nat.zero_le n)) h2, outLater_eq]
      show k0_pay4 (tableOf _ _) (outsAt m c n (Nat.lt_of_succ_lt hn)) = _
      rw [hprev, later_value p g ⟨n + 1, hN⟩ _ _ hx0 hx1]
      funext _
      rw [if_neg h2, if_neg hn15, ← EReal.coe_add, ← accum_succ p g n hN]

end Value

section Final

variable {m : (ℓ : Loc nD τ sig) → Buf (Elt Ideal) ℓ} (ρ : Dev nD → PrngReg)
variable {p g : Fin 16 → Fin 1024 → Fin 2 → ℝ}

/-- The output window sits on its whole one-element array at every point. -/
theorem index_out : ∀ t : Fin cfg0.N, win0_2.index t (0 : Fin 3) = 0 ∧ win0_2.index t (1 : Fin 3) = 0 ∧ win0_2.index t (2 : Fin 3) = 0 :=
  (by decide +kernel : ∀ t : Fin grid0.N, win0_2.index t (0 : Fin 3) = 0 ∧ win0_2.index t (1 : Fin 3) = 0 ∧ win0_2.index t (2 : Fin 3) = 0)

theorem mem_blk_out (t : Fin cfg0.N) (i : S1x1x1.Idx) : i ∈ ((cfg0.win 2).blk t).view.set := by
  show i ∈ ((View.whole main_call0_v2).slice (win0_2.rect t)).set
  rw [View.set_slice_whole, Rect.mem_set_unit]
  intro a
  obtain ⟨e0, e1, e2⟩ := index_out t
  match a with
  | ⟨0, _⟩ => show win0_2.index t (0 : Fin 3) * 1 ≤ (i 0).val ∧ (i 0).val < win0_2.index t (0 : Fin 3) * 1 + 1; have hi : (i 0).val < 1 := (i 0).isLt; omega
  | ⟨1, _⟩ => show win0_2.index t (1 : Fin 3) * 1 ≤ (i 1).val ∧ (i 1).val < win0_2.index t (1 : Fin 3) * 1 + 1; have hi : (i 1).val < 1 := (i 1).isLt; omega
  | ⟨2, _⟩ => show win0_2.index t (2 : Fin 3) * 1 ≤ (i 2).val ∧ (i 2).val < win0_2.index t (2 : Fin 3) * 1 + 1; have hi : (i 2).val < 1 := (i 2).isLt; omega

/-- The output array after the run: written back once, after the last point. -/
theorem arr_out (c : Dev nD)
    (hp : ∀ (b : Fin 16) (j : Fin 1024) (k : Fin 2), m ((c : Thread nD τ).loc main_arg0) (ix3 b j k) = ((p b j k : ℝ) : EReal))
    (hg : ∀ (b : Fin 16) (j : Fin 1024) (k : Fin 2), m ((c : Thread nD τ).loc main_arg1) (ix3 b j k) = ((g b j k : ℝ) : EReal)) :
    (dats m 0 c).arrAt 2 cfg0.N = fun _ => ((PolyMatch.kerLoss p g : ℝ) : EReal) := by
  refine Dat.arrAt_eq_of_cover _ 2 _ (fun t hf => ?_)
    (fun i => ⟨⟨15, lt_of_lt_of_eq (by decide : (15 : ℕ) < 16) (show (16 : ℕ) = cfg0.N from N_0.symm)⟩, (flush0_2 _).mpr rfl, mem_blk_out _ i⟩)
  have h15 : t.val = 15 := by have h1 := (flush0_2 t).mp hf; have h2 := lt16 t; omega
  show (cfg0.win 2).cut (grid0.coords t) ((dats m 0 c).after 2 t) = _
  rw [after_out, outsAt_value c hp hg t.val t.isLt, if_pos h15]
  rfl

/-- The result buffer after the host's final reshape of the one-element array. -/
theorem result_value (c : Dev nD)
    (hp : ∀ (b : Fin 16) (j : Fin 1024) (k : Fin 2), m ((c : Thread nD τ).loc main_arg0) (ix3 b j k) = ((p b j k : ℝ) : EReal))
    (hg : ∀ (b : Fin 16) (j : Fin 1024) (k : Fin 2), m ((c : Thread nD τ).loc main_arg1) (ix3 b j k) = ((g b j k : ℝ) : EReal)) :
    Pipeline.afterTail₀ cfgs (dats m) 0 (V0 m) [hostOps1] c main_v0 = fun _ => ((PolyMatch.kerLoss p g : ℝ) : EReal) := by
  unfold Pipeline.afterTail₀
  show StableHlo.after hostOps1 _ (Proc.devRef .tc main_v0) = _
  after_results
  funext i
  show shapeCast S_ (Pipeline.withArrays spec0 c (V0 m c) (fun w => (dats m 0 c).arrAt w cfg0.N) (Proc.devRef .tc (Pipeline.arrRef spec0 2))) shapeCasts_S1x1x1_S_ i = _
  rw [Pipeline.withArrays_arr spec0 launch0.win.arr_inj c _ _ 2, arr_out c hp hg]
  rfl

/-- The idealized kernel's run with its value: the result buffer ends at the loss (the kernel's arrangement), the two
    arguments unchanged. -/
theorem run_value (p g : Dev nD → Fin 16 → Fin 1024 → Fin 2 → ℝ)
    (hp : ∀ (c : Dev nD) (b : Fin 16) (j : Fin 1024) (k : Fin 2), m ((c : Thread nD τ).loc main_arg0) (ix3 b j k) = ((p c b j k : ℝ) : EReal))
    (hg : ∀ (c : Dev nD) (b : Fin 16) (j : Fin 1024) (k : Fin 2), m ((c : Thread nD τ).loc main_arg1) (ix3 b j k) = ((g c b j k : ℝ) : EReal)) :
    θ_run defs (onTc (τ := τ) (main (F := Ideal))) ⟨m, fun _ => 0, ρ⟩ (fun r => ∀ c : Dev nD,
      r.2.mem ((c.tc : Thread nD τ).loc main_v0) = (fun _ => ((PolyMatch.kerLoss (p c) (g c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v0 (Pipeline.mem_restRefs_of main_v0 (by decide) (by decide))).trans (result_value c (hp c) (hg c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Final

end Cert.KernelIdeal.Body

end
-- ==== Proof.Ref.Run.lean ====
/- The reference program's @main as the straight line it is: the list of its eighty-one host operations in
   order, each called function's operations written at the call over that call's own buffers. Read back through
   the fold of the operations' results: every weakly fair execution terminates with each buffer at that fold over
   the launch contents, and the two argument buffers, which no operation writes, keep what they held. -/
import proofs.«165500_g13554916786703_cont_week2b_739_34_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- @main's operations, in order. Lines 1–7 build the index sum i + j and the modulus 1024; lines 8–28 are the
    remainder function on them (its select of the divisor at line 12 is the nested where); line 29 flattens the
    index table; lines 30–52 are the take (index normalisation through the nested where at line 36, the in-range
    mask, the gather along axis 1, the select against the fill value); line 53 restores the four-axis shape;
    lines 54–67 form |pred − gathered| and the two branches of the smooth-L1 term; line 68 is the where choosing
    between them; lines 69–81 sum over the coordinate axis, average over the point axis, take the minimum over
    the offset axis and average over the batch. -/
abbrev ops : List (HloOp τ sig (Elt F)) :=
  [ StableHlo.nullary main_v0 (iotaInDim S1024 32 0),
    StableHlo.unary main_v0 main_v1 (broadcastInDim S1x1024 ![1] bcast_S1024_S1x1024_1 : (⟨S1024, .i32⟩ : BufTy).Contents (Elt F) → (⟨S1x1024, .i32⟩ : BufTy).Contents (Elt F)),
    StableHlo.unary main_v0 main_v2 (broadcastInDim S1024x1 ![0] bcast_S1024_S1024x1_0 : (⟨S1024, .i32⟩ : BufTy).Contents (Elt F) → (⟨S1024x1, .i32⟩ : BufTy).Contents (Elt F)),
    StableHlo.unary main_v1 main_v3 (broadcastInDim S1024x1024 ![0, 1] bcast_S1x1024_S1024x1024_0_1 : (⟨S1x1024, .i32⟩ : BufTy).Contents (Elt F) → (⟨S1024x1024, .i32⟩ : BufTy).Contents (Elt F)),
    StableHlo.unary main_v2 main_v4 (broadcastInDim S1024x1024 ![0, 1] bcast_S1024x1_S1024x1024_0_1 : (⟨S1024x1, .i32⟩ : BufTy).Contents (Elt F) → (⟨S1024x1024, .i32⟩ : BufTy).Contents (Elt F)),
    StableHlo.binary main_v3 main_v4 main_v5 (addi : (⟨S1024x1024, .i32⟩ : BufTy).Contents (Elt F) → (⟨S1024x1024, .i32⟩ : BufTy).Contents (Elt F) → (⟨S1024x1024, .i32⟩ : BufTy).Contents (Elt F)),
    StableHlo.nullary main_c (constantI S_ 32 1024#32),
    -- the remainder function on (%5, %c), over main_call0
    StableHlo.TRef.unary (.of main_c : StableHlo.TRef sig ⟨S_, .i32⟩) main_call0.v0 id,
    StableHlo.TRef.nullary main_call0.c (constantI S_ 32 0#32),
    StableHlo.TRef.binary main_call0.v0 main_call0.c main_call0.v1 (cmpi .eq),
    StableHlo.TRef.nullary main_call0.c_0 (constantI S_ 32 1#32),
    StableHlo.TRef.ternary main_call0.v1 main_call0.c_0 main_call0.v0 main_call0.call0.v0 select,
    StableHlo.TRef.unary main_call0.call0.v0 main_call0.v3 (broadcastInDim S1024x1024 ![] bcast_S_S1024x1024),
    StableHlo.TRef.binary (.of main_v5 : StableHlo.TRef sig ⟨S1024x1024, .i32⟩) main_call0.v3 main_call0.v4 Host.remsi,
    StableHlo.TRef.nullary main_call0.c_1 (constantI S_ 32 0#32),
    StableHlo.TRef.unary main_call0.c_1 main_call0.v5 (broadcastInDim S1024x1024 ![] bcast_S_S1024x1024),
    StableHlo.TRef.binary main_call0.v4 main_call0.v5 main_call0.v6 (cmpi .ne),
    StableHlo.TRef.nullary main_call0.c_2 (constantI S_ 32 0#32),
    StableHlo.TRef.unary main_call0.c_2 main_call0.v7 (broadcastInDim S1024x1024 ![] bcast_S_S1024x1024),
    StableHlo.TRef.binary main_call0.v4 main_call0.v7 main_call0.v8 (cmpi .slt),
    StableHlo.TRef.nullary main_call0.c_3 (constantI S_ 32 0#32),
    StableHlo.TRef.binary main_call0.call0.v0 main_call0.c_3 main_call0.v9 (cmpi .slt),
    StableHlo.TRef.unary main_call0.v9 main_call0.v10 (broadcastInDim S1024x1024 ![] bcast_S_S1024x1024),
    StableHlo.TRef.binary main_call0.v8 main_call0.v10 main_call0.v11 (cmpi .ne),
    StableHlo.TRef.binary main_call0.v11 main_call0.v6 main_call0.v12 andi,
    StableHlo.TRef.unary main_call0.call0.v0 main_call0.v13 (broadcastInDim S1024x1024 ![] bcast_S_S1024x1024),
    StableHlo.TRef.binary main_call0.v4 main_call0.v13 main_call0.v14 addi,
    StableHlo.TRef.ternary main_call0.v12 main_call0.v14 main_call0.v4 main_call0.v15 select,
    StableHlo.reshape main_v6 main_v7 rfl shapeCasts_S1024x1024_S1048576,
    -- the take function on (%arg1, %7), over main_call1
    StableHlo.TRef.nullary main_call1.c (constantI S_ 32 0#32),
    StableHlo.TRef.unary main_call1.c main_call1.v0 (broadcastInDim S1048576 ![] bcast_S_S1048576),
    StableHlo.TRef.binary (.of main_v7 : StableHlo.TRef sig ⟨S1048576, .i32⟩) main_call1.v0 main_call1.v1 (cmpi .slt),
    StableHlo.TRef.nullary main_call1.c_0 (constantI S_ 32 1024#32),
    StableHlo.TRef.unary main_call1.c_0 main_call1.v2 (broadcastInDim S1048576 ![] bcast_S_S1048576),
    StableHlo.TRef.binary (.of main_v7 : StableHlo.TRef sig ⟨S1048576, .i32⟩) main_call1.v2 main_call1.v3 addi,
    StableHlo.TRef.ternary main_call1.v1 main_call1.v3 (.of main_v7 : StableHlo.TRef sig ⟨S1048576, .i32⟩) main_call1.call0.v0 select,
    StableHlo.TRef.unary main_call1.call0.v0 main_call1.v5 (broadcastInDim S1048576x1 ![0] bcast_S1048576_S1048576x1_0),
    StableHlo.TRef.nullary main_call1.c_1 (constantI S1 32 1023#32),
    StableHlo.TRef.nullary main_call1.c_2 (constantI S_ 32 0#32),
    StableHlo.TRef.unary main_call1.c_2 main_call1.v6 (broadcastInDim S1048576x1 ![] bcast_S_S1048576x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S1048576x1 ![0, 1] bcast_S1x1_S1048576x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S1048576x1_S1048576_d1 h_S_),
    StableHlo.TRef.binary (.of main_arg1 : StableHlo.TRef sig ⟨S16x1024x2, .f32⟩) main_call1.v5 main_call1.v13 (fun x i => Host.gather gather_S16x1024x2_S1048576x1_S16x1048576x2_02_1_n_n_1_1_1612 x i),
    StableHlo.TRef.unary main_call1.v12 main_call1.v14 (broadcastInDim S16x1048576x2 ![1] bcast_S1048576_S16x1048576x2_1),
    StableHlo.TRef.nullary main_call1.cst (constant S_ .f32 0x7FC00000#32),
    StableHlo.TRef.unary main_call1.cst main_call1.v15 (broadcastInDim S16x1048576x2 ![] bcast_S_S16x1048576x2),
    StableHlo.TRef.ternary main_call1.v14 main_call1.v13 main_call1.v15 main_call1.v16 select,
    StableHlo.reshape main_v8 main_v9 rfl shapeCasts_S16x1048576x2_S16x1024x1024x2,
    StableHlo.unary main_arg0 main_v10 (broadcastInDim S16x1x1024x2 ![0, 2, 3] bcast_S16x1024x2_S16x1x1024x2_0_2_3 : (⟨S16x1024x2, .f32⟩ : BufTy).Contents (Elt F) → (⟨S16x1x1024x2, .f32⟩ : BufTy).Contents (Elt F)),
    StableHlo.unary main_v10 main_v11 (broadcastInDim S16x1024x1024x2 ![0, 1, 2, 3] bcast_S16x1x1024x2_S16x1024x1024x2_0_1_2_3 : (⟨S16x1x1024x2, .f32⟩ : BufTy).Contents (Elt F) → (⟨S16x1024x1024x2, .f32⟩ : BufTy).Contents (Elt F)),
    StableHlo.binary main_v11 main_v9 main_v12 (subf : (⟨S16x1024x1024x2, .f32⟩ : BufTy).Contents (Elt F) → (⟨S16x1024x1024x2, .f32⟩ : BufTy).Contents (Elt F) → (⟨S16x1024x1024x2, .f32⟩ : BufTy).Contents (Elt F)),
    StableHlo.unary main_v12 main_v13 (Host.absf : (⟨S16x1024x1024x2, .f32⟩ : BufTy).Contents (Elt F) → (⟨S16x1024x1024x2, .f32⟩ : BufTy).Contents (Elt F)),
    StableHlo.nullary main_cst (constant S_ .f32 0x3F800000#32),
    StableHlo.unary main_cst main_v14 (broadcastInDim S16x1024x1024x2 ![] bcast_S_S16x1024x1024x2 : (⟨S_, .f32⟩ : BufTy).Contents (Elt F) → (⟨S16x1024x1024x2, .f32⟩ : BufTy).Contents (Elt F)),
    StableHlo.binary main_v13 main_v14 main_v15 (cmpf .olt : (⟨S16x1024x1024x2, .f32⟩ : BufTy).Contents (Elt F) → (⟨S16x1024x1024x2, .f32⟩ : BufTy).Contents (Elt F) → (⟨S16x1024x1024x2, .i1⟩ : BufTy).Contents (Elt F)),
    StableHlo.nullary main_cst_0 (constant S_ .f32 0x3F000000#32),
    StableHlo.unary main_cst_0 main_v16 (broadcastInDim S16x1024x1024x2 ![] bcast_S_S16x1024x1024x2 : (⟨S_, .f32⟩ : BufTy).Contents (Elt F) → (⟨S16x1024x1024x2, .f32⟩ : BufTy).Contents (Elt F)),
    StableHlo.binary main_v16 main_v13 main_v17 (mulf : (⟨S16x1024x1024x2, .f32⟩ : BufTy).Contents (Elt F) → (⟨S16x1024x1024x2, .f32⟩ : BufTy).Contents (Elt F) → (⟨S16x1024x1024x2, .f32⟩ : BufTy).Contents (Elt F)),
    StableHlo.binary main_v17 main_v13 main_v18 (mulf : (⟨S16x1024x1024x2, .f32⟩ : BufTy).Contents (Elt F) → (⟨S16x1024x1024x2, .f32⟩ : BufTy).Contents (Elt F) → (⟨S16x1024x1024x2, .f32⟩ : BufTy).Contents (Elt F)),
    StableHlo.nullary main_cst_1 (constant S_ .f32 0x3F000000#32),
    StableHlo.unary main_cst_1 main_v19 (broadcastInDim S16x1024x1024x2 ![] bcast_S_S16x1024x1024x2 : (⟨S_, .f32⟩ : BufTy).Contents (Elt F) → (⟨S16x1024x1024x2, .f32⟩ : BufTy).Contents (Elt F)),
    StableHlo.binary main_v13 main_v19 main_v20 (subf : (⟨S16x1024x1024x2, .f32⟩ : BufTy).Contents (Elt F) → (⟨S16x1024x1024x2, .f32⟩ : BufTy).Contents (Elt F) → (⟨S16x1024x1024x2, .f32⟩ : BufTy).Contents (Elt F)),
    -- the where function on (%15, %18, %20), over main_call2
    StableHlo.TRef.ternary (.of main_v15 : StableHlo.TRef sig ⟨S16x1024x1024x2, .i1⟩) (.of main_v18 : StableHlo.TRef sig ⟨S16x1024x1024x2, .f32⟩) (.of main_v20 : StableHlo.TRef sig ⟨S16x1024x1024x2, .f32⟩) main_call2.v0 select,
    StableHlo.nullary main_cst_2 (constant S_ .f32 0x00000000#32),
    StableHlo.binary main_v21 main_cst_2 main_v22 ((fun x v => Host.reduceAdd x v reducesTo_S16x1024x1024x2_S16x1024x1024_d3 h_S_) : (⟨S16x1024x1024x2, .f32⟩ : BufTy).Contents (Elt F) → (⟨S_, .f32⟩ : BufTy).Contents (Elt F) → (⟨S16x1024x1024, .f32⟩ : BufTy).Contents (Elt F)),
    StableHlo.nullary main_cst_3 (constant S_ .f32 0x00000000#32),
    StableHlo.binary main_v22 main_cst_3 main_v23 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    StableHlo.nullary main_cst_4 (constant S_ .f32 0x44800000#32),
    StableHlo.unary main_cst_4 main_v24 (broadcastInDim S16x1024 ![] bcast_S_S16x1024 : (⟨S_, .f32⟩ : BufTy).Contents (Elt F) → (⟨S16x1024, .f32⟩ : BufTy).Contents (Elt F)),
    StableHlo.binary main_v23 main_v24 main_v25 (Host.divf : (⟨S16x1024, .f32⟩ : BufTy).Contents (Elt F) → (⟨S16x1024, .f32⟩ : BufTy).Contents (Elt F) → (⟨S16x1024, .f32⟩ : BufTy).Contents (Elt F)),
    StableHlo.nullary main_cst_5 (constant S_ .f32 0x7F800000#32),
    StableHlo.binary main_v25 main_cst_5 main_v26 ((fun x v => Host.reduce FloatOps.minimumf x v reducesTo_S16x1024_S16_d1 h_S_) : (⟨S16x1024, .f32⟩ : BufTy).Contents (Elt F) → (⟨S_, .f32⟩ : BufTy).Contents (Elt F) → (⟨S16, .f32⟩ : BufTy).Contents (Elt F)),
    StableHlo.nullary main_cst_6 (constant S_ .f32 0x00000000#32),
    StableHlo.binary main_v26 main_cst_6 main_v27 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_7 (constant S_ .f32 0x41800000#32),
    StableHlo.binary main_v27 main_cst_7 main_v28 (Host.divf : (⟨S_, .f32⟩ : BufTy).Contents (Elt F) → (⟨S_, .f32⟩ : BufTy).Contents (Elt F) → (⟨S_, .f32⟩ : BufTy).Contents (Elt F)) ]

-- the unfolding walks a chain of eighty-one steps
set_option maxRecDepth 8192 in
/-- @main is that straight line. Sequencing in the program monad computes: a host step followed by a continuation
    is the step with the continuation pushed inside, and a return followed by a continuation is the continuation.
    So with the called functions' definitions unfolded at their calls, both sides reduce to the same chain of host
    steps, operation by operation. -/
theorem main_eq (c : Dev nD) : main (F := F) c = StableHlo.seq ops := rfl

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

open Idealize.ShloMosaic.StableHlo in
/-- Every buffer an operation touches is one of the TensorCore's references. -/
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
    nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub ..,
    reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., nullary_bufs_sub ..,
    unary_bufs_sub .., binary_bufs_sub ..,
    ternary_bufs_sub ..,
    nullary_bufs_sub .., binary_bufs_sub .., nullary_bufs_sub .., binary_bufs_sub .., nullary_bufs_sub .., unary_bufs_sub ..,
    binary_bufs_sub .., nullary_bufs_sub .., binary_bufs_sub .., nullary_bufs_sub .., binary_bufs_sub .., nullary_bufs_sub ..,
    binary_bufs_sub ..⟩

/-- On every device, for any float values, from any memory with zero counters: every weakly fair execution of @main on
    the TensorCores terminates, and every final state has each TensorCore buffer at the fold of the operations'
    results over the launch contents. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ

/-- The two arguments are results of no operation: the fold leaves them what they held. -/
theorem args_kept (V : Valuation τ sig (Elt F)) :
    StableHlo.after ops V (Proc.devRef .tc main_arg0) = V (Proc.devRef .tc main_arg0)
      ∧ StableHlo.after ops V (Proc.devRef .tc main_arg1) = V (Proc.devRef .tc main_arg1) := by
  constructor
  · after_results_simp
  · after_results_simp

end Cert.ReferenceIdeal.Run

end
-- ==== Proof.Ref.Index.lean ====
/-
  The integer side of the reference and its gather, as pure functions.

  The reference builds the table idx[i, j] = (j + i) mod 1024 (0 ≤ i, j < 1024) out of 32-bit words, flattens
  it row-major to 1048576 entries, takes the ground truth along its point axis at those entries and folds the
  result back to [16, 1024, 1024, 2]. Each operation is restated here as the pure function the program's line
  applies, composed in the program's order:

  * `idxTable`: iota, its two broadcasts to a row and to a column, their broadcasts to the square, the sum, the
    remainder by 1024 (a truncated `rem` followed by the sign fix-up of a floored remainder, the divisor
    guarded against zero) and the row-major flattening;
  * `taken a`: the take of `a` along axis 1 at `idxTable` (a negative entry wrapped by 1024, an out-of-range
    entry filled with the NaN constant, the gather itself clamping its start index);
  * `gathered a`: `taken a` folded back to [16, 1024, 1024, 2].

  The mathematics. Entry n = 1024 i + j of the flattened table is the word of (i + j) mod 1024: the words of i
  and j are below 1024, so their sum is below 2048 and does not wrap; it is non-negative and the divisor is
  1024 (neither 0 nor -1), so `rem` is the remainder of the values and is itself non-negative: the fix-up's
  condition (remainder negative ≠ divisor negative, and remainder ≠ 0) fails and the remainder is kept. In the
  take every entry lies in [0, 1023]: the wrap of negative entries is inert, the bounds mask is all ones (its
  and-reduction over the unit axis too), the clamp is inert, and the select keeps the gathered element, which
  is `a` at (b, (i + j) mod 1024, c) — the rotation `PolyMatch.rot i j` of the specification.
-/
import proofs.«165500_g13554916786703_cont_week2b_739_34_alg».proof.Proof.Gen.ReferenceIdeal
import proofs.«165500_g13554916786703_cont_week2b_739_34_alg».proof.Proof.Spec
import Idealize.ShloMosaic.Lib.ValueIdx
import Idealize.ShloMosaic.Lib.StableHlo.Predicate
import Idealize.ShloMosaic.Lib.Pipeline.Value

noncomputable section

namespace Cert.ReferenceIdeal.Index

open Idealize.ShloMosaic Idealize.ShloMosaic.ValueIdx
open Cert.ReferenceIdeal Cert.ReferenceIdeal.Facts₀

variable {F : FTy → Type} [FloatOps F]

/-! ## The table of rotated positions (lines %0 – %7) -/

/-- %0: the positions 0 … 1023. -/
abbrev offs : IVec S1024 32 := iotaInDim S1024 32 0
/-- %1: the positions as a row. -/
abbrev offsRow : IVec S1x1024 32 := broadcastInDim S1x1024 ![1] bcast_S1024_S1x1024_1 offs
/-- %2: the positions as a column. -/
abbrev offsCol : IVec S1024x1 32 := broadcastInDim S1024x1 ![0] bcast_S1024_S1024x1_0 offs
/-- %3: the row repeated down the square: entry (i, j) is j. -/
abbrev sqRow : IVec S1024x1024 32 := broadcastInDim S1024x1024 ![0, 1] bcast_S1x1024_S1024x1024_0_1 offsRow
/-- %4: the column repeated across the square: entry (i, j) is i. -/
abbrev sqCol : IVec S1024x1024 32 := broadcastInDim S1024x1024 ![0, 1] bcast_S1024x1_S1024x1024_0_1 offsCol
/-- %5: entry (i, j) is j + i. -/
abbrev sqSum : IVec S1024x1024 32 := addi sqRow sqCol
/-- %c: the number of points, 1024. -/
abbrev pnum : IVec S_ 32 := constantI S_ 32 1024#32

/-! The remainder function applied to (`sqSum`, `pnum`), its zero guard inlined. -/

/-- The divisor converted to the dividend's type (the same type: the identity). -/
abbrev remDiv : IVec S_ 32 := id pnum
abbrev remZero : IVec S_ 32 := constantI S_ 32 0#32
/-- Whether the divisor is zero. -/
abbrev remDivIsZero : IVec S_ 1 := cmpi .eq remDiv remZero
abbrev remOne : IVec S_ 32 := constantI S_ 32 1#32
/-- The divisor guarded against zero: 1 in place of 0. -/
abbrev remSafe : IVec S_ 32 := select remDivIsZero remOne remDiv
abbrev remSafeSq : IVec S1024x1024 32 := broadcastInDim S1024x1024 ![] bcast_S_S1024x1024 remSafe
/-- The truncated remainder. -/
abbrev remTrunc : IVec S1024x1024 32 := Host.remsi sqSum remSafeSq
abbrev remZero1 : IVec S_ 32 := constantI S_ 32 0#32
abbrev remZero1Sq : IVec S1024x1024 32 := broadcastInDim S1024x1024 ![] bcast_S_S1024x1024 remZero1
/-- Whether the truncated remainder is non-zero. -/
abbrev remNonzero : IVec S1024x1024 1 := cmpi .ne remTrunc remZero1Sq
abbrev remZero2 : IVec S_ 32 := constantI S_ 32 0#32
abbrev remZero2Sq : IVec S1024x1024 32 := broadcastInDim S1024x1024 ![] bcast_S_S1024x1024 remZero2
/-- Whether the truncated remainder is negative. -/
abbrev remNeg : IVec S1024x1024 1 := cmpi .slt remTrunc remZero2Sq
abbrev remZero3 : IVec S_ 32 := constantI S_ 32 0#32
/-- Whether the divisor is negative. -/
abbrev remDivNeg : IVec S_ 1 := cmpi .slt remSafe remZero3
abbrev remDivNegSq : IVec S1024x1024 1 := broadcastInDim S1024x1024 ![] bcast_S_S1024x1024 remDivNeg
/-- Whether the two signs differ. -/
abbrev remSignsDiffer : IVec S1024x1024 1 := cmpi .ne remNeg remDivNegSq
/-- Whether the floored remainder differs from the truncated one. -/
abbrev remFix : IVec S1024x1024 1 := andi remSignsDiffer remNonzero
abbrev remSafeSq1 : IVec S1024x1024 32 := broadcastInDim S1024x1024 ![] bcast_S_S1024x1024 remSafe
abbrev remShifted : IVec S1024x1024 32 := addi remTrunc remSafeSq1
/-- %6: the floored remainder: entry (i, j) is (j + i) mod 1024. -/
abbrev sqIdx : IVec S1024x1024 32 := select remFix remShifted remTrunc

/-- %7: the table flattened row-major: entry 1024 i + j is (j + i) mod 1024. -/
abbrev idxTable : IVec S1048576 32 := shapeCast S1048576 sqIdx shapeCasts_S1024x1024_S1048576

/-! ## The take (line %8) and its folding back (line %9) -/

abbrev takeZero : IVec S_ 32 := constantI S_ 32 0#32
abbrev takeZeroV : IVec S1048576 32 := broadcastInDim S1048576 ![] bcast_S_S1048576 takeZero
/-- Whether an entry is negative. -/
abbrev takeNeg : IVec S1048576 1 := cmpi .slt idxTable takeZeroV
abbrev takeLen : IVec S_ 32 := constantI S_ 32 1024#32
abbrev takeLenV : IVec S1048576 32 := broadcastInDim S1048576 ![] bcast_S_S1048576 takeLen
abbrev takeShifted : IVec S1048576 32 := addi idxTable takeLenV
/-- The entries, a negative one wrapped by the axis length. -/
abbrev takeWrapped : IVec S1048576 32 := select takeNeg takeShifted idxTable
/-- The wrapped entries as the gather's column of start indices. -/
abbrev takeStart : IVec S1048576x1 32 := broadcastInDim S1048576x1 ![0] bcast_S1048576_S1048576x1_0 takeWrapped
abbrev takeLast : IVec S1 32 := constantI S1 32 1023#32
abbrev takeZero1 : IVec S_ 32 := constantI S_ 32 0#32
abbrev takeZero1C : IVec S1048576x1 32 := broadcastInDim S1048576x1 ![] bcast_S_S1048576x1 takeZero1
/-- Whether a start index is at least 0. -/
abbrev takeGe : IVec S1048576x1 1 := cmpi .sge takeStart takeZero1C
abbrev takeLast1 : IVec S1x1 32 := broadcastInDim S1x1 ![1] bcast_S1_S1x1_1 takeLast
abbrev takeLastC : IVec S1048576x1 32 := broadcastInDim S1048576x1 ![0, 1] bcast_S1x1_S1048576x1_0_1 takeLast1
/-- Whether a start index is at most 1023. -/
abbrev takeLe : IVec S1048576x1 1 := cmpi .sle takeStart takeLastC
abbrev takeInC : IVec S1048576x1 1 := andi takeGe takeLe
abbrev takeTrue : IVec S_ 1 := constantI S_ 1 1#1
/-- Whether an entry is in bounds: the conjunction over the unit axis. -/
abbrev takeIn : IVec S1048576 1 := Host.reduce IntOp.andi takeInC takeTrue reducesTo_S1048576x1_S1048576_d1 h_S_
/-- The gather along axis 1 at the start indices. -/
abbrev takeGather (a : FVec F S16x1024x2 .f32) : FVec F S16x1048576x2 .f32 :=
  Host.gather gather_S16x1024x2_S1048576x1_S16x1048576x2_02_1_n_n_1_1_1612 a takeStart
abbrev takeMask : IVec S16x1048576x2 1 := broadcastInDim S16x1048576x2 ![1] bcast_S1048576_S16x1048576x2_1 takeIn
/-- The fill of an out-of-range entry: the NaN constant. -/
abbrev takeFill : FVec F S_ .f32 := constant S_ .f32 0x7FC00000#32
abbrev takeFillV : FVec F S16x1048576x2 .f32 := broadcastInDim S16x1048576x2 ![] bcast_S_S16x1048576x2 takeFill
/-- %8: `a` taken along axis 1 at the table's entries. -/
abbrev taken (a : FVec F S16x1024x2 .f32) : FVec F S16x1048576x2 .f32 := select takeMask (takeGather a) takeFillV

/-- %9: the taken array folded back: entry (b, i, j, c) is entry (b, 1024 i + j, c). -/
abbrev gathered (a : FVec F S16x1024x2 .f32) : FVec F S16x1024x1024x2 .f32 :=
  shapeCast S16x1024x1024x2 (taken a) shapeCasts_S16x1048576x2_S16x1024x1024x2

/-! ## Words -/

/-- The truncated remainder by 1024 of a small non-negative word is the remainder of its value: no corner of the
    division is met (the divisor is neither 0 nor -1) and both signs are plus. -/
theorem remsi_small (m : Nat) (hm : m < 2 ^ 31) :
    IntOp.remsi .host (BitVec.ofNat 32 m) 1024#32 = BitVec.ofNat 32 (m % 1024) := by
  have hc : ¬ IntOp.SDivCorner (BitVec.ofNat 32 m) 1024#32 := by
    intro h; rcases h with h | ⟨_, h⟩ <;> exact absurd h (by decide)
  have hx : (BitVec.ofNat 32 m).msb = false :=
    BitVec.msb_eq_false_iff_two_mul_lt.mpr (by simp only [BitVec.toNat_ofNat]; omega)
  have hy : (1024#32 : BitVec 32).msb = false := by decide
  simp only [IntOp.remsi, if_neg hc, BitVec.srem_eq, hx, hy]
  apply BitVec.eq_of_toNat_eq
  simp only [BitVec.toNat_umod, BitVec.toNat_ofNat, Nat.reducePow, Nat.reduceMod]
  omega

/-- A word below 1024 is not negative. -/
theorem slt_zero_small (m : Nat) (hm : m < 1024) : IntOp.cmpi .slt (BitVec.ofNat 32 m) 0#32 = 0#1 := by
  refine eq_zero_of_ne_one fun h => ?_
  have := (StableHlo.Predicate.slt_iff_toNat (a := BitVec.ofNat 32 m) (b := 0#32)
    (by simp only [BitVec.toNat_ofNat]; omega) (by decide)).mp h
  simp at this

/-- A word below 1024 is at least 0 … -/
theorem sge_zero_small (m : Nat) (hm : m < 1024) : IntOp.cmpi .sge (BitVec.ofNat 32 m) 0#32 = 1#1 :=
  (StableHlo.Predicate.sge_iff_toNat (a := BitVec.ofNat 32 m) (b := 0#32)
    (by simp only [BitVec.toNat_ofNat]; omega) (by decide)).mpr (by simp)

/-- … and at most 1023. -/
theorem sle_last_small (m : Nat) (hm : m < 1024) : IntOp.cmpi .sle (BitVec.ofNat 32 m) 1023#32 = 1#1 :=
  (StableHlo.Predicate.sle_iff_toNat (a := BitVec.ofNat 32 m) (b := 1023#32)
    (by simp only [BitVec.toNat_ofNat]; omega) (by decide)).mpr (by simp only [BitVec.toNat_ofNat]; omega)

/-! ## The table at an entry -/

theorem sqRow_apply (i j : Fin 1024) : sqRow (ix2 i j) = BitVec.ofNat 32 j.val := rfl
theorem sqCol_apply (i j : Fin 1024) : sqCol (ix2 i j) = BitVec.ofNat 32 i.val := rfl

theorem sqSum_apply (i j : Fin 1024) : sqSum (ix2 i j) = BitVec.ofNat 32 (j.val + i.val) := by
  show BitVec.ofNat 32 j.val + BitVec.ofNat 32 i.val = _
  rw [BitVec.ofNat_add]

theorem remSafeSq_apply (p : S1024x1024.Idx) : remSafeSq p = 1024#32 := rfl

theorem remTrunc_apply (i j : Fin 1024) : remTrunc (ix2 i j) = BitVec.ofNat 32 ((j.val + i.val) % 1024) := by
  show IntOp.remsi .host (sqSum (ix2 i j)) (remSafeSq (ix2 i j)) = _
  rw [sqSum_apply, remSafeSq_apply]
  exact remsi_small _ (by have := i.isLt; have := j.isLt; omega)

/-- The truncated remainder is not negative, and neither is the divisor: the fix-up does not apply. -/
theorem remFix_apply (i j : Fin 1024) : remFix (ix2 i j) = 0#1 := by
  have h1 : remNeg (ix2 i j) = 0#1 := by
    show IntOp.cmpi .slt (remTrunc (ix2 i j)) 0#32 = 0#1
    rw [remTrunc_apply]
    exact slt_zero_small _ (Nat.mod_lt _ (by norm_num))
  have h2 : remDivNegSq (ix2 i j) = 0#1 := rfl
  show IntOp.andi (IntOp.cmpi .ne (remNeg (ix2 i j)) (remDivNegSq (ix2 i j))) (remNonzero (ix2 i j)) = 0#1
  rw [h1, h2]
  exact BitVec.zero_and

/-- Entry (i, j) of the square table is (j + i) mod 1024. -/
theorem sqIdx_apply (i j : Fin 1024) : sqIdx (ix2 i j) = BitVec.ofNat 32 ((j.val + i.val) % 1024) := by
  show Scalar.select (remFix (ix2 i j)) (remShifted (ix2 i j)) (remTrunc (ix2 i j)) = _
  rw [remFix_apply, select_zero, remTrunc_apply]

/-- Entry n of the flattened table is entry (n / 1024, n % 1024) of the square one. -/
theorem idxTable_apply (n : Fin 1048576) :
    idxTable (ix1 n) = BitVec.ofNat 32 ((n.val / 1024 + n.val % 1024) % 1024) := by
  have hn := n.isLt
  have h := shapeCast_apply sqIdx shapeCasts_S1024x1024_S1048576 (ix1 n)
    (ix2 (⟨n.val / 1024, by omega⟩ : Fin 1024) (⟨n.val % 1024, by omega⟩ : Fin 1024)) (by
      rw [Shape.rowMajor_val_two, Shape.rowMajor_val_one]
      show n.val / 1024 * 1024 + n.val % 1024 = n.val
      omega)
  show shapeCast S1048576 sqIdx shapeCasts_S1024x1024_S1048576 (ix1 n) = _
  rw [h, sqIdx_apply, Nat.add_comm]

/-! ## The take at an entry -/

/-- The value of entry n: below 1024. -/
theorem idxVal_lt (n : Fin 1048576) : (n.val / 1024 + n.val % 1024) % 1024 < 1024 := Nat.mod_lt _ (by norm_num)

/-- No entry is negative: the wrap keeps it. -/
theorem takeWrapped_apply (n : Fin 1048576) : takeWrapped (ix1 n) = idxTable (ix1 n) := by
  have h1 : takeNeg (ix1 n) = 0#1 := by
    show IntOp.cmpi .slt (idxTable (ix1 n)) 0#32 = 0#1
    rw [idxTable_apply]
    exact slt_zero_small _ (idxVal_lt n)
  show Scalar.select (takeNeg (ix1 n)) (takeShifted (ix1 n)) (idxTable (ix1 n)) = _
  rw [h1, select_zero]

/-- Every index of the column of start indices is (n, 0). -/
theorem exists_ix2_zero (p : S1048576x1.Idx) : ∃ n : Fin 1048576, p = ix2 n (0 : Fin 1) :=
  ⟨⟨(p 0).val, idx2_lt0 p⟩, by
    funext d
    match d with
    | ⟨0, _⟩ => rfl
    | ⟨1, _⟩ => exact Fin.ext (by have := idx2_lt1 p; show (p 1).val = 0; omega)⟩

/-- The start index of row n is entry n of the table. -/
theorem takeStart_apply (n : Fin 1048576) :
    takeStart (ix2 n (0 : Fin 1)) = BitVec.ofNat 32 ((n.val / 1024 + n.val % 1024) % 1024) := by
  show takeWrapped (ix1 n) = _
  rw [takeWrapped_apply, idxTable_apply]

/-- Every start index lies in [0, 1023]. -/
theorem takeInC_apply (p : S1048576x1.Idx) : takeInC p = 1#1 := by
  obtain ⟨n, rfl⟩ := exists_ix2_zero p
  show IntOp.andi (IntOp.cmpi .sge (takeStart (ix2 n 0)) 0#32) (IntOp.cmpi .sle (takeStart (ix2 n 0)) 1023#32) = 1#1
  rw [takeStart_apply, sge_zero_small _ (idxVal_lt _), sle_last_small _ (idxVal_lt _)]
  rfl

/-- A conjunction of ones, from one, is one. -/
theorem foldl_andi_one {ι : Type} (g : ι → BitVec 1) (hg : ∀ k, g k = 1#1) (l : List ι) :
    l.foldl (fun r k => IntOp.andi r (g k)) 1#1 = 1#1 := by
  induction l with
  | nil => rfl
  | cons k l ih =>
    rw [List.foldl_cons, hg k]
    exact ih

/-- The bounds mask is all ones. -/
theorem takeIn_apply (q : S1048576.Idx) : takeIn q = 1#1 := by
  unfold takeIn Host.reduce
  exact foldl_andi_one (fun k => takeInC (S1048576x1.rowMajor.symm k)) (fun k => takeInC_apply _) _

theorem takeMask_apply (p : S16x1048576x2.Idx) : takeMask p = 1#1 := takeIn_apply _

/-! ## The gather at an entry -/

/-- The gather's dimension numbers. -/
abbrev gd : GatherDims S16x1024x2 S1048576x1 S16x1048576x2 :=
  gather_S16x1024x2_S1048576x1_S16x1048576x2_02_1_n_n_1_1_1612

/-- THE GATHER READ AT (b, n, c): axes 0 and 2 of the operand are offset axes (whole slices, read at the result's own
    coordinates), axis 1 is collapsed and start-indexed: the operand at (b, the start index of row n read signed
    and clamped into [0, 1023], c). -/
theorem gather_apply {α : Type} (x : S16x1024x2.Idx → α) (idx : IVec S1048576x1 32) (b : Fin 16) (n : Fin 1048576)
    (c : Fin 2) :
    Host.gather gd x idx (ix3 b n c)
      = x (ix3 b (⟨min (idx (ix2 n (0 : Fin 1))).toInt.toNat 1023, by omega⟩ : Fin 1024) c) := by
  unfold Host.gather
  congr 1
  funext a
  have hob : ∀ a : Fin 3, a ∉ gd.operandBatchingDims := fun a => List.not_mem_nil
  have hsi : gd.siIdx (ix3 b n c) ⟨0, by decide⟩ = ix2 n (0 : Fin 1) := by
    funext e
    match e with
    | ⟨0, _⟩ => rfl
    | ⟨1, _⟩ => rfl
  match a with
  | ⟨0, _⟩ =>
    refine Fin.ext ?_
    show gd.start (ix3 b n c) idx 0 + gd.batchCoord (ix3 b n c) 0 + gd.offCoord (ix3 b n c) 0 = b.val
    have hs : gd.start (ix3 b n c) idx 0 = 0 := rfl
    have ho : gd.offCoord (ix3 b n c) 0 = b.val := rfl
    rw [GatherDims.batchCoord_eq_zero _ _ _ (hob 0), hs, ho, Nat.add_zero, Nat.zero_add]
  | ⟨1, _⟩ =>
    refine Fin.ext ?_
    show gd.start (ix3 b n c) idx 1 + gd.batchCoord (ix3 b n c) 1 + gd.offCoord (ix3 b n c) 1 = _
    rw [GatherDims.batchCoord_eq_zero _ _ _ (hob 1),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ gd.startIndexMap from List.mem_singleton.mpr rfl)]
    have hsi' : gd.siIdx (ix3 b n c) ⟨List.idxOf (1 : Fin 3) gd.startIndexMap,
        List.idxOf_lt_length_iff.2 (List.mem_singleton.mpr rfl)⟩ = ix2 n (0 : Fin 1) := hsi
    rw [hsi']
    rfl
  | ⟨2, _⟩ =>
    refine Fin.ext ?_
    show gd.start (ix3 b n c) idx 2 + gd.batchCoord (ix3 b n c) 2 + gd.offCoord (ix3 b n c) 2 = c.val
    have hs : gd.start (ix3 b n c) idx 2 = 0 := rfl
    have ho : gd.offCoord (ix3 b n c) 2 = c.val := rfl
    rw [GatherDims.batchCoord_eq_zero _ _ _ (hob 2), hs, ho, Nat.add_zero, Nat.zero_add]

/-- Entry (b, n, c) of the taken array: `a` at (b, entry n of the table, c). -/
theorem taken_apply (a : FVec F S16x1024x2 .f32) (b : Fin 16) (n : Fin 1048576) (c : Fin 2) :
    taken a (ix3 b n c) = a (ix3 b (⟨(n.val / 1024 + n.val % 1024) % 1024, idxVal_lt n⟩ : Fin 1024) c) := by
  show Scalar.select (takeMask (ix3 b n c)) (Host.gather gd a takeStart (ix3 b n c)) (takeFillV (ix3 b n c)) = _
  rw [takeMask_apply, select_one, gather_apply]
  refine congrArg (fun k => a (ix3 b k c)) (Fin.ext ?_)
  show min (takeStart (ix2 n (0 : Fin 1))).toInt.toNat 1023 = (n.val / 1024 + n.val % 1024) % 1024
  have hlt := idxVal_lt n
  rw [takeStart_apply, StableHlo.Predicate.toInt_ofNat_small _ (by omega), Int.toNat_natCast]
  omega

/-- ENTRY (b, i, j, c) OF THE GATHERED ARRAY is `a` at (b, the rotation of j by i, c). -/
theorem gathered_apply (a : FVec F S16x1024x2 .f32) (b : Fin 16) (i j : Fin 1024) (c : Fin 2) :
    gathered a (ix4 b i j c) = a (ix3 b (PolyMatch.rot i j) c) := by
  have hi := i.isLt
  have hj := j.isLt
  have hb := b.isLt
  have hc := c.isLt
  have h := shapeCast_apply (taken a) shapeCasts_S16x1048576x2_S16x1024x1024x2 (ix4 b i j c)
    (ix3 b (⟨1024 * i.val + j.val, by omega⟩ : Fin 1048576) c) (by
      rw [Shape.rowMajor_val_three, Shape.rowMajor_val_four]
      show (b.val * 1048576 + (1024 * i.val + j.val)) * 2 + c.val = ((b.val * 1024 + i.val) * 1024 + j.val) * 2 + c.val
      omega)
  show shapeCast S16x1024x1024x2 (taken a) shapeCasts_S16x1048576x2_S16x1024x1024x2 (ix4 b i j c) = _
  rw [h, taken_apply]
  refine congrArg (fun k => a (ix3 b k c)) (Fin.ext ?_)
  show ((1024 * i.val + j.val) / 1024 + (1024 * i.val + j.val) % 1024) % 1024 = (i.val + j.val) % 1024
  have e1 : (1024 * i.val + j.val) / 1024 = i.val := by omega
  have e2 : (1024 * i.val + j.val) % 1024 = j.val := by omega
  rw [e1, e2]

end Cert.ReferenceIdeal.Index

end
-- ==== Proof.Ref.Value.lean ====
/-
  The float stages of the reference, as one pure function of the prediction array and of the rotated ground truth,
  and their value on real inputs.

  For a batch of 16 polygons of 1024 points in the plane, a prediction `a0` (sample, point, coordinate) and the
  ground truth already laid out by rotation, `gexp` (sample, rotation, point, coordinate), the stages are: the
  prediction repeated along the rotation axis; the difference with `gexp`; its absolute value `A`; the smooth-L1
  distance `if A < 1 then (1/2 · A) · A else A - 1/2`, written as a comparison and a select; the sum over the two
  coordinates and then over the 1024 points, each from zero; the quotient by 1024; the minimum over the 1024
  rotations, from plus infinity; the sum over the 16 samples, from zero; the quotient by 16.

  Over the extended reals every operation is exact. When every entry of `a0` is a real `p b j c` and every entry
  of `gexp` is the real `g b (i + j) c` (indices modulo 1024), each stage is the coercion of the matching real
  quantity: `|x - y|` of a difference of reals, the smooth-L1 distance `PolyMatch.smoothL1`, the finite sums (a
  coercion passes through a finite sum), the quotients by the nonzero constants 1024 and 16, and the minimum: a fold of
  `min` from `⊤` over coerced reals is the coercion of their least element, by the universal property of the fold on
  one side and of the finite infimum on the other. The result is `PolyMatch.refLoss p g`.
-/
import proofs.«165500_g13554916786703_cont_week2b_739_34_alg».proof.Proof.Gen.ReferenceIdeal
import proofs.«165500_g13554916786703_cont_week2b_739_34_alg».proof.Proof.Spec
import Idealize.ShloMosaic.PureOps.Ideal.Laws
import Idealize.ShloMosaic.PureOps.Reduce
import Idealize.ShloMosaic.Lib.ValueIdx
import Idealize.ShloMosaic.Lib.IdealHost
import Mathlib.Data.EReal.Basic
import Mathlib.Data.EReal.Operations
import Mathlib.Data.Finset.Fold
import Mathlib.Data.Finset.Lattice.Fold
import Mathlib.Algebra.BigOperators.Group.Finset.Basic
import Mathlib.Order.MinMax

noncomputable section

namespace Cert.ReferenceIdeal.FloatStages

open Idealize.ShloMosaic Idealize.ShloMosaic.ValueIdx Cert.ReferenceIdeal
open Cert.ReferenceIdeal.Facts₀ Cert.ReferenceIdeal.Facts
open scoped BigOperators

section Stages
variable {F : FTy → Type} [FloatOps F] [Facts]

/-- The absolute difference: the prediction broadcast along the rotation axis, minus the rotated ground truth. -/
abbrev absDiff (a0 : FVec F S16x1024x2 .f32) (gexp : FVec F S16x1024x1024x2 .f32) : FVec F S16x1024x1024x2 .f32 :=
  Host.absf (subf
    (broadcastInDim S16x1024x1024x2 ![0, 1, 2, 3] bcast_S16x1x1024x2_S16x1024x1024x2_0_1_2_3
      (broadcastInDim S16x1x1024x2 ![0, 2, 3] bcast_S16x1024x2_S16x1x1024x2_0_2_3 a0))
    gexp)

/-- The smooth-L1 distance of every pair of coordinates. -/
abbrev smooth (a0 : FVec F S16x1024x2 .f32) (gexp : FVec F S16x1024x1024x2 .f32) : FVec F S16x1024x1024x2 .f32 :=
  select
    (cmpf .olt (absDiff a0 gexp)
      (broadcastInDim S16x1024x1024x2 ![] bcast_S_S16x1024x1024x2 (constant S_ .f32 0x3F800000#32)))
    (mulf (mulf (broadcastInDim S16x1024x1024x2 ![] bcast_S_S16x1024x1024x2 (constant S_ .f32 0x3F000000#32))
      (absDiff a0 gexp)) (absDiff a0 gexp))
    (subf (absDiff a0 gexp)
      (broadcastInDim S16x1024x1024x2 ![] bcast_S_S16x1024x1024x2 (constant S_ .f32 0x3F000000#32)))

/-- The mean distance of every sample at every rotation. -/
abbrev dist (a0 : FVec F S16x1024x2 .f32) (gexp : FVec F S16x1024x1024x2 .f32) : FVec F S16x1024 .f32 :=
  Host.divf
    (Host.reduceAdd
      (Host.reduceAdd (smooth a0 gexp) (constant S_ .f32 0x00000000#32) reducesTo_S16x1024x1024x2_S16x1024x1024_d3 h_S_)
      (constant S_ .f32 0x00000000#32) reducesTo_S16x1024x1024_S16x1024_d2 h_S_)
    (broadcastInDim S16x1024 ![] bcast_S_S16x1024 (constant S_ .f32 0x44800000#32))

/-- The loss: the least mean distance of every sample, averaged over the batch. -/
abbrev lossOf (a0 : FVec F S16x1024x2 .f32) (gexp : FVec F S16x1024x1024x2 .f32) : FVec F S_ .f32 :=
  Host.divf
    (Host.reduceAdd
      (Host.reduce FloatOps.minimumf (dist a0 gexp) (constant S_ .f32 0x7F800000#32) reducesTo_S16x1024_S16_d1 h_S_)
      (constant S_ .f32 0x00000000#32) reducesTo_S16_S_d0 h_S_)
    (constant S_ .f32 0x41800000#32)

end Stages

section Value

/-! ## Coercions and constants -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The pattern `0x3F800000` is the real one. -/
theorem ofBits_one : Ideal.ofBits .f32 0x3F800000#32 = ((1 : ℝ) : EReal) := by
  rw [Ideal.ofBits_one_f32, EReal.coe_one]

/-- The pattern `0x3F000000` is the real one half. -/
theorem ofBits_half : Ideal.ofBits .f32 0x3F000000#32 = ((0.5 : ℝ) : EReal) := by
  simp [Ideal.ofBits, Ideal.ieee, -EReal.coe_mul]; norm_num

/-- The pattern `0x44800000` is the real 1024. -/
theorem ofBits_1024 : Ideal.ofBits .f32 0x44800000#32 = ((1024 : ℝ) : EReal) := by
  simp [Ideal.ofBits, Ideal.ieee, -EReal.coe_mul]; norm_num

/-- The pattern `0x41800000` is the real 16. -/
theorem ofBits_16 : Ideal.ofBits .f32 0x41800000#32 = ((16 : ℝ) : EReal) := by
  simp [Ideal.ofBits, Ideal.ieee, -EReal.coe_mul]; norm_num

/-- The pattern `0x7F800000` is plus infinity. -/
theorem ofBits_top : Ideal.ofBits .f32 0x7F800000#32 = (⊤ : EReal) := by
  simp [Ideal.ofBits, Ideal.ieee]

/-- The quotient of two coerced reals, the divisor not zero, is the coerced quotient. -/
theorem div_coe_coe (x y : ℝ) (hy : y ≠ 0) : Ideal.div (x : EReal) (y : EReal) = ((x / y : ℝ) : EReal) := by
  rw [Ideal.div_coe hy, ← EReal.coe_mul, mul_one_div]

/-! ## One element -/

/-- A select on "a real is below one" is the `if`. -/
theorem select_lt_one (a : ℝ) (u v : EReal) :
    Scalar.select (Ideal.cmp .olt (a : EReal) ((1 : ℝ) : EReal)) u v = if a < 1 then u else v := by
  unfold Scalar.select Ideal.cmp
  by_cases h : a < 1
  · have h' : (a : EReal) < 1 := by rw [← EReal.coe_one]; exact EReal.coe_lt_coe_iff.mpr h
    simp [h, h']
  · have h' : ¬ (a : EReal) < 1 := fun hh => h (EReal.coe_lt_coe_iff.mp (by rw [EReal.coe_one]; exact hh))
    simp [h, h']

/-- The ideal absolute value of a difference of two reals is the real absolute value. -/
theorem absf_sub_coe (x y : ℝ) :
    FloatOps.hostAbsf (F := Ideal) (φ := .f32) (FloatOps.subf (F := Ideal) (φ := .f32) (x : EReal) (y : EReal))
      = ((|x - y| : ℝ) : EReal) := by
  show max ((x : EReal) - (y : EReal)) (-((x : EReal) - (y : EReal))) = _
  rw [← EReal.coe_sub, ← EReal.coe_neg, ← EReal.coe_strictMono.monotone.map_max, abs_eq_max_neg]

/-- The selected branch at a real absolute value is the smooth-L1 distance. -/
theorem smooth_of_abs (d : ℝ) :
    Scalar.select (FloatOps.cmpf (F := Ideal) (φ := .f32) .olt ((|d| : ℝ) : EReal) (Ideal.ofBits .f32 0x3F800000#32))
        (FloatOps.mulf (F := Ideal) (φ := .f32)
          (FloatOps.mulf (F := Ideal) (φ := .f32) (Ideal.ofBits .f32 0x3F000000#32) ((|d| : ℝ) : EReal)) ((|d| : ℝ) : EReal))
        (FloatOps.subf (F := Ideal) (φ := .f32) ((|d| : ℝ) : EReal) (Ideal.ofBits .f32 0x3F000000#32))
      = ((PolyMatch.smoothL1 d : ℝ) : EReal) := by
  rw [ofBits_one, ofBits_half]
  show Scalar.select (Ideal.cmp .olt ((|d| : ℝ) : EReal) ((1 : ℝ) : EReal))
      (((0.5 : ℝ) : EReal) * ((|d| : ℝ) : EReal) * ((|d| : ℝ) : EReal)) (((|d| : ℝ) : EReal) - ((0.5 : ℝ) : EReal)) = _
  rw [select_lt_one, ← EReal.coe_mul, ← EReal.coe_mul, ← EReal.coe_sub]
  unfold PolyMatch.smoothL1
  exact (apply_ite Real.toEReal _ _ _).symm

/-! ## The reductions read at an index -/

/-- The two broadcasts of the prediction read at an index: the rotation coordinate is forgotten. -/
theorem bcast_pred_apply {α : Type} (h1 : S16x1024x2.BroadcastsInDim S16x1x1024x2 ![0, 2, 3])
    (h2 : S16x1x1024x2.BroadcastsInDim S16x1024x1024x2 ![0, 1, 2, 3]) (a0 : S16x1024x2.Idx → α)
    (b : Fin 16) (i j : Fin 1024) (c : Fin 2) :
    broadcastInDim S16x1024x1024x2 ![0, 1, 2, 3] h2 (broadcastInDim S16x1x1024x2 ![0, 2, 3] h1 a0) (ix4 b i j c)
      = a0 (ix3 b j c) := by
  unfold broadcastInDim
  refine congrArg a0 (funext fun a => ?_)
  match a with
  | ⟨0, _⟩ => rfl
  | ⟨1, _⟩ => rfl
  | ⟨2, _⟩ => rfl

/-- The sum over the coordinate axis, from zero, at `(b, i, j)`. -/
theorem sum3_apply (h' : S16x1024x1024x2.ReducesTo [3] S16x1024x1024) (hu : 0 < S_.numel)
    (X : FVec Ideal S16x1024x1024x2 .f32) (b : Fin 16) (i j : Fin 1024) :
    Host.reduceAdd X (constant (F := Ideal) S_ .f32 0x00000000#32) h' hu (ix3 b i j) = ∑ c : Fin 2, X (ix4 b i j c) := by
  have h : S16x1024x1024x2.Reduces [3] S16x1024x1024 := ⟨h'.1, by decide, h'.2⟩
  rw [hostReduceAdd_apply, Ideal.hostReduceAdd_single h' h]
  show Ideal.ofBits .f32 0x00000000#32 + ∑ c : Fin 2, X (h.lift (ix3 b i j) c) = _
  rw [Ideal.ofBits_zero_f32, zero_add]
  refine Finset.sum_congr rfl fun c _ => congrArg X (funext fun a => ?_)
  match a with
  | ⟨0, _⟩ => rfl
  | ⟨1, _⟩ => rfl
  | ⟨2, _⟩ => rfl
  | ⟨3, _⟩ => rfl

/-- The sum over the point axis, from zero, at `(b, i)`. -/
theorem sum2_apply (h' : S16x1024x1024.ReducesTo [2] S16x1024) (hu : 0 < S_.numel)
    (X : FVec Ideal S16x1024x1024 .f32) (b : Fin 16) (i : Fin 1024) :
    Host.reduceAdd X (constant (F := Ideal) S_ .f32 0x00000000#32) h' hu (ix2 b i) = ∑ j : Fin 1024, X (ix3 b i j) := by
  have h : S16x1024x1024.Reduces [2] S16x1024 := ⟨h'.1, by decide, h'.2⟩
  rw [hostReduceAdd_apply, Ideal.hostReduceAdd_single h' h]
  show Ideal.ofBits .f32 0x00000000#32 + ∑ j : Fin 1024, X (h.lift (ix2 b i) j) = _
  rw [Ideal.ofBits_zero_f32, zero_add]
  refine Finset.sum_congr rfl fun j _ => congrArg X (funext fun a => ?_)
  match a with
  | ⟨0, _⟩ => rfl
  | ⟨1, _⟩ => rfl
  | ⟨2, _⟩ => rfl

/-- The sum over the batch axis, from zero, at the one index of the scalar shape. -/
theorem sum0_apply (h' : S16.ReducesTo [0] S_) (hu : 0 < S_.numel) (X : FVec Ideal S16 .f32) (z : S_.Idx) :
    Host.reduceAdd X (constant (F := Ideal) S_ .f32 0x00000000#32) h' hu z = ∑ b : Fin 16, X (ix1 b) := by
  rw [hostReduceAdd_apply, Ideal.hostReduceAdd_total h' (fun b => b.elim0)]
  show Ideal.ofBits .f32 0x00000000#32 + ∑ i : S16.Idx, X i = _
  rw [Ideal.ofBits_zero_f32, zero_add]
  exact Fintype.sum_equiv ⟨fun i => i 0, ix1, fun i => (eq_ix1 i).symm, fun _ => rfl⟩ X (fun b => X (ix1 b))
    (fun i => congrArg X (eq_ix1 i))

/-- The minimum over the rotation axis, from plus infinity, of an array of coerced reals, at `b`: the coerced least
    of the reals. -/
theorem min1_apply (h' : S16x1024.ReducesTo [1] S16) (hu : 0 < S_.numel) (X : FVec Ideal S16x1024 .f32)
    (r : Fin 16 → Fin 1024 → ℝ) (hX : ∀ b i, X (ix2 b i) = ((r b i : ℝ) : EReal)) (b : Fin 16) :
    Host.reduce (FloatOps.minimumf (F := Ideal) (φ := .f32)) X (constant (F := Ideal) S_ .f32 0x7F800000#32) h' hu (ix1 b)
      = ((Finset.univ.inf' ⟨0, Finset.mem_univ _⟩ (fun i : Fin 1024 => r b i) : ℝ) : EReal) := by
  have h : S16x1024.Reduces [1] S16 := ⟨h'.1, by decide, h'.2⟩
  rw [Host.reduce_eq_fold_single _ X _ h' h hu]
  have hl : ∀ i : Fin 1024, X (h.lift (ix1 b) i) = ((r b i : ℝ) : EReal) := fun i => by
    rw [← hX]
    refine congrArg X (funext fun a => ?_)
    match a with
    | ⟨0, _⟩ => rfl
    | ⟨1, _⟩ => rfl
  show (Finset.univ : Finset (Fin 1024)).fold min (Ideal.ofBits .f32 0x7F800000#32) (fun i => X (h.lift (ix1 b) i)) = _
  rw [ofBits_top]
  apply le_antisymm
  · obtain ⟨i0, _, hi0⟩ := Finset.exists_mem_eq_inf' (s := (Finset.univ : Finset (Fin 1024))) ⟨0, Finset.mem_univ _⟩ (fun i => r b i)
    rw [hi0]
    exact (Finset.fold_min_le _).mpr (Or.inr ⟨i0, Finset.mem_univ _, (hl i0).le⟩)
  · exact (Finset.le_fold_min _).mpr ⟨le_top, fun (i : Fin 1024) _ =>
      (EReal.coe_le_coe_iff.mpr (Finset.inf'_le _ (Finset.mem_univ i))).trans (hl i).ge⟩

/-! ## The stages at the inputs -/

section Main
variable (p g : Fin 16 → Fin 1024 → Fin 2 → ℝ) (a0 : FVec Ideal S16x1024x2 .f32) (gexp : FVec Ideal S16x1024x1024x2 .f32)
  (h0 : ∀ (b : Fin 16) (j : Fin 1024) (c : Fin 2), a0 (ix3 b j c) = ((p b j c : ℝ) : EReal))
  (hg : ∀ (b : Fin 16) (i j : Fin 1024) (c : Fin 2), gexp (ix4 b i j c) = ((g b (PolyMatch.rot i j) c : ℝ) : EReal))
include h0 hg

/-- The absolute difference at `(b, i, j, c)`. -/
theorem absDiff_apply (b : Fin 16) (i j : Fin 1024) (c : Fin 2) :
    absDiff (F := Ideal) a0 gexp (ix4 b i j c) = ((|p b j c - g b (PolyMatch.rot i j) c| : ℝ) : EReal) := by
  show FloatOps.hostAbsf (F := Ideal) (φ := .f32) (FloatOps.subf (F := Ideal) (φ := .f32)
      (broadcastInDim S16x1024x1024x2 ![0, 1, 2, 3] bcast_S16x1x1024x2_S16x1024x1024x2_0_1_2_3
        (broadcastInDim S16x1x1024x2 ![0, 2, 3] bcast_S16x1024x2_S16x1x1024x2_0_2_3 a0) (ix4 b i j c))
      (gexp (ix4 b i j c))) = _
  rw [bcast_pred_apply, h0, hg]
  exact absf_sub_coe _ _

/-- The smooth-L1 array at `(b, i, j, c)`. -/
theorem smooth_apply (b : Fin 16) (i j : Fin 1024) (c : Fin 2) :
    smooth (F := Ideal) a0 gexp (ix4 b i j c) = ((PolyMatch.smoothL1 (p b j c - g b (PolyMatch.rot i j) c) : ℝ) : EReal) := by
  show Scalar.select
      (FloatOps.cmpf (F := Ideal) (φ := .f32) .olt (absDiff (F := Ideal) a0 gexp (ix4 b i j c)) (Ideal.ofBits .f32 0x3F800000#32))
      (FloatOps.mulf (F := Ideal) (φ := .f32)
        (FloatOps.mulf (F := Ideal) (φ := .f32) (Ideal.ofBits .f32 0x3F000000#32) (absDiff (F := Ideal) a0 gexp (ix4 b i j c)))
        (absDiff (F := Ideal) a0 gexp (ix4 b i j c)))
      (FloatOps.subf (F := Ideal) (φ := .f32) (absDiff (F := Ideal) a0 gexp (ix4 b i j c)) (Ideal.ofBits .f32 0x3F000000#32)) = _
  rw [absDiff_apply p g a0 gexp h0 hg]
  exact smooth_of_abs _

/-- The mean distance at `(b, i)`. -/
theorem dist_apply (b : Fin 16) (i : Fin 1024) :
    dist (F := Ideal) a0 gexp (ix2 b i) = ((PolyMatch.refDist p g b i / 1024 : ℝ) : EReal) := by
  show Ideal.div
      (Host.reduceAdd
        (Host.reduceAdd (smooth (F := Ideal) a0 gexp) (constant (F := Ideal) S_ .f32 0x00000000#32)
          reducesTo_S16x1024x1024x2_S16x1024x1024_d3 h_S_)
        (constant (F := Ideal) S_ .f32 0x00000000#32) reducesTo_S16x1024x1024_S16x1024_d2 h_S_ (ix2 b i))
      (Ideal.ofBits .f32 0x44800000#32) = _
  rw [sum2_apply, ofBits_1024, ← div_coe_coe _ _ (by norm_num : (1024 : ℝ) ≠ 0)]
  unfold PolyMatch.refDist
  rw [coe_finset_sum]
  refine congrArg (fun s => Ideal.div s _) (Finset.sum_congr rfl fun j _ => ?_)
  rw [sum3_apply, coe_finset_sum]
  exact Finset.sum_congr rfl fun c _ => smooth_apply p g a0 gexp h0 hg b i j c

/-- The last stages: the least mean distance of every sample, summed over the batch, divided by 16. -/
theorem lossOf_apply (z : S_.Idx) :
    lossOf (F := Ideal) a0 gexp z = ((PolyMatch.refLoss p g : ℝ) : EReal) := by
  show Ideal.div
      (Host.reduceAdd
        (Host.reduce (FloatOps.minimumf (F := Ideal) (φ := .f32)) (dist (F := Ideal) a0 gexp)
          (constant (F := Ideal) S_ .f32 0x7F800000#32) reducesTo_S16x1024_S16_d1 h_S_)
        (constant (F := Ideal) S_ .f32 0x00000000#32) reducesTo_S16_S_d0 h_S_ z)
      (Ideal.ofBits .f32 0x41800000#32) = _
  unfold PolyMatch.refLoss
  rw [sum0_apply, ofBits_16, ← div_coe_coe _ _ (by norm_num : (16 : ℝ) ≠ 0), coe_finset_sum]
  rw [Finset.sum_congr rfl fun b _ => min1_apply reducesTo_S16x1024_S16_d1 h_S_ (dist (F := Ideal) a0 gexp)
    (fun b i => PolyMatch.refDist p g b i / 1024) (dist_apply p g a0 gexp h0 hg) b]

end Main

/-- The float stages of the program, at a prediction whose entries are the reals `p` and a rotated ground truth whose
    entry `(b, i, j, c)` is the real `g b (i + j) c`, are the reference loss of `p` and `g`. -/
theorem lossOf_value (p g : Fin 16 → Fin 1024 → Fin 2 → ℝ) (a0 : FVec Ideal S16x1024x2 .f32)
    (gexp : FVec Ideal S16x1024x1024x2 .f32)
    (h0 : ∀ (b : Fin 16) (j : Fin 1024) (c : Fin 2), a0 (ValueIdx.ix3 b j c) = ((p b j c : ℝ) : EReal))
    (hg : ∀ (b : Fin 16) (i j : Fin 1024) (c : Fin 2),
      gexp (ValueIdx.ix4 b i j c) = ((g b (PolyMatch.rot i j) c : ℝ) : EReal)) :
    lossOf (F := Ideal) a0 gexp = fun _ => ((PolyMatch.refLoss p g : ℝ) : EReal) :=
  funext fun z => lossOf_apply p g a0 gexp h0 hg z

end Value

end Cert.ReferenceIdeal.FloatStages

end
-- ==== Proof.Ref.Assemble.lean ====
/- The reference's result as the specification's loss.

   The fold of @main's eighty-one operations at its result buffer is read in three stretches, each over the
   valuation the stretch before leaves:
   * operations 1–29 leave the flattened table of rotated positions in %7, whatever the inputs;
   * operations 30–53 leave in %9, over ANY valuation, the take of its %arg1 at its %7, folded back to four axes;
   * operations 54–81 leave in %28, over ANY valuation, the float stages of its %arg0 and its %9.
   Composed, the result is the float stages of the prediction and of the ground truth gathered at the table, and at the
   ideal float values, with both inputs real, that is the reference loss.

   An operation of a called function moves its operands and its result between a buffer's own type and the tensor
   value's type; at these literal buffers the two types are the same by computation and the moves are identities.
   Inside a stretch a value written and read back cancels the pair of moves for any buffer; at the stretch's rim the
   move is removed at the named buffer. What is left is the pure term, equal to the stage's by unfolding names. -/
import proofs.«165500_g13554916786703_cont_week2b_739_34_alg».proof.Proof.Ref.Run
import proofs.«165500_g13554916786703_cont_week2b_739_34_alg».proof.Proof.Ref.Index
import proofs.«165500_g13554916786703_cont_week2b_739_34_alg».proof.Proof.Ref.Value

noncomputable section

namespace Cert.ReferenceIdeal.Assemble

open Cert.ReferenceIdeal Cert.ReferenceIdeal.Gen Cert.ReferenceIdeal.Run Idealize.ShloMosaic Idealize.ShloMosaic.TcCoe Idealize.SL.Sem

variable {F : FTy → Type} [FloatOps F]

/-! ## Folds of a line cut in two -/

/-- The fold over two lines one after the other is the second's fold over the first's. -/
theorem after_append : ∀ (l₁ l₂ : List (HloOp τ sig (Elt F))) (V : Valuation τ sig (Elt F)),
    StableHlo.after (l₁ ++ l₂) V = StableHlo.after l₂ (StableHlo.after l₁ V)
  | [], _, _ => rfl
  | op :: l, l₂, V => after_append l l₂ (op.result V)

/-- The three stretches: the table (1–29), the take (30–53), the float stages (54–81). -/
theorem ops_split : (ops : List (HloOp τ sig (Elt F))) = ops.take 29 ++ ((ops.drop 29).take 24 ++ ops.drop 53) := rfl

/-! ## The moves between a buffer's type and its value's type -/

/-- Reading a buffer back at the value's type undoes writing the value there: the two moves are along one equation and
    its inverse. -/
theorem ofBuf_toBuf {T : BufTy} (x : StableHlo.TRef sig T) (v : T.Contents (Elt F)) : x.ofBuf (x.toBuf v) = v := by
  obtain ⟨r, h, hd, hu⟩ := x
  subst h
  rfl

/-! At a literal buffer the move is the identity: the buffer's type is the value's by computation. -/

theorem ofBuf_main_c (h hd hu) (v : (main_c : Ref sig .tc).ty.Contents (Elt F)) :
    (StableHlo.TRef.of main_c h hd hu : StableHlo.TRef sig ⟨S_, .i32⟩).ofBuf v = v := rfl
theorem ofBuf_main_v5 (h hd hu) (v : (main_v5 : Ref sig .tc).ty.Contents (Elt F)) :
    (StableHlo.TRef.of main_v5 h hd hu : StableHlo.TRef sig ⟨S1024x1024, .i32⟩).ofBuf v = v := rfl
theorem toBuf_main_v6 (h hd hu) (v : (⟨S1024x1024, .i32⟩ : BufTy).Contents (Elt F)) :
    (StableHlo.TRef.of main_v6 h hd hu : StableHlo.TRef sig ⟨S1024x1024, .i32⟩).toBuf v = v := rfl
theorem ofBuf_main_v7 (h hd hu) (v : (main_v7 : Ref sig .tc).ty.Contents (Elt F)) :
    (StableHlo.TRef.of main_v7 h hd hu : StableHlo.TRef sig ⟨S1048576, .i32⟩).ofBuf v = v := rfl
theorem ofBuf_main_arg1 (h hd hu) (v : (main_arg1 : Ref sig .tc).ty.Contents (Elt F)) :
    (StableHlo.TRef.of main_arg1 h hd hu : StableHlo.TRef sig ⟨S16x1024x2, .f32⟩).ofBuf v = v := rfl
theorem toBuf_main_v8 (h hd hu) (v : (⟨S16x1048576x2, .f32⟩ : BufTy).Contents (Elt F)) :
    (StableHlo.TRef.of main_v8 h hd hu : StableHlo.TRef sig ⟨S16x1048576x2, .f32⟩).toBuf v = v := rfl
theorem ofBuf_main_v15 (h hd hu) (v : (main_v15 : Ref sig .tc).ty.Contents (Elt F)) :
    (StableHlo.TRef.of main_v15 h hd hu : StableHlo.TRef sig ⟨S16x1024x1024x2, .i1⟩).ofBuf v = v := rfl
theorem ofBuf_main_v18 (h hd hu) (v : (main_v18 : Ref sig .tc).ty.Contents (Elt F)) :
    (StableHlo.TRef.of main_v18 h hd hu : StableHlo.TRef sig ⟨S16x1024x1024x2, .f32⟩).ofBuf v = v := rfl
theorem ofBuf_main_v20 (h hd hu) (v : (main_v20 : Ref sig .tc).ty.Contents (Elt F)) :
    (StableHlo.TRef.of main_v20 h hd hu : StableHlo.TRef sig ⟨S16x1024x1024x2, .f32⟩).ofBuf v = v := rfl
theorem toBuf_main_v21 (h hd hu) (v : (⟨S16x1024x1024x2, .f32⟩ : BufTy).Contents (Elt F)) :
    (StableHlo.TRef.of main_v21 h hd hu : StableHlo.TRef sig ⟨S16x1024x1024x2, .f32⟩).toBuf v = v := rfl

/-! ## The take at any vector of positions

Lines 30–53 as a pure function of the flattened positions and of the array taken from: a negative position wrapped by
the axis length, the positions as a column of start indices, the in-range mask (its conjunction over the unit axis),
the gather along axis 1, the select against the fill value, and the result folded back to four axes. -/

section Take
variable (idx : IVec S1048576 32)

/-- The positions, a negative one wrapped by 1024. -/
abbrev wrappedAt : IVec S1048576 32 :=
  select (cmpi .slt idx (broadcastInDim S1048576 ![] bcast_S_S1048576 (constantI S_ 32 0#32)))
    (addi idx (broadcastInDim S1048576 ![] bcast_S_S1048576 (constantI S_ 32 1024#32))) idx
/-- The same as the gather's column of start indices. -/
abbrev startAt : IVec S1048576x1 32 := broadcastInDim S1048576x1 ![0] bcast_S1048576_S1048576x1_0 (wrappedAt idx)
/-- Whether a start index lies in [0, 1023]. -/
abbrev inRangeColAt : IVec S1048576x1 1 :=
  andi (cmpi .sge (startAt idx) (broadcastInDim S1048576x1 ![] bcast_S_S1048576x1 (constantI S_ 32 0#32)))
    (cmpi .sle (startAt idx)
      (broadcastInDim S1048576x1 ![0, 1] bcast_S1x1_S1048576x1_0_1
        (broadcastInDim S1x1 ![1] bcast_S1_S1x1_1 (constantI S1 32 1023#32))))
/-- The same, conjoined over the unit axis. -/
abbrev inRangeAt : IVec S1048576 1 :=
  Host.reduce IntOp.andi (inRangeColAt idx) (constantI S_ 1 1#1) reducesTo_S1048576x1_S1048576_d1 h_S_
/-- The array taken along axis 1 at the positions, an out-of-range position filled. -/
abbrev takenAt (a : FVec F S16x1024x2 .f32) : FVec F S16x1048576x2 .f32 :=
  select (broadcastInDim S16x1048576x2 ![1] bcast_S1048576_S16x1048576x2_1 (inRangeAt idx))
    (Host.gather gather_S16x1024x2_S1048576x1_S16x1048576x2_02_1_n_n_1_1_1612 a (startAt idx))
    (broadcastInDim S16x1048576x2 ![] bcast_S_S16x1048576x2 (constant S_ .f32 0x7FC00000#32))
/-- The same folded back to [16, 1024, 1024, 2]. -/
abbrev gatheredAt (a : FVec F S16x1024x2 .f32) : FVec F S16x1024x1024x2 .f32 :=
  shapeCast S16x1024x1024x2 (takenAt idx a) shapeCasts_S16x1048576x2_S16x1024x1024x2
end Take

/-- At the table of rotated positions it is the gathered array. -/
theorem gatheredAt_idxTable (a : FVec F S16x1024x2 .f32) : gatheredAt Index.idxTable a = Index.gathered a := rfl

/-! ## The three stretches -/

set_option maxRecDepth 8192

/-- Operations 1–29 leave the table of rotated positions in %7. -/
theorem table_stretch (V : Valuation τ sig (Elt F)) :
    StableHlo.after (ops.take 29) V (Proc.devRef .tc main_v7) = Index.idxTable := by
  simp only [ops, List.take_succ_cons, List.take_zero]
  after_results_simp
  simp only [ofBuf_toBuf, ofBuf_main_c, ofBuf_main_v5, toBuf_main_v6]
  rfl

/-- They write neither argument. -/
theorem table_stretch_args (V : Valuation τ sig (Elt F)) :
    StableHlo.after (ops.take 29) V (Proc.devRef .tc main_arg0) = V (Proc.devRef .tc main_arg0)
      ∧ StableHlo.after (ops.take 29) V (Proc.devRef .tc main_arg1) = V (Proc.devRef .tc main_arg1) := by
  simp only [ops, List.take_succ_cons, List.take_zero]
  constructor <;> after_results_simp

/-- Operations 30–53 leave in %9 the take of %arg1 at %7, folded back. -/
theorem take_stretch (W : Valuation τ sig (Elt F)) :
    StableHlo.after ((ops.drop 29).take 24) W (Proc.devRef .tc main_v9)
      = gatheredAt (W (Proc.devRef .tc main_v7)) (W (Proc.devRef .tc main_arg1)) := by
  simp only [ops, List.drop_succ_cons, List.drop_zero, List.take_succ_cons, List.take_zero]
  after_results_simp
  simp only [ofBuf_toBuf, ofBuf_main_v7, ofBuf_main_arg1, toBuf_main_v8]
  rfl

/-- They do not write %arg0. -/
theorem take_stretch_arg0 (W : Valuation τ sig (Elt F)) :
    StableHlo.after ((ops.drop 29).take 24) W (Proc.devRef .tc main_arg0) = W (Proc.devRef .tc main_arg0) := by
  simp only [ops, List.drop_succ_cons, List.drop_zero, List.take_succ_cons, List.take_zero]
  after_results_simp

/-- Operations 54–81 leave in %28 the float stages of %arg0 and %9. -/
theorem float_stretch (W : Valuation τ sig (Elt F)) :
    StableHlo.after (ops.drop 53) W (Proc.devRef .tc main_v28)
      = FloatStages.lossOf (W (Proc.devRef .tc main_arg0)) (W (Proc.devRef .tc main_v9)) := by
  simp only [ops, List.drop_succ_cons, List.drop_zero]
  after_results_simp
  simp only [ofBuf_toBuf, ofBuf_main_v15, ofBuf_main_v18, ofBuf_main_v20, toBuf_main_v21]

/-! ## The result -/

/-- The fold at the result buffer: the float stages of the prediction and of the ground truth gathered at the table of
    rotated positions. -/
theorem v28_term (V : Valuation τ sig (Elt F)) :
    StableHlo.after ops V (Proc.devRef .tc main_v28)
      = FloatStages.lossOf (V (Proc.devRef .tc main_arg0)) (Index.gathered (V (Proc.devRef .tc main_arg1))) := by
  rw [ops_split, after_append, after_append, float_stretch, take_stretch, take_stretch_arg0, table_stretch,
    (table_stretch_args V).1, (table_stretch_args V).2, gatheredAt_idxTable]

/-- At the ideal float values, with a prediction whose entries are the reals `p` and a ground truth whose entries are
    the reals `g`, the result buffer holds the reference loss of `p` and `g`: entry (b, i, j, c) of the gathered array
    is `g b (i + j mod 1024) c`, and the float stages of such a pair are that loss. -/
theorem ref_value (V : Valuation τ sig (Elt Ideal)) (p g : Fin 16 → Fin 1024 → Fin 2 → ℝ)
    (h0 : ∀ (b : Fin 16) (j : Fin 1024) (c : Fin 2),
      V (Proc.devRef .tc main_arg0) (ValueIdx.ix3 b j c) = ((p b j c : ℝ) : EReal))
    (h1 : ∀ (b : Fin 16) (j : Fin 1024) (c : Fin 2),
      V (Proc.devRef .tc main_arg1) (ValueIdx.ix3 b j c) = ((g b j c : ℝ) : EReal)) :
    StableHlo.after ops V (Proc.devRef .tc main_v28) = fun _ => ((PolyMatch.refLoss p g : ℝ) : EReal) := by
  rw [v28_term]
  exact FloatStages.lossOf_value p g _ _ h0
    (fun b i j c => (Index.gathered_apply _ b i j c).trans (h1 b (PolyMatch.rot i j) c))

end Cert.ReferenceIdeal.Assemble

end
-- ==== Proof.Finite.lean ====
/-
  Finite inputs are real arrays. The precondition says that every element x of the two inputs has |x| < +inf;
  on the extended reals that leaves exactly the reals, so both inputs are coercions of real arrays p and g.
-/
import proofs.«165500_g13554916786703_cont_week2b_739_34_alg».proof.Pre_finite_inputs
import proofs.«165500_g13554916786703_cont_week2b_739_34_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs Cert.Pre_finite_inputs.Gen

instance : Subsingleton S_.Idx := ⟨fun a b => funext fun d => d.elim0⟩

/-- The word 0x7F800000 is +inf. -/
theorem ofBits_inf : Ideal.ofBits .f32 0x7F800000#32 = ⊤ := by simp [Ideal.ofBits, Ideal.ieee]

/-- An extended real whose absolute value is below +inf is a real. -/
theorem real_of_abs_lt_top (x : EReal) (h : max x (-x) < ⊤) : ∃ r : ℝ, x = (r : EReal) := by
  induction x using EReal.rec with
  | bot => simp at h
  | coe r => exact ⟨r, rfl⟩
  | top => simp at h

/-- One `jnp.all (|a| < inf)` read back at an element. -/
theorem real_of_all (a : FVec Ideal S16x1024x2 .f32)
    (h : Host.reduce IntOp.andi (cmpf .olt (Host.absf a) (broadcastInDim S16x1024x2 ![] Facts.bcast_S_S16x1024x2 (constant (F := Ideal) S_ .f32 0x7F800000#32)))
      (constantI S_ 1 1#1) Facts.reducesTo_S16x1024x2_S_d0_1_2 Facts.h_S_ ix0 = 1#1) (i : S16x1024x2.Idx) :
    ∃ r : ℝ, a i = (r : EReal) := by
  have e := Host.reduce_andi_all _ _ _ _ _ h i
  apply real_of_abs_lt_top
  have e' : Ideal.cmp .olt (max (a i) (-(a i))) (Ideal.ofBits .f32 0x7F800000#32) = 1#1 := e
  rw [ofBits_inf] at e'
  unfold Ideal.cmp at e'
  by_contra hn
  simp [hn] at e'

theorem elems_real (a0 a1 : FVec Ideal S16x1024x2 .f32) (h : fn (F := Ideal) a0 a1 = fun _ => 1#1) :
    (∀ i, ∃ r : ℝ, a0 i = (r : EReal)) ∧ (∀ i, ∃ r : ℝ, a1 i = (r : EReal)) := by
  have h0 := congrFun h ix0
  dsimp only [fn] at h0
  obtain ⟨hA, hB⟩ := IntOp.andi_eq_one.1 h0
  exact ⟨fun i => real_of_all a0 hA i, fun i => real_of_all a1 hB i⟩

/-- Under the precondition the two inputs are real arrays. -/
theorem exists_reals (a0 a1 : FVec Ideal S16x1024x2 .f32) (h : fn (F := Ideal) a0 a1 = fun _ => 1#1) :
    ∃ p g : Fin 16 → Fin 1024 → Fin 2 → ℝ,
      (∀ (b : Fin 16) (j : Fin 1024) (c : Fin 2), a0 (ix3 b j c) = ((p b j c : ℝ) : EReal))
      ∧ (∀ (b : Fin 16) (j : Fin 1024) (c : Fin 2), a1 (ix3 b j c) = ((g b j c : ℝ) : EReal)) := by
  obtain ⟨h0, h1⟩ := elems_real a0 a1 h
  choose f0 hf0 using h0
  choose f1 hf1 using h1
  exact ⟨fun b j c => f0 (ix3 b j c), fun b j c => f1 (ix3 b j c), fun b j c => hf0 _, fun b j c => hf1 _⟩

end Cert.Finite

end
-- ==== Proof.Algebra.lean ====
/-
  The two arrangements of the polygon matching loss agree.

  * `twiceSmooth d = 2 * smoothL1 d` for every real `d` (the cases `|d| < 1` and `1 ≤ |d|`).
  * Row `64 u + 8 o + r` of the table has row sum `2 * refDist` at rotation `r + 8 u + 128 o`: the change of
    summation index `j ↦ j - 128 o` is a bijection of the 1024 columns, and under it the column of `g` read is
    the rotated column of `p`.
  * `64 u + 8 o + r ↦ r + 8 u + 128 o` is a bijection of the 1024 rows onto the 1024 rotations, so the least
    row sum is the least of `2 * refDist` over all rotations.
  * The least value commutes with multiplication and with division by a nonnegative constant.
  * `32768 = 2 * 1024 * 16`.
-/
import proofs.«165500_g13554916786703_cont_week2b_739_34_alg».proof.Proof.Spec
import Mathlib.Algebra.BigOperators.Fin
import Mathlib.Algebra.BigOperators.Group.Finset.Basic
import Mathlib.Algebra.Order.BigOperators.Group.Finset
import Mathlib.Data.Finset.Lattice.Fold
import Mathlib.Data.Real.Basic
import Mathlib.Data.Fintype.BigOperators
import Mathlib.Order.Lattice
import Mathlib.Tactic.Ring
import Mathlib.Tactic.Linarith
import Mathlib.Tactic.NormNum

noncomputable section

namespace PolyMatch

open Finset

/-! ### The branch-free form is twice the smooth-L1 distance -/

theorem twiceSmooth_eq (d : ℝ) : twiceSmooth d = 2 * smoothL1 d := by
  unfold twiceSmooth smoothL1
  by_cases h : |d| < 1
  · rw [if_pos h, min_eq_left h.le]; ring
  · rw [if_neg h, min_eq_right (not_lt.mp h)]; ring

/-! ### The change of summation index -/

/-- The rotation that row `64 u + 8 o + r` of the table computes: `r + 8 u + 128 o`. -/
def rowRot (row : Fin 1024) : Fin 1024 :=
  ⟨(row.val % 8 + 8 * (row.val / 64) + 128 * ((row.val / 8) % 8)) % 1024, Nat.mod_lt _ (by norm_num)⟩

/-- Column `j ↦ j - 128 o` is a bijection of the columns; its inverse is `j ↦ j + 128 o`. -/
def pColEquiv (row : Fin 1024) : Fin 1024 ≃ Fin 1024 where
  toFun := pCol row
  invFun j := ⟨(j.val + 128 * ((row.val / 8) % 8)) % 1024, Nat.mod_lt _ (by norm_num)⟩
  left_inv j := by
    apply Fin.ext
    have hj := j.isLt
    have hr := row.isLt
    simp only [pCol]
    omega
  right_inv j := by
    apply Fin.ext
    have hj := j.isLt
    have hr := row.isLt
    simp only [pCol]
    omega

/-- Under the change of index the column of `g` is the rotated column of `p`. -/
theorem gCol_eq_rot (row j : Fin 1024) : gCol row j = rot (rowRot row) (pCol row j) := by
  apply Fin.ext
  have hj := j.isLt
  have hr := row.isLt
  simp only [gCol, rot, rowRot, pCol]
  omega

/-- A row sum of the table is twice the distance at the row's rotation. -/
theorem rowSum_eq (p g : Fin 16 → Fin 1024 → Fin 2 → ℝ) (b : Fin 16) (row : Fin 1024) :
    rowSum p g b row = 2 * refDist p g b (rowRot row) := by
  unfold rowSum refDist
  rw [← Equiv.sum_comp (pColEquiv row)
    (fun k => ∑ c : Fin 2, smoothL1 (p b k c - g b (rot (rowRot row) k) c)), Finset.mul_sum]
  apply Finset.sum_congr rfl
  intro j _
  show tableEntry p g b row j = _
  unfold tableEntry
  rw [Fin.sum_univ_two, twiceSmooth_eq, twiceSmooth_eq, gCol_eq_rot]
  show _ = 2 * (smoothL1 (p b (pCol row j) 0 - g b (rot (rowRot row) (pCol row j)) 0)
    + smoothL1 (p b (pCol row j) 1 - g b (rot (rowRot row) (pCol row j)) 1))
  ring

/-! ### Rows and rotations -/

/-- For `n = 64 u + 8 o + r < 1024` the number `v = r + 8 u + 128 o` is below 1024 and
`64 ((v / 8) % 16) + 8 (v / 128) + v % 8 = n`. -/
theorem rowRot_arith_left (n : ℕ) (hn : n < 1024) :
    n % 8 + 8 * (n / 64) + 128 * (n / 8 % 8) < 1024 ∧
    64 * ((n % 8 + 8 * (n / 64) + 128 * (n / 8 % 8)) % 1024 / 8 % 16)
      + 8 * ((n % 8 + 8 * (n / 64) + 128 * (n / 8 % 8)) % 1024 / 128)
      + (n % 8 + 8 * (n / 64) + 128 * (n / 8 % 8)) % 1024 % 8 = n := by
  have h1 : n / 8 / 8 = n / 64 := Nat.div_div_eq_div_mul _ _ _
  have hv : n % 8 + 8 * (n / 64) + 128 * (n / 8 % 8) < 1024 := by omega
  refine ⟨hv, ?_⟩
  rw [Nat.mod_eq_of_lt hv]
  have a1 : (n % 8 + 8 * (n / 64) + 128 * (n / 8 % 8)) % 8 = n % 8 := by omega
  have a2 : (n % 8 + 8 * (n / 64) + 128 * (n / 8 % 8)) / 8 = n / 64 + 16 * (n / 8 % 8) := by omega
  have a3 : (n % 8 + 8 * (n / 64) + 128 * (n / 8 % 8)) / 128 = n / 8 % 8 := by omega
  rw [a1, a2, a3]
  omega

/-- For `m < 1024` and `w = 64 ((m / 8) % 16) + 8 (m / 128) + m % 8`,
`w % 8 + 8 (w / 64) + 128 ((w / 8) % 8) = m`, already below 1024. -/
theorem rowRot_arith_right (m : ℕ) (hm : m < 1024) :
    ((64 * (m / 8 % 16) + 8 * (m / 128) + m % 8) % 8
      + 8 * ((64 * (m / 8 % 16) + 8 * (m / 128) + m % 8) / 64)
      + 128 * ((64 * (m / 8 % 16) + 8 * (m / 128) + m % 8) / 8 % 8)) % 1024 = m := by
  have h1 : m / 8 / 16 = m / 128 := Nat.div_div_eq_div_mul _ _ _
  have b1 : (64 * (m / 8 % 16) + 8 * (m / 128) + m % 8) % 8 = m % 8 := by omega
  have b2 : (64 * (m / 8 % 16) + 8 * (m / 128) + m % 8) / 64 = m / 8 % 16 := by omega
  have b3 : (64 * (m / 8 % 16) + 8 * (m / 128) + m % 8) / 8 = 8 * (m / 8 % 16) + m / 128 := by omega
  rw [b1, b2, b3]
  have b4 : (8 * (m / 8 % 16) + m / 128) % 8 = m / 128 := by omega
  rw [b4]
  omega

/-- `64 u + 8 o + r ↦ r + 8 u + 128 o` is a bijection of `{0, …, 1023}`. -/
def rowRotEquiv : Fin 1024 ≃ Fin 1024 where
  toFun := rowRot
  invFun i := ⟨64 * ((i.val / 8) % 16) + 8 * (i.val / 128) + i.val % 8, by
    have hi := i.isLt
    omega⟩
  left_inv row := by
    apply Fin.ext
    simp only [rowRot]
    exact (rowRot_arith_left row.val row.isLt).2
  right_inv i := by
    apply Fin.ext
    simp only [rowRot]
    exact rowRot_arith_right i.val i.isLt

/-! ### The least value of a family -/

/-- The least value of a family is unchanged by reindexing along a bijection. -/
theorem inf'_univ_comp_equiv (e : Fin 1024 ≃ Fin 1024) (f : Fin 1024 → ℝ)
    (H : (univ : Finset (Fin 1024)).Nonempty) :
    univ.inf' H (fun i => f (e i)) = univ.inf' H f := by
  apply le_antisymm
  · apply Finset.le_inf'
    intro i _
    have h := Finset.inf'_le (fun i => f (e i)) (mem_univ (e.symm i))
    simp only [Equiv.apply_symm_apply] at h
    exact h
  · apply Finset.le_inf'
    intro i _
    exact Finset.inf'_le f (mem_univ (e i))

/-- The least value commutes with multiplication by a nonnegative constant. -/
theorem inf'_const_mul (c : ℝ) (hc : 0 ≤ c) (f : Fin 1024 → ℝ)
    (H : (univ : Finset (Fin 1024)).Nonempty) :
    univ.inf' H (fun i => c * f i) = c * univ.inf' H f := by
  have hm : Monotone (fun x : ℝ => c * x) := fun x y hxy => mul_le_mul_of_nonneg_left hxy hc
  exact (Finset.apply_inf'_eq_inf'_comp (s := univ) H (f := f) (fun x : ℝ => c * x)
    (fun x y => hm.map_inf x y)).symm

/-- The least value commutes with division by a nonnegative constant. -/
theorem inf'_div_const (c : ℝ) (hc : 0 ≤ c) (f : Fin 1024 → ℝ)
    (H : (univ : Finset (Fin 1024)).Nonempty) :
    univ.inf' H (fun i => f i / c) = univ.inf' H f / c := by
  have hm : Monotone (fun x : ℝ => x / c) := fun x y hxy => div_le_div_of_nonneg_right hxy hc
  exact (Finset.apply_inf'_eq_inf'_comp (s := univ) H (f := f) (fun x : ℝ => x / c)
    (fun x y => hm.map_inf x y)).symm

/-! ### The least row sum and the result -/

/-- The least row sum of a sample is twice its least distance over the rotations. -/
theorem part_eq (p g : Fin 16 → Fin 1024 → Fin 2 → ℝ) (b : Fin 16) :
    part p g b = 2 * univ.inf' ⟨0, mem_univ _⟩ (fun i : Fin 1024 => refDist p g b i) := by
  have h1 : (fun row : Fin 1024 => rowSum p g b row)
      = fun row => 2 * refDist p g b (rowRotEquiv row) := by
    funext row
    exact rowSum_eq p g b row
  unfold part
  rw [h1]
  exact (inf'_univ_comp_equiv rowRotEquiv (fun i => 2 * refDist p g b i) _).trans
    (inf'_const_mul 2 (by norm_num) _ _)

theorem kerLoss_eq_refLoss (p g : Fin 16 → Fin 1024 → Fin 2 → ℝ) : kerLoss p g = refLoss p g := by
  unfold kerLoss refLoss
  have h : ∀ b : Fin 16,
      univ.inf' ⟨0, mem_univ _⟩ (fun i : Fin 1024 => refDist p g b i / 1024)
        = univ.inf' ⟨0, mem_univ _⟩ (fun i : Fin 1024 => refDist p g b i) / 1024 :=
    fun b => inf'_div_const 1024 (by norm_num) _ _
  simp only [part_eq, h]
  rw [← Finset.mul_sum]
  simp only [div_eq_mul_inv]
  rw [← Finset.sum_mul]
  ring

end PolyMatch

end
-- ==== Proof.lean ====
/-
  The certificate of the polygon matching loss kernel against its jnp reference.

  Both programs compute, for 16 polygons of 1024 points, the mean over the batch of the least (over the 1024 cyclic
  rotations of the ground truth) mean smooth-L1 distance between prediction and rotated ground truth. The kernel builds,
  per sample, a 1024 × 1024 table of doubled distances whose row 64 u + 8 o + r is rotation r + 8 u + 128 o read through the
  change of column j ↦ j − 128 o, sums the rows by a product with a matrix of ones, takes the least sum, accumulates over
  the 16 grid points and scales by 1 / 32768 at the last; the reference gathers the rotated ground truth, sums, divides
  by 1024, takes minima and divides the batch sum by 16. Under finite inputs every value is a real, and the two
  arrangements are one number (`PolyMatch.kerLoss_eq_refLoss`).

  The frames: the kernel body is run once per control case (first point; a middle point; the last point), the output
  block's contents carried from point to point; the same text serves the word-level and the idealized program. The
  reference is a straight line of host operations.
-/
import proofs.«165500_g13554916786703_cont_week2b_739_34_alg».proof.Defs
import proofs.«165500_g13554916786703_cont_week2b_739_34_alg».proof.Proof.Gen.Kernel
import proofs.«165500_g13554916786703_cont_week2b_739_34_alg».proof.Proof.Gen.KernelIdeal
import proofs.«165500_g13554916786703_cont_week2b_739_34_alg».proof.Proof.Gen.ReferenceIdeal
import proofs.«165500_g13554916786703_cont_week2b_739_34_alg».proof.Proof.Gen.Pre_finite_inputs
import proofs.«165500_g13554916786703_cont_week2b_739_34_alg».proof.Proof.KB.Frame
import proofs.«165500_g13554916786703_cont_week2b_739_34_alg».proof.Proof.KI.Value
import proofs.«165500_g13554916786703_cont_week2b_739_34_alg».proof.Proof.Ref.Assemble
import proofs.«165500_g13554916786703_cont_week2b_739_34_alg».proof.Proof.Finite
import proofs.«165500_g13554916786703_cont_week2b_739_34_alg».proof.Proof.Algebra
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_kernel : @Cert.frame_Kernel Cert.Kernel.Gen.facts Cert.Pre_finite_inputs.Gen.facts :=
  fun m ρ _ => Cert.Kernel.Body.frame m ρ

/-- So does the idealized kernel. -/
theorem frame_kernelIdeal : @Cert.frame_KernelIdeal Cert.KernelIdeal.Gen.facts Cert.Pre_finite_inputs.Gen.facts :=
  fun m ρ _ => Cert.KernelIdeal.Body.frame m ρ

/-- The reference is a straight line of host operations, none of which writes an argument. -/
theorem frame_reference : @Cert.frame_ReferenceIdeal Cert.ReferenceIdeal.Gen.facts Cert.Pre_finite_inputs.Gen.facts :=
  fun m ρ _ => (θ_run Cert.ReferenceIdeal.defs _ _).mono (fun _ h c =>
    ⟨(h c Cert.ReferenceIdeal.main_arg0).trans (Cert.ReferenceIdeal.Run.args_kept _).1,
     (h c Cert.ReferenceIdeal.main_arg1).trans (Cert.ReferenceIdeal.Run.args_kept _).2⟩)
    (Cert.ReferenceIdeal.Run.run (F := Ideal) m ρ)

/-- Under finite inputs both programs end with the polygon matching loss of the same real arrays: the kernel's
    arrangement of it and the reference's are one number. -/
theorem algebraic : @Cert.algebraic_KernelIdeal_ReferenceIdeal Cert.KernelIdeal.Gen.facts Cert.ReferenceIdeal.Gen.facts Cert.Pre_finite_inputs.Gen.facts := by
  intro m ρ m' ρ' hpre hagree
  choose p g hp hg using fun c => Cert.Finite.exists_reals _ _ (hpre c)
  refine ⟨fun c _ => ((PolyMatch.kerLoss (p c) (g c) : ℝ) : EReal), Cert.KernelIdeal.Body.run_value ρ p g hp hg, ?_⟩
  refine (θ_run Cert.ReferenceIdeal.defs _ _).mono (fun _ h c =>
    ⟨?_, (h c Cert.ReferenceIdeal.main_arg0).trans (Cert.ReferenceIdeal.Run.args_kept _).1,
      (h c Cert.ReferenceIdeal.main_arg1).trans (Cert.ReferenceIdeal.Run.args_kept _).2⟩)
    (Cert.ReferenceIdeal.Run.run (F := Ideal) m' ρ')
  rw [h c Cert.ReferenceIdeal.main_v28,
    Cert.ReferenceIdeal.Assemble.ref_value _ (p c) (g c)
      (fun b j k => (congrFun (hagree c).1 _).trans (hp c b j k))
      (fun b j k => (congrFun (hagree c).2 _).trans (hg c b j k)),
    ← PolyMatch.kerLoss_eq_refLoss]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
